-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x64 : Shape := ⟨2, ![256, 64]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_arg4 : FVec F S256x64 .f32) (main_arg5 : FVec F S256x64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  main_v28

def fn {F : FTy → Type} [FloatOps F] (main_arg0 : FVec F S4x4096x256 .f32) (main_arg1 : FVec F S4x4096x256 .f32) (main_arg2 : FVec F S4x4096x256 .f32) (main_arg3 : FVec F S256x64 .f32) (main_arg4 : FVec F S256x64 .f32) (main_arg5 : FVec F S256x64 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  let main_v9 : FVec F S4x4096x256 .f32 := Host.absf main_arg2
  let main_cst_2 : FVec F S_ .f32 := constant S_ .f32 0x7F800000#32
  let main_v10 : FVec F S4x4096x256 .f32 := broadcastInDim S4x4096x256 ![] bcast_S_S4x4096x256 main_cst_2
  let main_v11 : IVec S4x4096x256 1 := cmpf .olt main_v9 main_v10
  let main_c_3 : IVec S_ 1 := constantI S_ 1 1#1
  let main_v12 : IVec S_ 1 := (fun x v => Host.reduce IntOp.andi x v reducesTo_S4x4096x256_S_d0_1_2 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_v13 main_v16
-- ==== Kernel.lean ====
abbrev S4x4096x256 : Shape := ⟨3, ![4, 4096, 256]⟩
abbrev S256x64 : Shape := ⟨2, ![256, 64]⟩
abbrev S10 : Shape := ⟨1, ![10]⟩
abbrev S4x4096x64 : Shape := ⟨3, ![4, 4096, 64]⟩
abbrev S1x2048x256 : Shape := ⟨3, ![1, 2048, 256]⟩
abbrev S1x2048x64 : Shape := ⟨3, ![1, 2048, 64]⟩
abbrev S2048x256 : Shape := ⟨2, ![2048, 256]⟩
abbrev S2048x64 : Shape := ⟨2, ![2048, 64]⟩
abbrev S1x1024x64 : Shape := ⟨3, ![1, 1024, 64]⟩
abbrev S1 : Shape := ⟨1, ![1]⟩
abbrev S1024x1 : Shape := ⟨2, ![1024, 1]⟩
abbrev S1024x64 : Shape := ⟨2, ![1024, 64]⟩
abbrev S64x1024 : Shape := ⟨2, ![64, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 10
  | .vmem => 26
  | .smem => 2
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .f32⟩
  | .hbm, ⟨3, _⟩ => ⟨S256x64, .f32⟩
  | .hbm, ⟨4, _⟩ => ⟨S256x64, .f32⟩
  | .hbm, ⟨5, _⟩ => ⟨S256x64, .f32⟩
  | .hbm, ⟨6, _⟩ => ⟨S4x4096x64, .bf16⟩
  | .hbm, ⟨7, _⟩ => ⟨S4x4096x64, .bf16⟩
  | .hbm, ⟨8, _⟩ => ⟨S4x4096x64, .bf16⟩
  | .hbm, ⟨9, _⟩ => ⟨S4x4096x64, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S1x2048x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x2048x64, .bf16⟩
  | .local _ .vmem, ⟨13, _⟩ => ⟨S1x2048x64, .bf16⟩
  | .local _ .vmem, ⟨14, _⟩ => ⟨S1x2048x64, .bf16⟩
  | .local _ .vmem, ⟨15, _⟩ => ⟨S1x1024x64, .bf16⟩
  | .local _ .vmem, ⟨16, _⟩ => ⟨S1x1024x64, .bf16⟩
  | .local _ .vmem, ⟨17, _⟩ => ⟨S1x1024x64, .bf16⟩
  | .local _ .vmem, ⟨18, _⟩ => ⟨S1x1024x64, .bf16⟩
  | .local _ .vmem, ⟨19, _⟩ => ⟨S1x1024x64, .bf16⟩
  | .local _ .vmem, ⟨20, _⟩ => ⟨S1x1024x64, .bf16⟩
  | .local _ .vmem, ⟨21, _⟩ => ⟨S1x1024x64, .f32⟩
  | .local _ .vmem, ⟨22, _⟩ => ⟨S1x1024x64, .f32⟩
  | .local _ .vmem, ⟨23, _⟩ => ⟨S1024x1, .f32⟩
  | .local _ .vmem, ⟨24, _⟩ => ⟨S1024x1, .f32⟩
  | .local _ .vmem, ⟨25, _⟩ => ⟨S1024x64, .f32⟩
  | .local _ .smem, ⟨0, _⟩ => ⟨S10, .i32⟩
  | .local _ .smem, ⟨1, _⟩ => ⟨S10, .i32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![4, 10], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_cond4 (v1 : BitVec 32) (v3 : BitVec 32) : BitVec 1 :=
  let v11 : BitVec 1 := Scalar.cmpi .eq v3 v1
  let v17 : BitVec 32 := Scalar.extui v11
  let c0_i32_5 : BitVec 32 := 0#32
  let v18 : BitVec 1 := Scalar.cmpi .ne v17 c0_i32_5
  v18

def cc1_transform_0 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_1 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_2 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_3 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  packedbf16_S1x2048x64_S1x2048x64_0_0_0 : (Rect.unit (s := S1x2048x64) ![0, 0, 0] S1x2048x64.size inb_S1x2048x64_S1x2048x64_0_0_0).PackedRows (EltTy.packing .bf16)
  numel1_S1 : S1.numel = 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  iota_S1024x1_d0_w32 : S1024x1.Iotas .tc 32 [0]
  iota_S1x1024_d1_w32 : S1x1024.Iotas .tc 32 [1]
  broadcasts_S1x1024_S1024x1024 : S1x1024.Broadcasts S1024x1024
  broadcasts_S1024x1_S1024x1024 : S1024x1.Broadcasts S1024x1024
  reduces_S1024x1024_S1024 : S1024x1024.Reduces [1] S1024
  shapeCasts_S1024_S1024x1 : S1024.ShapeCasts S1024x1
  broadcasts_S1024x1_S1024x64 : S1024x1.Broadcasts S1024x64
  shapeCasts_S1024x64_S1x1024x64 : S1024x64.ShapeCasts S1x1024x64
  dot_S2048x256_S256x64_S2048x64_1_0_0_1_n_n_wf : DotDims.WF S2048x256 S256x64 S2048x64 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S4x4096x256.size a
  hwx0_0 : ∀ i : grid0.Coords, EltTy.bits .f32 = 32 ∨ (Rect.block (s := S4x4096x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S4x4096x256.size a
  hwx0_1 : ∀ i : grid0.Coords, EltTy.bits .f32 = 32 ∨ (Rect.block (s := S4x4096x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S4x4096x256.size a
  hwx0_2 : ∀ i : grid0.Coords, EltTy.bits .f32 = 32 ∨ (Rect.block (s := S4x4096x256) S1x2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x64.size a ≤ S4x4096x64.size a
  hwx0_6 : ∀ i : grid0.Coords, EltTy.bits .bf16 = 32 ∨ (Rect.block (s := S4x4096x64) S1x2048x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x64.size a ≤ S4x4096x64.size a
  hwx0_7 : ∀ i : grid0.Coords, EltTy.bits .bf16 = 32 ∨ (Rect.block (s := S4x4096x64) S1x2048x64.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2048x64.size a ≤ S4x4096x64.size a
  hwx0_8 : ∀ i : grid0.Coords, EltTy.bits .bf16 = 32 ∨ (Rect.block (s := S4x4096x64) S1x2048x64.size (cc0_transform_8 i) (hinb0_8 i)).WholeWords (EltTy.packing .bf16)
  hrank1 : 0 < grid1.rank
  k1_off1_inb : ∀ i : grid1.Coords, ∀ a, (k1_off1 i) a + S1.size a ≤ S10.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'

variable [Facts₀]

def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg2) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1x2048x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x2048x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S1x2048x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev spec1_0 : Pipeline.WinSpec sig grid1.rank :=
  Pipeline.WinSpec.ofSpec (Memref.whole main_v0_0) S1x1024x64.size reads1_0 false false 2 stage1_0 sem1_0 nbuf1_0 hstage1_0

abbrev spec1_1 : Pipeline.WinSpec sig grid1.rank :=
  Pipeline.WinSpec.ofSpec (Memref.whole main_v0_1) S1x1024x64.size reads1_1 false false 2 stage1_1 sem1_1 nbuf1_1 hstage1_1

abbrev spec1_2 : Pipeline.WinSpec sig grid1.rank :=
  Pipeline.WinSpec.ofSpec (Memref.whole main_v0_2) S1x1024x64.size reads1_2 false false 2 stage1_2 sem1_2 nbuf1_2 hstage1_2

abbrev spec1_3 : Pipeline.WinSpec sig grid1.rank :=
  Pipeline.WinSpec.ofSpec (Memref.whole main_v1) S1x1024x64.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 k1_off1_inb numel1_S1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1024x64.size a ≤ S4x4096x64.size a), EltTy.bits .bf16 = 32 ∨ (Rect.block (s := S4x4096x64) S1x1024x64.size (cc1_transform_0 k1_off1_inb numel1_S1 pf i) h).WholeWords (EltTy.packing .bf16)) ∧
  (∀ i : grid1.Coords, ∃ h : (∀ a, (cc1_transform_1 k1_off1_inb numel1_S1 pf i a + 1) * S1x1024x64.size a ≤ S4x4096x64.size a), EltTy.bits .bf16 = 32 ∨ (Rect.block (s := S4x4096x64) S1x1024x64.size (cc1_transform_1 k1_off1_inb numel1_S1 pf i) h).WholeWords (EltTy.packing .bf16)) ∧
  (∀ i : grid1.Coords, ∃ h : (∀ a, (cc1_transform_2 k1_off1_inb numel1_S1 pf i a + 1) * S1x1024x64.size a ≤ S4x4096x64.size a), EltTy.bits .bf16 = 32 ∨ (Rect.block (s := S4x4096x64) S1x1024x64.size (cc1_transform_2 k1_off1_inb numel1_S1 pf i) h).WholeWords (EltTy.packing .bf16)) ∧
  (∀ i : grid1.Coords, ∃ h : (∀ a, (cc1_transform_3 k1_off1_inb numel1_S1 pf i a + 1) * S1x1024x64.size a ≤ S4x4096x64.size a), EltTy.bits .f32 = 32 ∨ (Rect.block (s := S4x4096x64) S1x1024x64.size (cc1_transform_3 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond4 (pf.atD 0 (k1_off1 i)) (pf.atD 1 (k1_off1 i)) == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S4x4096x256 : Shape := ⟨3, ![4, 4096, 256]⟩
abbrev S256x64 : Shape := ⟨2, ![256, 64]⟩
abbrev S4x4096x64 : Shape := ⟨3, ![4, 4096, 64]⟩
abbrev S4x4096x4096 : Shape := ⟨3, ![4, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S4x4096 : Shape := ⟨2, ![4, 4096]⟩
abbrev S4x4096x1 : Shape := ⟨3, ![4, 4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .f32⟩
  | .hbm, ⟨3, _⟩ => ⟨S256x64, .f32⟩
  | .hbm, ⟨4, _⟩ => ⟨S256x64, .f32⟩
  | .hbm, ⟨5, _⟩ => ⟨S256x64, .f32⟩
  | .hbm, ⟨6, _⟩ => ⟨S4x4096x64, .f32⟩
  | .hbm, ⟨7, _⟩ => ⟨S4x4096x64, .f32⟩
  | .hbm, ⟨8, _⟩ => ⟨S4x4096x64, .f32⟩
  | .hbm, ⟨9, _⟩ => ⟨S4x4096x4096, .f32⟩
  | .hbm, ⟨10, _⟩ => ⟨S_, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4096, .i32⟩
  | .hbm, ⟨15, _⟩ => ⟨S4096x1, .i32⟩
  | .hbm, ⟨16, _⟩ => ⟨S4096, .i32⟩
  | .hbm, ⟨17, _⟩ => ⟨S1x4096, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S1x4096x4096, .f32⟩
  | .hbm, ⟨28, _⟩ => ⟨S4x4096x4096, .f32⟩
  | .hbm, ⟨29, _⟩ => ⟨S4x4096x4096, .f32⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S4x4096, .f32⟩
  | .hbm, ⟨35, _⟩ => ⟨S4x4096x1, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S4x4096x4096, .f32⟩
  | .hbm, ⟨43, _⟩ => ⟨S4x4096x4096, .f32⟩
  | .hbm, ⟨44, _⟩ => ⟨S4x4096x64, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x256_S256x64_S4x4096x64_2_0_01_1_n_n_wf : DotDims.WF S4x4096x256 S256x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x256_S256x64_S4x4096x64_2_0_01_1_n_n : DotDims S4x4096x256 S256x64 S4x4096x64 where
  lhsContracting := [2]
  rhsContracting := [0]
  lhsNonContracting := [0, 1]
  rhsNonContracting := [1]
  lhsBatch := []
  rhsBatch := []
  wf := dot_S4x4096x256_S256x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.KR0.lean ====
/-
  The projection pipeline (the program's first pallas_call): its body reads three [2048, 256] blocks of input rows and
  the three [256, 64] weight matrices and stores, into three output blocks, each input block times its weight matrix.
  Here: the body's triple, what each window's staging buffer holds before and after the body at every grid point, and
  the body obligation of the pipeline — for any float instance.
-/
import proofs.«402334_j1417339207762_3_alg».proof.Proof.Gen.Kernel.Launch
import proofs.«402334_j1417339207762_3_alg».proof.Proof.Gen.Kernel.Skeleton
import proofs.«402334_j1417339207762_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer is read and written whole -/

abbrev rX : Rect S1x2048x256 := Rect.unit (s := S1x2048x256) ![0, 0, 0] S1x2048x256.size inb_S1x2048x256_S1x2048x256_0_0_0
abbrev rW : Rect S256x64 := Rect.unit (s := S256x64) ![0, 0] S256x64.size inb_S256x64_S256x64_0_0
abbrev rO : Rect S1x2048x64 := Rect.unit (s := S1x2048x64) ![0, 0, 0] S1x2048x64.size inb_S1x2048x64_S1x2048x64_0_0_0

/-! ## What the body leaves in each output block: the projection of the input block by the weight matrix -/

/-- The block of projected queries: the query-input block times the query weights. -/
def outQ (x : Vec F S1x2048x256 .f32) (w : Vec F S256x64 .f32) : Vec F S1x2048x64 .bf16 :=
  View.canon [⟨rO, k0_pay2 (View.ld x rX) (View.ld w rW)⟩]
/-- The block of projected keys. -/
def outK (x : Vec F S1x2048x256 .f32) (w : Vec F S256x64 .f32) : Vec F S1x2048x64 .bf16 :=
  View.canon [⟨rO, k0_pay3 (View.ld x rX) (View.ld w rW)⟩]
/-- The block of projected values. -/
def outV (x : Vec F S1x2048x256 .f32) (w : Vec F S256x64 .f32) : Vec F S1x2048x64 .bf16 :=
  View.canon [⟨rO, k0_pay1 (k0_pay4 (View.ld x rX) (View.ld w rW))⟩]

/-- One whole store covers its buffer. -/
theorem coverO (p0 : Vec F S1x2048x64 .bf16) (y : S1x2048x64.Idx) :
    ∃ pc ∈ ([⟨rO, p0⟩] : List (View.Piece (Elt F) S1x2048x64 .bf16)), y ∈ pc.1.set :=
  View.cover_of_tiled [⟨rO, p0⟩] S1x2048x64.size (by rfl) y

set_option maxHeartbeats 4000000 in
/-- The projection body on whole staging buffers: the six inputs are read and kept, each output buffer ends holding
    its projection. -/
theorem sound_kernel0 (c : Dev nD) (E : Set ℕ) (i : grid0.Coords)
    (arg2 : Memref sig .tc .vmem S1x2048x256 .f32) (harg2 : arg2.IsWhole) (arg3 : Memref sig .tc .vmem S1x2048x256 .f32) (harg3 : arg3.IsWhole)
    (arg4 : Memref sig .tc .vmem S1x2048x256 .f32) (harg4 : arg4.IsWhole) (arg5 : Memref sig .tc .vmem S256x64 .f32) (harg5 : arg5.IsWhole)
    (arg6 : Memref sig .tc .vmem S256x64 .f32) (harg6 : arg6.IsWhole) (arg7 : Memref sig .tc .vmem S256x64 .f32) (harg7 : arg7.IsWhole)
    (arg8 : Memref sig .tc .vmem S1x2048x64 .bf16) (harg8 : arg8.IsWhole) (arg9 : Memref sig .tc .vmem S1x2048x64 .bf16) (harg9 : arg9.IsWhole)
    (arg10 : Memref sig .tc .vmem S1x2048x64 .bf16) (harg10 : arg10.IsWhole)
    (x0 x1 x2 : Vec F S1x2048x256 .f32) (x3 x4 x5 : Vec F S256x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (outQ x0 x3) ∗ owns (c : Thread nD τ) arg9 fullShare (outK x1 x4)
            ∗ owns (c : Thread nD τ) arg10 fullShare (outV x2 x5)) -∗ K ⟨⟩))
      ⊢ wp frame (wpE (defs₀ (F := F)) Variants.none c none) E
          (cc0__proj_kernel i arg2 harg2 arg3 harg3 arg4 harg4 arg5 harg5 arg6 harg6 arg7 harg7 arg8 harg8 arg9 harg9 arg10 harg10) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    exact View.read_writes_eq_canon _ _ _ (coverO _)
  isplitl [H7]
  · iexists _; isplitr
    swap; · iexact H7
    ipureintro
    exact View.read_writes_eq_canon _ _ _ (coverO _)
  iexists _; isplitr
  swap; · iexact H8
  ipureintro
  exact View.read_writes_eq_canon _ _ _ (coverO _)

/-! ## The windows' blocks, and the pipeline's proof data at the contents `V` the region is entered with -/

section Data

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The proof data of the projection pipeline: the arrays as found; after the body each input buffer holds its block and
    each output buffer the projection of its input block; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => outQ (iblk0 V c 0 t) (iblk0 V c 3 t)
    | ⟨7, _⟩ => outK (iblk0 V c 1 t) (iblk0 V c 4 t)
    | ⟨8, _⟩ => outV (iblk0 V c 2 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = outQ (iblk0 V c 0 t) (iblk0 V c 3 t) := by dsimp only [dat0]
theorem after0_7 (c : Dev nD) (t : Fin cfg0.N) : (dat0 V c).after 7 t = outK (iblk0 V c 1 t) (iblk0 V c 4 t) := by dsimp only [dat0]
theorem after0_8 (c : Dev nD) (t : Fin cfg0.N) : (dat0 V c).after 8 t = outV (iblk0 V c 2 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Data

end Cert.Kernel.R0

end
-- ==== Proof.KR1Runs.lean ====
/-
  The attention body (the program's second pallas_call) run once per KIND of grid step, for any float instance. A step is
  the first of its query tile's run of key tiles or a later one (the carried shift, denominator and numerator are reset,
  or read), and the diagonal tile or one below it (scores masked and the output block stored, or not). For each of the
  four kinds: what the body leaves in the three carried buffers (and the output buffer), found by running it, with the
  proof that it runs so.
-/
import proofs.«402334_j1417339207762_3_alg».proof.Proof.Gen.Kernel.Launch
import proofs.«402334_j1417339207762_3_alg».proof.Proof.Gen.Kernel.Skeleton
import proofs.«402334_j1417339207762_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

set_option Elab.async false

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The tables and scratch buffers the attention body is handed, whole. -/
abbrev tbQ : Memref sig .tc .smem S10 .i32 := Memref.whole main_c
abbrev tbK : Memref sig .tc .smem S10 .i32 := Memref.whole main_c_0
abbrev scM : Memref sig .tc .vmem S1024x1 .f32 := Memref.whole cc1_scratch0
abbrev scL : Memref sig .tc .vmem S1024x1 .f32 := Memref.whole cc1_scratch1
abbrev scA : Memref sig .tc .vmem S1024x64 .f32 := Memref.whole cc1_scratch2

set_option maxHeartbeats 8000000 in
/-- The body at a grid point that starts a query tile's run of key tiles (the carried buffers are reset) and
    is the diagonal tile (masked scores; the output block is stored): what it leaves in the carried buffers and the output buffer, with the proof. -/
noncomputable def runA (c : Dev nD) (i : grid1.Coords)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .f32) (harg7 : arg7.IsWhole)
    (T0 T1 : S10.Idx → Elt F .i32) (xq xk xv : S1x1024x64.Idx → Elt F .bf16)
    (h6 : ((Scalar.cmpi .ne (Scalar.extui (Scalar.cmpi .eq (View.readAt (Elt F) tbK.view (Rect.unit (s := S10) (k1_off1 i) S1.size (k1_off1_inb i)).toLoadRect T1 (Shape.Idx.first (numel1_S1.symm ▸ Nat.one_pos))) 0#32)) 0#32) = 1#1))
    (h4 : (k1_cond4 (View.readAt (Elt F) tbQ.view (Rect.unit (s := S10) (k1_off1 i) S1.size (k1_off1_inb i)).toLoadRect T0 (Shape.Idx.first (numel1_S1.symm ▸ Nat.one_pos))) (View.readAt (Elt F) tbK.view (Rect.unit (s := S10) (k1_off1 i) S1.size (k1_off1_inb i)).toLoadRect T1 (Shape.Idx.first (numel1_S1.symm ▸ Nat.one_pos))) = 1#1))
    (h16 : ¬((Scalar.cmpi .ne (Scalar.extui (Scalar.xori (Scalar.cmpi .eq (View.readAt (Elt F) tbK.view (Rect.unit (s := S10) (k1_off1 i) S1.size (k1_off1_inb i)).toLoadRect T1 (Shape.Idx.first (numel1_S1.symm ▸ Nat.one_pos))) (View.readAt (Elt F) tbQ.view (Rect.unit (s := S10) (k1_off1 i) S1.size (k1_off1_inb i)).toLoadRect T0 (Shape.Idx.first (numel1_S1.symm ▸ Nat.one_pos)))) 1#1)) 0#32) = 1#1)) :
    Σ' (o7 : List (View.Piece (Elt F) S1x1024x64 .f32)) (om : Buf (Elt F) ((c : Thread nD τ).loc cc1_scratch0)) (ol : Buf (Elt F) ((c : Thread nD τ).loc cc1_scratch1)), { oa : Buf (Elt F) ((c : Thread nD τ).loc cc1_scratch2) //
      ∀ (sm : Buf (Elt F) ((c : Thread nD τ).loc cc1_scratch0)) (sl : Buf (Elt F) ((c : Thread nD τ).loc cc1_scratch1)) (sa : Buf (Elt F) ((c : Thread nD τ).loc cc1_scratch2)) (K : PUnit → sProp 𝕄),
        iprop((arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (tbQ.view.loc (c : Thread nD τ) ↦{fullShare} T0)
          ∗ (tbK.view.loc (c : Thread nD τ) ↦{fullShare} T1)
          ∗ (∃ d, owns (c : Thread nD τ) arg7 fullShare d)
          ∗ (scM.view.loc (c : Thread nD τ) ↦{fullShare} sm)
          ∗ (scL.view.loc (c : Thread nD τ) ↦{fullShare} sl)
          ∗ (scA.view.loc (c : Thread nD τ) ↦{fullShare} sa)
          ∗ (iprop((arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (tbQ.view.loc (c : Thread nD τ) ↦{fullShare} T0)
          ∗ (tbK.view.loc (c : Thread nD τ) ↦{fullShare} T1)
              ∗ (∃ f, arg7.view.loc (c : Thread nD τ) ↦[arg7.view.set]{fullShare} arg7.view.writes (Elt F) f o7)
              ∗ (scM.view.loc (c : Thread nD τ) ↦{fullShare} om)
              ∗ (scL.view.loc (c : Thread nD τ) ↦{fullShare} ol)
              ∗ (scA.view.loc (c : Thread nD τ) ↦{fullShare} oa)) -∗ K ⟨⟩))
          ⊢ wp frame (wpE (defs₀ (F := F)) Variants.none c none) Set.univ
          (cc1__attn_kernel i tbQ (Memref.isWhole_whole _) tbK (Memref.isWhole_whole _) arg4 harg4 arg5 harg5 arg6 harg6 arg7 harg7
            scM (Memref.isWhole_whole _) scL (Memref.isWhole_whole _) scA (Memref.isWhole_whole _)) K } :=
  ⟨_, _, _, _, fun sm sl sa K => by
    unfold owns
    rw [cc1__attn_kernel_eq_skeleton]; unfold cc1__attn_kernel_skel
    iintro ⟨H4, H5, H6, HT0, HT1, ⟨%d7, %f7, -, H7⟩, HSM, HSL, HSA, Hk⟩
    have hSM : scM.IsWhole := Memref.isWhole_whole _
    have hSL : scL.IsWhole := Memref.isWhole_whole _
    have hSA : scA.IsWhole := Memref.isWhole_whole _
    have hT0 : tbQ.IsWhole := Memref.isWhole_whole _
    have hT1 : tbK.IsWhole := Memref.isWhole_whole _
    sl_exec! (disch := first | exact h6 | exact h4 | exact h16)
    sl_step
    iapply Hk
    isplitl [H4]; · iexact H4
    isplitl [H5]; · iexact H5
    isplitl [H6]; · iexact H6
    isplitl [HT0]; · iexact HT0
    isplitl [HT1]; · iexact HT1
    isplitl [H7]; · iexists _; iexact H7
    isplitl [HSM]; · iexact HSM
    isplitl [HSL]; · iexact HSL
    iexact HSA⟩

set_option maxHeartbeats 8000000 in
/-- The body at a grid point that starts a query tile's run of key tiles (the carried buffers are reset) and
    is a tile below the diagonal (the output buffer is left alone): what it leaves in the carried buffers, with the proof. -/
noncomputable def runB (c : Dev nD) (i : grid1.Coords)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .f32) (harg7 : arg7.IsWhole)
    (T0 T1 : S10.Idx → Elt F .i32) (xq xk xv : S1x1024x64.Idx → Elt F .bf16)
    (h6 : ((Scalar.cmpi .ne (Scalar.extui (Scalar.cmpi .eq (View.readAt (Elt F) tbK.view (Rect.unit (s := S10) (k1_off1 i) S1.size (k1_off1_inb i)).toLoadRect T1 (Shape.Idx.first (numel1_S1.symm ▸ Nat.one_pos))) 0#32)) 0#32) = 1#1))
    (h4 : ¬(k1_cond4 (View.readAt (Elt F) tbQ.view (Rect.unit (s := S10) (k1_off1 i) S1.size (k1_off1_inb i)).toLoadRect T0 (Shape.Idx.first (numel1_S1.symm ▸ Nat.one_pos))) (View.readAt (Elt F) tbK.view (Rect.unit (s := S10) (k1_off1 i) S1.size (k1_off1_inb i)).toLoadRect T1 (Shape.Idx.first (numel1_S1.symm ▸ Nat.one_pos))) = 1#1))
    (h16 : ((Scalar.cmpi .ne (Scalar.extui (Scalar.xori (Scalar.cmpi .eq (View.readAt (Elt F) tbK.view (Rect.unit (s := S10) (k1_off1 i) S1.size (k1_off1_inb i)).toLoadRect T1 (Shape.Idx.first (numel1_S1.symm ▸ Nat.one_pos))) (View.readAt (Elt F) tbQ.view (Rect.unit (s := S10) (k1_off1 i) S1.size (k1_off1_inb i)).toLoadRect T0 (Shape.Idx.first (numel1_S1.symm ▸ Nat.one_pos)))) 1#1)) 0#32) = 1#1)) :
    Σ' (om : Buf (Elt F) ((c : Thread nD τ).loc cc1_scratch0)) (ol : Buf (Elt F) ((c : Thread nD τ).loc cc1_scratch1)), { oa : Buf (Elt F) ((c : Thread nD τ).loc cc1_scratch2) //
      ∀ (sm : Buf (Elt F) ((c : Thread nD τ).loc cc1_scratch0)) (sl : Buf (Elt F) ((c : Thread nD τ).loc cc1_scratch1)) (sa : Buf (Elt F) ((c : Thread nD τ).loc cc1_scratch2)) (y : S1x1024x64.Idx → Elt F .f32) (K : PUnit → sProp 𝕄),
        iprop((arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (tbQ.view.loc (c : Thread nD τ) ↦{fullShare} T0)
          ∗ (tbK.view.loc (c : Thread nD τ) ↦{fullShare} T1)
          ∗ owns (c : Thread nD τ) arg7 fullShare y
          ∗ (scM.view.loc (c : Thread nD τ) ↦{fullShare} sm)
          ∗ (scL.view.loc (c : Thread nD τ) ↦{fullShare} sl)
          ∗ (scA.view.loc (c : Thread nD τ) ↦{fullShare} sa)
          ∗ (iprop((arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (tbQ.view.loc (c : Thread nD τ) ↦{fullShare} T0)
          ∗ (tbK.view.loc (c : Thread nD τ) ↦{fullShare} T1)
              ∗ owns (c : Thread nD τ) arg7 fullShare y
              ∗ (scM.view.loc (c : Thread nD τ) ↦{fullShare} om)
              ∗ (scL.view.loc (c : Thread nD τ) ↦{fullShare} ol)
              ∗ (scA.view.loc (c : Thread nD τ) ↦{fullShare} oa)) -∗ K ⟨⟩))
          ⊢ wp frame (wpE (defs₀ (F := F)) Variants.none c none) Set.univ
          (cc1__attn_kernel i tbQ (Memref.isWhole_whole _) tbK (Memref.isWhole_whole _) arg4 harg4 arg5 harg5 arg6 harg6 arg7 harg7
            scM (Memref.isWhole_whole _) scL (Memref.isWhole_whole _) scA (Memref.isWhole_whole _)) K } :=
  ⟨_, _, _, fun sm sl sa y K => by
    unfold owns
    rw [cc1__attn_kernel_eq_skeleton]; unfold cc1__attn_kernel_skel
    iintro ⟨H4, H5, H6, HT0, HT1, ⟨%f7, %hf7, H7⟩, HSM, HSL, HSA, Hk⟩
    obtain rfl := harg7.eq_unread hf7
    have hSM : scM.IsWhole := Memref.isWhole_whole _
    have hSL : scL.IsWhole := Memref.isWhole_whole _
    have hSA : scA.IsWhole := Memref.isWhole_whole _
    have hT0 : tbQ.IsWhole := Memref.isWhole_whole _
    have hT1 : tbK.IsWhole := Memref.isWhole_whole _
    sl_exec! (disch := first | exact h6 | exact h4 | exact h16)
    sl_step
    iapply Hk
    isplitl [H4]; · iexact H4
    isplitl [H5]; · iexact H5
    isplitl [H6]; · iexact H6
    isplitl [HT0]; · iexact HT0
    isplitl [HT1]; · iexact HT1
    isplitl [H7]
    · iexists _; isplitr; · ipureintro; exact harg7.read_unread _
      iexact H7
    isplitl [HSM]; · iexact HSM
    isplitl [HSL]; · iexact HSL
    iexact HSA⟩

set_option maxHeartbeats 8000000 in
/-- The body at a grid point that continues a run (the carried buffers are read) and
    is a tile below the diagonal (the output buffer is left alone): what it leaves in the carried buffers, with the proof. -/
noncomputable def runC (c : Dev nD) (i : grid1.Coords)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .f32) (harg7 : arg7.IsWhole)
    (T0 T1 : S10.Idx → Elt F .i32) (xq xk xv : S1x1024x64.Idx → Elt F .bf16) (sm : Buf (Elt F) ((c : Thread nD τ).loc cc1_scratch0)) (sl : Buf (Elt F) ((c : Thread nD τ).loc cc1_scratch1)) (sa : Buf (Elt F) ((c : Thread nD τ).loc cc1_scratch2))
    (h6 : ¬((Scalar.cmpi .ne (Scalar.extui (Scalar.cmpi .eq (View.readAt (Elt F) tbK.view (Rect.unit (s := S10) (k1_off1 i) S1.size (k1_off1_inb i)).toLoadRect T1 (Shape.Idx.first (numel1_S1.symm ▸ Nat.one_pos))) 0#32)) 0#32) = 1#1))
    (h4 : ¬(k1_cond4 (View.readAt (Elt F) tbQ.view (Rect.unit (s := S10) (k1_off1 i) S1.size (k1_off1_inb i)).toLoadRect T0 (Shape.Idx.first (numel1_S1.symm ▸ Nat.one_pos))) (View.readAt (Elt F) tbK.view (Rect.unit (s := S10) (k1_off1 i) S1.size (k1_off1_inb i)).toLoadRect T1 (Shape.Idx.first (numel1_S1.symm ▸ Nat.one_pos))) = 1#1))
    (h16 : ((Scalar.cmpi .ne (Scalar.extui (Scalar.xori (Scalar.cmpi .eq (View.readAt (Elt F) tbK.view (Rect.unit (s := S10) (k1_off1 i) S1.size (k1_off1_inb i)).toLoadRect T1 (Shape.Idx.first (numel1_S1.symm ▸ Nat.one_pos))) (View.readAt (Elt F) tbQ.view (Rect.unit (s := S10) (k1_off1 i) S1.size (k1_off1_inb i)).toLoadRect T0 (Shape.Idx.first (numel1_S1.symm ▸ Nat.one_pos)))) 1#1)) 0#32) = 1#1)) :
    Σ' (om : Buf (Elt F) ((c : Thread nD τ).loc cc1_scratch0)) (ol : Buf (Elt F) ((c : Thread nD τ).loc cc1_scratch1)), { oa : Buf (Elt F) ((c : Thread nD τ).loc cc1_scratch2) //
      ∀ (y : S1x1024x64.Idx → Elt F .f32) (K : PUnit → sProp 𝕄),
        iprop((arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (tbQ.view.loc (c : Thread nD τ) ↦{fullShare} T0)
          ∗ (tbK.view.loc (c : Thread nD τ) ↦{fullShare} T1)
          ∗ owns (c : Thread nD τ) arg7 fullShare y
          ∗ (scM.view.loc (c : Thread nD τ) ↦{fullShare} sm)
          ∗ (scL.view.loc (c : Thread nD τ) ↦{fullShare} sl)
          ∗ (scA.view.loc (c : Thread nD τ) ↦{fullShare} sa)
          ∗ (iprop((arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (tbQ.view.loc (c : Thread nD τ) ↦{fullShare} T0)
          ∗ (tbK.view.loc (c : Thread nD τ) ↦{fullShare} T1)
              ∗ owns (c : Thread nD τ) arg7 fullShare y
              ∗ (scM.view.loc (c : Thread nD τ) ↦{fullShare} om)
              ∗ (scL.view.loc (c : Thread nD τ) ↦{fullShare} ol)
              ∗ (scA.view.loc (c : Thread nD τ) ↦{fullShare} oa)) -∗ K ⟨⟩))
          ⊢ wp frame (wpE (defs₀ (F := F)) Variants.none c none) Set.univ
          (cc1__attn_kernel i tbQ (Memref.isWhole_whole _) tbK (Memref.isWhole_whole _) arg4 harg4 arg5 harg5 arg6 harg6 arg7 harg7
            scM (Memref.isWhole_whole _) scL (Memref.isWhole_whole _) scA (Memref.isWhole_whole _)) K } :=
  ⟨_, _, _, fun y K => by
    unfold owns
    rw [cc1__attn_kernel_eq_skeleton]; unfold cc1__attn_kernel_skel
    iintro ⟨H4, H5, H6, HT0, HT1, ⟨%f7, %hf7, H7⟩, HSM, HSL, HSA, Hk⟩
    obtain rfl := harg7.eq_unread hf7
    have hSM : scM.IsWhole := Memref.isWhole_whole _
    have hSL : scL.IsWhole := Memref.isWhole_whole _
    have hSA : scA.IsWhole := Memref.isWhole_whole _
    have hT0 : tbQ.IsWhole := Memref.isWhole_whole _
    have hT1 : tbK.IsWhole := Memref.isWhole_whole _
    sl_exec! (disch := first | exact h6 | exact h4 | exact h16)
    sl_step
    iapply Hk
    isplitl [H4]; · iexact H4
    isplitl [H5]; · iexact H5
    isplitl [H6]; · iexact H6
    isplitl [HT0]; · iexact HT0
    isplitl [HT1]; · iexact HT1
    isplitl [H7]
    · iexists _; isplitr; · ipureintro; exact harg7.read_unread _
      iexact H7
    isplitl [HSM]; · iexact HSM
    isplitl [HSL]; · iexact HSL
    iexact HSA⟩

set_option maxHeartbeats 8000000 in
/-- The body at a grid point that continues a run (the carried buffers are read) and
    is the diagonal tile (masked scores; the output block is stored): what it leaves in the carried buffers and the output buffer, with the proof. -/
noncomputable def runD (c : Dev nD) (i : grid1.Coords)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .f32) (harg7 : arg7.IsWhole)
    (T0 T1 : S10.Idx → Elt F .i32) (xq xk xv : S1x1024x64.Idx → Elt F .bf16) (sm : Buf (Elt F) ((c : Thread nD τ).loc cc1_scratch0)) (sl : Buf (Elt F) ((c : Thread nD τ).loc cc1_scratch1)) (sa : Buf (Elt F) ((c : Thread nD τ).loc cc1_scratch2))
    (h6 : ¬((Scalar.cmpi .ne (Scalar.extui (Scalar.cmpi .eq (View.readAt (Elt F) tbK.view (Rect.unit (s := S10) (k1_off1 i) S1.size (k1_off1_inb i)).toLoadRect T1 (Shape.Idx.first (numel1_S1.symm ▸ Nat.one_pos))) 0#32)) 0#32) = 1#1))
    (h4 : (k1_cond4 (View.readAt (Elt F) tbQ.view (Rect.unit (s := S10) (k1_off1 i) S1.size (k1_off1_inb i)).toLoadRect T0 (Shape.Idx.first (numel1_S1.symm ▸ Nat.one_pos))) (View.readAt (Elt F) tbK.view (Rect.unit (s := S10) (k1_off1 i) S1.size (k1_off1_inb i)).toLoadRect T1 (Shape.Idx.first (numel1_S1.symm ▸ Nat.one_pos))) = 1#1))
    (h16 : ¬((Scalar.cmpi .ne (Scalar.extui (Scalar.xori (Scalar.cmpi .eq (View.readAt (Elt F) tbK.view (Rect.unit (s := S10) (k1_off1 i) S1.size (k1_off1_inb i)).toLoadRect T1 (Shape.Idx.first (numel1_S1.symm ▸ Nat.one_pos))) (View.readAt (Elt F) tbQ.view (Rect.unit (s := S10) (k1_off1 i) S1.size (k1_off1_inb i)).toLoadRect T0 (Shape.Idx.first (numel1_S1.symm ▸ Nat.one_pos)))) 1#1)) 0#32) = 1#1)) :
    Σ' (o7 : List (View.Piece (Elt F) S1x1024x64 .f32)) (om : Buf (Elt F) ((c : Thread nD τ).loc cc1_scratch0)) (ol : Buf (Elt F) ((c : Thread nD τ).loc cc1_scratch1)), { oa : Buf (Elt F) ((c : Thread nD τ).loc cc1_scratch2) //
      ∀ (K : PUnit → sProp 𝕄),
        iprop((arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (tbQ.view.loc (c : Thread nD τ) ↦{fullShare} T0)
          ∗ (tbK.view.loc (c : Thread nD τ) ↦{fullShare} T1)
          ∗ (∃ d, owns (c : Thread nD τ) arg7 fullShare d)
          ∗ (scM.view.loc (c : Thread nD τ) ↦{fullShare} sm)
          ∗ (scL.view.loc (c : Thread nD τ) ↦{fullShare} sl)
          ∗ (scA.view.loc (c : Thread nD τ) ↦{fullShare} sa)
          ∗ (iprop((arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (tbQ.view.loc (c : Thread nD τ) ↦{fullShare} T0)
          ∗ (tbK.view.loc (c : Thread nD τ) ↦{fullShare} T1)
              ∗ (∃ f, arg7.view.loc (c : Thread nD τ) ↦[arg7.view.set]{fullShare} arg7.view.writes (Elt F) f o7)
              ∗ (scM.view.loc (c : Thread nD τ) ↦{fullShare} om)
              ∗ (scL.view.loc (c : Thread nD τ) ↦{fullShare} ol)
              ∗ (scA.view.loc (c : Thread nD τ) ↦{fullShare} oa)) -∗ K ⟨⟩))
          ⊢ wp frame (wpE (defs₀ (F := F)) Variants.none c none) Set.univ
          (cc1__attn_kernel i tbQ (Memref.isWhole_whole _) tbK (Memref.isWhole_whole _) arg4 harg4 arg5 harg5 arg6 harg6 arg7 harg7
            scM (Memref.isWhole_whole _) scL (Memref.isWhole_whole _) scA (Memref.isWhole_whole _)) K } :=
  ⟨_, _, _, _, fun K => by
    unfold owns
    rw [cc1__attn_kernel_eq_skeleton]; unfold cc1__attn_kernel_skel
    iintro ⟨H4, H5, H6, HT0, HT1, ⟨%d7, %f7, -, H7⟩, HSM, HSL, HSA, Hk⟩
    have hSM : scM.IsWhole := Memref.isWhole_whole _
    have hSL : scL.IsWhole := Memref.isWhole_whole _
    have hSA : scA.IsWhole := Memref.isWhole_whole _
    have hT0 : tbQ.IsWhole := Memref.isWhole_whole _
    have hT1 : tbK.IsWhole := Memref.isWhole_whole _
    sl_exec! (disch := first | exact h6 | exact h4 | exact h16)
    sl_step
    iapply Hk
    isplitl [H4]; · iexact H4
    isplitl [H5]; · iexact H5
    isplitl [H6]; · iexact H6
    isplitl [HT0]; · iexact HT0
    isplitl [HT1]; · iexact HT1
    isplitl [H7]; · iexists _; iexact H7
    isplitl [HSM]; · iexact HSM
    isplitl [HSL]; · iexact HSL
    iexact HSA⟩

end Cert.Kernel.R1

end
-- ==== Proof.KR1.lean ====
/-
  The attention pipeline at the contents of its two prefetched tables (the query-tile and key-tile index of each of the ten
  steps per batch): which kind of step each grid point is, decided over the forty points; the trajectory of the output
  buffer and of the three carried buffers over the points; the pipeline's proof data and invariant; and the body
  obligation at every point, by the step's kind.
-/
import proofs.«402334_j1417339207762_3_alg».proof.Proof.Gen.Kernel.Launch
import proofs.«402334_j1417339207762_3_alg».proof.Proof.Gen.Kernel.Skeleton
import proofs.«402334_j1417339207762_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic
import Idealize.ShloMosaic.PureOps.BitExact
import Idealize.ShloMosaic.PureOps.Ideal
import proofs.«402334_j1417339207762_3_alg».proof.Proof.KR1Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The instance the programs are read at. -/
local notation "𝔽" => Bits

local notation "𝕄" => MT nD τ sig Unit (Elt 𝔽) ℕ (UR sig nD τ) ℕ

/-! ## The pipeline at the tables' contents -/

/-- The two tables as @main's constants fill them: the query-tile index and the key-tile index of each of the ten steps. -/
abbrev T0c : S10.Idx → Elt 𝔽 .i32 := fun x => lit0 (S10.rowMajor x)
abbrev T1c : S10.Idx → Elt 𝔽 .i32 := fun x => lit1 (S10.rowMajor x)
def pfT : pre1.Contents (Elt 𝔽) := fun | ⟨0, _⟩ => T0c | ⟨1, _⟩ => T1c | ⟨_ + 2, h⟩ => absurd h (Nat.not_lt.2 (Nat.le_add_left _ _))

/-- Every block the tables select lies inside its array. -/
theorem ok_pfT : ok1 (F := 𝔽) (pfT) := by decide +kernel

def adm : (pcfg1 (F := 𝔽)).Adm := ⟨pfT, ok_pfT⟩
abbrev cfgA : Pipeline.Cfg sig Λ₀ := cfg1 (F := 𝔽) adm
abbrev crd (t : Fin cfgA.N) : cfgA.grid.Coords := cfgA.grid.coords t

abbrev wQ (i : grid1.Coords) : BitVec 32 := (View.readAt (Elt 𝔽) tbQ.view (Rect.unit (s := S10) (k1_off1 i) S1.size (k1_off1_inb i)).toLoadRect (T0c) (Shape.Idx.first (numel1_S1.symm ▸ Nat.one_pos)))
abbrev wK (i : grid1.Coords) : BitVec 32 := (View.readAt (Elt 𝔽) tbK.view (Rect.unit (s := S10) (k1_off1 i) S1.size (k1_off1_inb i)).toLoadRect (T1c) (Shape.Idx.first (numel1_S1.symm ▸ Nat.one_pos)))

/-- The step is the first of its query tile's run (key tile 0). -/
abbrev P6 (t : Fin cfgA.N) : Prop := (Scalar.cmpi .ne (Scalar.extui (Scalar.cmpi .eq (wK (crd t)) 0#32)) 0#32) = 1#1
/-- The step is the diagonal one (key tile = query tile), the last of its run. -/
abbrev P4 (t : Fin cfgA.N) : Prop := k1_cond4 (wQ (crd t)) (wK (crd t)) = 1#1
abbrev P16 (t : Fin cfgA.N) : Prop := (Scalar.cmpi .ne (Scalar.extui (Scalar.xori (Scalar.cmpi .eq (wK (crd t)) (wQ (crd t))) 1#1)) 0#32) = 1#1

abbrev FactsAt (t : Fin cfgA.N) : Prop :=
  (P16 t ↔ ¬ P4 t)
  ∧ (cfgA.idle (3 : Fin 4) (cfgA.grid.coords t) = !decide (P4 t))
  ∧ ((cfgA.win (3 : Fin 4)).flush t = decide (P4 t))
  ∧ (t.val = 0 → P6 t)

theorem allFacts : ∀ t : Fin cfgA.N, FactsAt t := by decide +kernel

/-! ## A point's staging buffers and blocks -/

abbrev ms0 (t : Fin cfgA.N) : Memref sig .tc .vmem S1x1024x64 .bf16 := spec1_0.stage (cfgA.slots t (0 : Fin 4))
abbrev hs0 (t : Fin cfgA.N) : (ms0 t).IsWhole := hstage1_0 ((cfgA.slots t (0 : Fin 4)).cast nbuf1_0)
abbrev ms1 (t : Fin cfgA.N) : Memref sig .tc .vmem S1x1024x64 .bf16 := spec1_1.stage (cfgA.slots t (1 : Fin 4))
abbrev hs1 (t : Fin cfgA.N) : (ms1 t).IsWhole := hstage1_1 ((cfgA.slots t (1 : Fin 4)).cast nbuf1_1)
abbrev ms2 (t : Fin cfgA.N) : Memref sig .tc .vmem S1x1024x64 .bf16 := spec1_2.stage (cfgA.slots t (2 : Fin 4))
abbrev hs2 (t : Fin cfgA.N) : (ms2 t).IsWhole := hstage1_2 ((cfgA.slots t (2 : Fin 4)).cast nbuf1_2)
abbrev ms3 (t : Fin cfgA.N) : Memref sig .tc .vmem S1x1024x64 .f32 := spec1_3.stage (cfgA.slots t (3 : Fin 4))
abbrev hs3 (t : Fin cfgA.N) : (ms3 t).IsWhole := hstage1_3 ((cfgA.slots t (3 : Fin 4)).cast nbuf1_3)

section Data

variable (V : (c : Dev nD) → (b : Ref sig .tc) → Buf (Elt 𝔽) ((c : Thread nD τ).loc b))

/-- Window `w`'s block at grid point `t`, read off its array as the region finds it. -/
def iblk (c : Dev nD) (w : Fin cfgA.W) (t : Fin cfgA.N) : ((cfgA.win w).xblock (crd t)).Idx → Elt 𝔽 (cfgA.win w).elt :=
  ((cfgA.win w).blk t).view.read (Elt 𝔽) (V c (Pipeline.arrRef spec1 w))

theorem h16_of (t : Fin cfgA.N) (q4 : P4 t) : ¬ P16 t := fun h => ((allFacts t).1.mp h) q4
theorem h16_of_not (t : Fin cfgA.N) (q4 : ¬ P4 t) : P16 t := (allFacts t).1.mpr q4

/-- One staging buffer of the output window, through which a stored block's contents are stated. -/
abbrev VO : View sig .tc .vmem S1x1024x64 .f32 := (Memref.whole cc1_stg3_0 : Memref sig .tc .vmem S1x1024x64 .f32).view

/-- What a list of stored pieces leaves in the output buffer, read back. -/
def outOf (L : List (View.Piece (Elt 𝔽) S1x1024x64 .f32)) : S1x1024x64.Idx → Elt 𝔽 .f32 :=
  VO.read (Elt 𝔽) (VO.writes (Elt 𝔽) VO.junk L)

/-! ## What the output buffer and the three carried buffers hold after each point -/

/-- One step: from what the carried buffers held (`prev`), what the output buffer and the carried buffers hold after the
    body at point `t`, by the step's kind. A step that stores no output leaves the output buffer's contents unnamed. -/
def step (c : Dev nD) (t : Fin cfgA.N) (prev : ((S1x1024x64.Idx → Elt 𝔽 .f32) × Buf (Elt 𝔽) ((c : Thread nD τ).loc cc1_scratch0) × Buf (Elt 𝔽) ((c : Thread nD τ).loc cc1_scratch1) × Buf (Elt 𝔽) ((c : Thread nD τ).loc cc1_scratch2))) : ((S1x1024x64.Idx → Elt 𝔽 .f32) × Buf (Elt 𝔽) ((c : Thread nD τ).loc cc1_scratch0) × Buf (Elt 𝔽) ((c : Thread nD τ).loc cc1_scratch1) × Buf (Elt 𝔽) ((c : Thread nD τ).loc cc1_scratch2)) :=
  if q6 : P6 t then
    if q4 : P4 t then
      (outOf (runA c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of t q4)).1,
        (runA c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of t q4)).2.1,
        (runA c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of t q4)).2.2.1,
        (runA c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of t q4)).2.2.2.1)
    else
      (default,
        (runB c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of_not t q4)).1,
        (runB c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of_not t q4)).2.1,
        (runB c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of_not t q4)).2.2.1)
  else
    if q4 : P4 t then
      (outOf (runD c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) prev.2.1 prev.2.2.1 prev.2.2.2 q6 q4 (h16_of t q4)).1,
        (runD c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) prev.2.1 prev.2.2.1 prev.2.2.2 q6 q4 (h16_of t q4)).2.1,
        (runD c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) prev.2.1 prev.2.2.1 prev.2.2.2 q6 q4 (h16_of t q4)).2.2.1,
        (runD c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) prev.2.1 prev.2.2.1 prev.2.2.2 q6 q4 (h16_of t q4)).2.2.2.1)
    else
      (default,
        (runC c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) prev.2.1 prev.2.2.1 prev.2.2.2 q6 q4 (h16_of_not t q4)).1,
        (runC c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) prev.2.1 prev.2.2.1 prev.2.2.2 q6 q4 (h16_of_not t q4)).2.1,
        (runC c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) prev.2.1 prev.2.2.1 prev.2.2.2 q6 q4 (h16_of_not t q4)).2.2.1)

/-- The trajectory: after position `n`. -/
def traj (c : Dev nD) : (n : ℕ) → n < cfgA.N → ((S1x1024x64.Idx → Elt 𝔽 .f32) × Buf (Elt 𝔽) ((c : Thread nD τ).loc cc1_scratch0) × Buf (Elt 𝔽) ((c : Thread nD τ).loc cc1_scratch1) × Buf (Elt 𝔽) ((c : Thread nD τ).loc cc1_scratch2))
  | 0, h => step V c ⟨0, h⟩ (default, default, default, default)
  | n + 1, h => step V c ⟨n + 1, h⟩ (traj c n (Nat.lt_of_succ_lt h))

/-- What they held BEFORE point `t` (unnamed before the first). -/
def prev (c : Dev nD) (t : Fin cfgA.N) : ((S1x1024x64.Idx → Elt 𝔽 .f32) × Buf (Elt 𝔽) ((c : Thread nD τ).loc cc1_scratch0) × Buf (Elt 𝔽) ((c : Thread nD τ).loc cc1_scratch1) × Buf (Elt 𝔽) ((c : Thread nD τ).loc cc1_scratch2)) :=
  if h : t.val = 0 then (default, default, default, default) else traj V c (t.val - 1) (by omega)

theorem traj_eq (c : Dev nD) (t : Fin cfgA.N) : traj V c t.val t.isLt = step V c t (prev V c t) := by
  obtain ⟨n, hn⟩ := t
  cases n with
  | zero => rfl
  | succ n => unfold prev; simp only [Nat.add_one_ne_zero, dif_neg, not_false_eq_true]; rfl

theorem step_A (c : Dev nD) (t : Fin cfgA.N) (p : ((S1x1024x64.Idx → Elt 𝔽 .f32) × Buf (Elt 𝔽) ((c : Thread nD τ).loc cc1_scratch0) × Buf (Elt 𝔽) ((c : Thread nD τ).loc cc1_scratch1) × Buf (Elt 𝔽) ((c : Thread nD τ).loc cc1_scratch2))) (q6 : P6 t) (q4 : P4 t) :
    step V c t p = (outOf (runA c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of t q4)).1,
        (runA c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of t q4)).2.1,
        (runA c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of t q4)).2.2.1,
        (runA c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of t q4)).2.2.2.1) := by
  unfold step; simp only [dif_pos q6, dif_pos q4]
theorem step_B (c : Dev nD) (t : Fin cfgA.N) (p : ((S1x1024x64.Idx → Elt 𝔽 .f32) × Buf (Elt 𝔽) ((c : Thread nD τ).loc cc1_scratch0) × Buf (Elt 𝔽) ((c : Thread nD τ).loc cc1_scratch1) × Buf (Elt 𝔽) ((c : Thread nD τ).loc cc1_scratch2))) (q6 : P6 t) (q4 : ¬ P4 t) :
    step V c t p = (default,
        (runB c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of_not t q4)).1,
        (runB c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of_not t q4)).2.1,
        (runB c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of_not t q4)).2.2.1) := by
  unfold step; simp only [dif_pos q6, dif_neg q4]
theorem step_C (c : Dev nD) (t : Fin cfgA.N) (p : ((S1x1024x64.Idx → Elt 𝔽 .f32) × Buf (Elt 𝔽) ((c : Thread nD τ).loc cc1_scratch0) × Buf (Elt 𝔽) ((c : Thread nD τ).loc cc1_scratch1) × Buf (Elt 𝔽) ((c : Thread nD τ).loc cc1_scratch2))) (q6 : ¬ P6 t) (q4 : ¬ P4 t) :
    step V c t p = (default,
        (runC c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) p.2.1 p.2.2.1 p.2.2.2 q6 q4 (h16_of_not t q4)).1,
        (runC c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) p.2.1 p.2.2.1 p.2.2.2 q6 q4 (h16_of_not t q4)).2.1,
        (runC c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) p.2.1 p.2.2.1 p.2.2.2 q6 q4 (h16_of_not t q4)).2.2.1) := by
  unfold step; simp only [dif_neg q6, dif_neg q4]
theorem step_D (c : Dev nD) (t : Fin cfgA.N) (p : ((S1x1024x64.Idx → Elt 𝔽 .f32) × Buf (Elt 𝔽) ((c : Thread nD τ).loc cc1_scratch0) × Buf (Elt 𝔽) ((c : Thread nD τ).loc cc1_scratch1) × Buf (Elt 𝔽) ((c : Thread nD τ).loc cc1_scratch2))) (q6 : ¬ P6 t) (q4 : P4 t) :
    step V c t p = (outOf (runD c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) p.2.1 p.2.2.1 p.2.2.2 q6 q4 (h16_of t q4)).1,
        (runD c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) p.2.1 p.2.2.1 p.2.2.2 q6 q4 (h16_of t q4)).2.1,
        (runD c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) p.2.1 p.2.2.1 p.2.2.2 q6 q4 (h16_of t q4)).2.2.1,
        (runD c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) p.2.1 p.2.2.1 p.2.2.2 q6 q4 (h16_of t q4)).2.2.2.1) := by
  unfold step; simp only [dif_neg q6, dif_pos q4]

/-! ## The pipeline's proof data -/

/-- What the tracked buffers held before position `t` of `Fin (N+1)` (the invariant's index). -/
def prevT (c : Dev nD) (t : Fin (cfgA.N + 1)) : ((S1x1024x64.Idx → Elt 𝔽 .f32) × Buf (Elt 𝔽) ((c : Thread nD τ).loc cc1_scratch0) × Buf (Elt 𝔽) ((c : Thread nD τ).loc cc1_scratch1) × Buf (Elt 𝔽) ((c : Thread nD τ).loc cc1_scratch2)) :=
  if h : t.val = 0 then (default, default, default, default) else traj V c (t.val - 1) (by omega)

theorem prevT_castSucc (c : Dev nD) (t : Fin cfgA.N) : prevT V c t.castSucc = prev V c t := rfl
theorem prevT_succ (c : Dev nD) (t : Fin cfgA.N) : prevT V c t.succ = traj V c t.val t.isLt := by
  unfold prevT; rw [dif_neg (by simp)]; rfl

/-- The scoped buffers of the other pipeline: untouched here, they ride along. -/
def Rest (c : Dev nD) : sProp 𝕄 :=
  iprop((∃ f : Buf (Elt 𝔽) ((c : Thread nD τ).loc cc0_stg0_0), ((c : Thread nD τ).loc cc0_stg0_0) ↦{fullShare} f) ∗ (∃ f : Buf (Elt 𝔽) ((c : Thread nD τ).loc cc0_stg0_1), ((c : Thread nD τ).loc cc0_stg0_1) ↦{fullShare} f) ∗ (∃ f : Buf (Elt 𝔽) ((c : Thread nD τ).loc cc0_stg1_0), ((c : Thread nD τ).loc cc0_stg1_0) ↦{fullShare} f) ∗ (∃ f : Buf (Elt 𝔽) ((c : Thread nD τ).loc cc0_stg1_1), ((c : Thread nD τ).loc cc0_stg1_1) ↦{fullShare} f) ∗ (∃ f : Buf (Elt 𝔽) ((c : Thread nD τ).loc cc0_stg2_0), ((c : Thread nD τ).loc cc0_stg2_0) ↦{fullShare} f) ∗ (∃ f : Buf (Elt 𝔽) ((c : Thread nD τ).loc cc0_stg2_1), ((c : Thread nD τ).loc cc0_stg2_1) ↦{fullShare} f) ∗ (∃ f : Buf (Elt 𝔽) ((c : Thread nD τ).loc cc0_stg3_0), ((c : Thread nD τ).loc cc0_stg3_0) ↦{fullShare} f) ∗ (∃ f : Buf (Elt 𝔽) ((c : Thread nD τ).loc cc0_stg4_0), ((c : Thread nD τ).loc cc0_stg4_0) ↦{fullShare} f) ∗ (∃ f : Buf (Elt 𝔽) ((c : Thread nD τ).loc cc0_stg5_0), ((c : Thread nD τ).loc cc0_stg5_0) ↦{fullShare} f) ∗ (∃ f : Buf (Elt 𝔽) ((c : Thread nD τ).loc cc0_stg6_0), ((c : Thread nD τ).loc cc0_stg6_0) ↦{fullShare} f) ∗ (∃ f : Buf (Elt 𝔽) ((c : Thread nD τ).loc cc0_stg6_1), ((c : Thread nD τ).loc cc0_stg6_1) ↦{fullShare} f) ∗ (∃ f : Buf (Elt 𝔽) ((c : Thread nD τ).loc cc0_stg7_0), ((c : Thread nD τ).loc cc0_stg7_0) ↦{fullShare} f) ∗ (∃ f : Buf (Elt 𝔽) ((c : Thread nD τ).loc cc0_stg7_1), ((c : Thread nD τ).loc cc0_stg7_1) ↦{fullShare} f) ∗ (∃ f : Buf (Elt 𝔽) ((c : Thread nD τ).loc cc0_stg8_0), ((c : Thread nD τ).loc cc0_stg8_0) ↦{fullShare} f) ∗ (∃ f : Buf (Elt 𝔽) ((c : Thread nD τ).loc cc0_stg8_1), ((c : Thread nD τ).loc cc0_stg8_1) ↦{fullShare} f))

/-- THE INVARIANT before point `t`: each carried buffer at what the trajectory says once a point has run (anything
    before the first, which resets them), the two tables at their contents, the other pipeline's buffers. -/
def Phi (c : Dev nD) (t : Fin (cfgA.N + 1)) : sProp 𝕄 :=
  iprop((∃ a, ⌜t.val ≠ 0 → a = (prevT V c t).2.1⌝ ∗ (scM.view.loc (c : Thread nD τ) ↦{fullShare} a))
    ∗ (∃ a, ⌜t.val ≠ 0 → a = (prevT V c t).2.2.1⌝ ∗ (scL.view.loc (c : Thread nD τ) ↦{fullShare} a))
    ∗ (∃ a, ⌜t.val ≠ 0 → a = (prevT V c t).2.2.2⌝ ∗ (scA.view.loc (c : Thread nD τ) ↦{fullShare} a))
    ∗ (tbQ.view.loc (c : Thread nD τ) ↦{fullShare} T0c)
    ∗ (tbK.view.loc (c : Thread nD τ) ↦{fullShare} T1c)
    ∗ Rest c)

/-- The proof data of the attention pipeline on core `c`. -/
def dat1 (c : Dev nD) : Dat τ (Elt 𝔽) Unit ℕ (UR sig nD τ) ℕ cfgA c where
  A w := V c (Pipeline.arrRef spec1 w)
  after w t := match w with
    | ⟨0, _⟩ => iblk V c (0 : Fin 4) t
    | ⟨1, _⟩ => iblk V c (1 : Fin 4) t
    | ⟨2, _⟩ => iblk V c (2 : Fin 4) t
    | ⟨3, _⟩ => (traj V c t.val t.isLt).1
  Φ t := Phi V c t
  q _ := fullShare
  owed _ := 0

theorem A_eq1 (c : Dev nD) (w : Fin cfgA.W) : (dat1 V c).A w = V c (Pipeline.arrRef spec1 w) := rfl
theorem after1_0 (c : Dev nD) (t : Fin cfgA.N) : (dat1 V c).after (0 : Fin 4) t = iblk V c (0 : Fin 4) t := rfl
theorem after1_1 (c : Dev nD) (t : Fin cfgA.N) : (dat1 V c).after (1 : Fin 4) t = iblk V c (1 : Fin 4) t := rfl
theorem after1_2 (c : Dev nD) (t : Fin cfgA.N) : (dat1 V c).after (2 : Fin 4) t = iblk V c (2 : Fin 4) t := rfl
theorem after1_3 (c : Dev nD) (t : Fin cfgA.N) : (dat1 V c).after (3 : Fin 4) t = (traj V c t.val t.isLt).1 := rfl

/-! ## What each window's staging buffer holds when the body runs -/

theorem before1_0 (c : Dev nD) (t : Fin cfgA.N) (d) : (dat1 V c).before (0 : Fin 4) t d = iblk V c (0 : Fin 4) t :=
  ((dat1 V c).before_in_eq_fetched (0 : Fin 4) rfl (fun _ => rfl) (fun _ _ _ => rfl) (fun t => by rw [after1_0]; unfold Dat.blockOf iblk; rfl) t d).trans
    (by unfold Dat.fetched Dat.blockOf iblk; rfl)
theorem before1_1 (c : Dev nD) (t : Fin cfgA.N) (d) : (dat1 V c).before (1 : Fin 4) t d = iblk V c (1 : Fin 4) t :=
  ((dat1 V c).before_in_eq_fetched (1 : Fin 4) rfl (fun _ => rfl) (fun _ _ _ => rfl) (fun t => by rw [after1_1]; unfold Dat.blockOf iblk; rfl) t d).trans
    (by unfold Dat.fetched Dat.blockOf iblk; rfl)
theorem before1_2 (c : Dev nD) (t : Fin cfgA.N) (d) : (dat1 V c).before (2 : Fin 4) t d = iblk V c (2 : Fin 4) t :=
  ((dat1 V c).before_in_eq_fetched (2 : Fin 4) rfl (fun _ => rfl) (fun _ _ _ => rfl) (fun t => by rw [after1_2]; unfold Dat.blockOf iblk; rfl) t d).trans
    (by unfold Dat.fetched Dat.blockOf iblk; rfl)

/-- The output buffer holds nothing the body stored, whenever the body runs: it is written back at exactly the points
    that store it. -/
theorem fresh_all : ∀ n, n ≤ cfgA.N → cfgA.fresh (3 : Fin 4) n = true :=
  Pipeline.Cfg.fresh_tab cfgA (3 : Fin 4) (fun _ => true) rfl (fun t => by
    obtain ⟨-, hi, hf, -⟩ := allFacts t
    rw [hi, hf]; by_cases q4 : P4 t <;> simp [q4])

theorem before1_3 (c : Dev nD) (t : Fin cfgA.N) (d) : (dat1 V c).before (3 : Fin 4) t d = d := by
  rw [(dat1 V c).before_out_traj (3 : Fin 4) rfl (fun _ _ => rfl)
    (fun t _ _ hf => absurd ((fresh_all t.val (Nat.le_of_lt t.isLt)).symm.trans hf) (by decide)) t.val t rfl d,
    if_pos (fresh_all t.val (Nat.le_of_lt t.isLt))]

/-! ## The stored output blocks tile the output buffer -/

theorem coverA (c : Dev nD) (t : Fin cfgA.N) (q6 : P6 t) (q4 : P4 t) (y : S1x1024x64.Idx) :
    ∃ pc ∈ (runA c (crd t) (ms0 t) (hs0 t) (ms1 t) (hs1 t) (ms2 t) (hs2 t) (ms3 t) (hs3 t) T0c T1c (iblk V c (0 : Fin 4) t) (iblk V c (1 : Fin 4) t) (iblk V c (2 : Fin 4) t) q6 q4 (h16_of t q4)).1, y ∈ pc.1.set :=
  View.cover_of_tiledL (runA c (crd t) (ms0 t) (hs0 t) (ms1 t) (hs1 t) (ms2 t) (hs2 t) (ms3 t) (hs3 t) T0c T1c (iblk V c (0 : Fin 4) t) (iblk V c (1 : Fin 4) t) (iblk V c (2 : Fin 4) t) q6 q4 (h16_of t q4)).1 S1x1024x64.size (by sl_kernel_rfl) y

theorem coverD (c : Dev nD) (t : Fin cfgA.N) (sm : Buf (Elt 𝔽) ((c : Thread nD τ).loc cc1_scratch0)) (sl : Buf (Elt 𝔽) ((c : Thread nD τ).loc cc1_scratch1)) (sa : Buf (Elt 𝔽) ((c : Thread nD τ).loc cc1_scratch2)) (q6 : ¬ P6 t) (q4 : P4 t) (y : S1x1024x64.Idx) :
    ∃ pc ∈ (runD c (crd t) (ms0 t) (hs0 t) (ms1 t) (hs1 t) (ms2 t) (hs2 t) (ms3 t) (hs3 t) T0c T1c (iblk V c (0 : Fin 4) t) (iblk V c (1 : Fin 4) t) (iblk V c (2 : Fin 4) t) sm sl sa q6 q4 (h16_of t q4)).1, y ∈ pc.1.set :=
  View.cover_of_tiledL (runD c (crd t) (ms0 t) (hs0 t) (ms1 t) (hs1 t) (ms2 t) (hs2 t) (ms3 t) (hs3 t) T0c T1c (iblk V c (0 : Fin 4) t) (iblk V c (1 : Fin 4) t) (iblk V c (2 : Fin 4) t) sm sl sa q6 q4 (h16_of t q4)).1 S1x1024x64.size (by sl_kernel_rfl) y

/-! ## The body obligation, at a generic point, by the step's kind -/

/-- The body at point `t` on its staging buffers, as the pipeline calls it. -/
abbrev bodyAt1 (t : Fin cfgA.N) : Prog (TpuEff nD τ sig (Elt 𝔽) Λ₀ .tc) PUnit :=
  cc1__attn_kernel (crd t) (Memref.whole main_c) (Memref.isWhole_whole _) (Memref.whole main_c_0) (Memref.isWhole_whole _)
    (ms0 t) (hs0 t) (ms1 t) (hs1 t) (ms2 t) (hs2 t) (ms3 t) (hs3 t)
    (Memref.whole cc1_scratch0) (Memref.isWhole_whole _) (Memref.whole cc1_scratch1) (Memref.isWhole_whole _) (Memref.whole cc1_scratch2) (Memref.isWhole_whole _)

set_option maxHeartbeats 8000000 in
theorem sound_body (c : Dev nD) (t : Fin cfgA.N) :
    iprop((dat1 V c).Φ t.castSucc ∗ (dat1 V c).owesAt () t.castSucc
        ∗ (∃ d, owns (c : Thread nD τ) (ms0 t) fullShare ((dat1 V c).before (0 : Fin 4) t d))
        ∗ (∃ d, owns (c : Thread nD τ) (ms1 t) fullShare ((dat1 V c).before (1 : Fin 4) t d))
        ∗ (∃ d, owns (c : Thread nD τ) (ms2 t) fullShare ((dat1 V c).before (2 : Fin 4) t d))
        ∗ (∃ d, owns (c : Thread nD τ) (ms3 t) fullShare ((dat1 V c).before (3 : Fin 4) t d)))
      ⊢ wp frame (wpE (defs₀ (F := 𝔽)) Variants.none c none) Set.univ (bodyAt1 t) fun _ =>
          iprop((dat1 V c).Φ t.succ ∗ (dat1 V c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dat1 V c).before w t d))
                  | true => owns (c : Thread nD τ) ((cfgA.win w).stage (cfgA.slots t w)) fullShare ((dat1 V c).after w t)
                | false => owns (c : Thread nD τ) ((cfgA.win w).stage (cfgA.slots t w)) fullShare ((dat1 V c).after w t)) := by
  rw [bigSep_W1]
  by_cases q6 : P6 t
  · by_cases q4 : P4 t
    · -- first and diagonal: reset, masked tile, output stored
      have i3 : cfgA.idle (3 : Fin 4) (cfgA.grid.coords t) = false := by rw [(allFacts t).2.1, decide_eq_true q4]; rfl
      rewrite [i3]
      simp only [before1_0, before1_1, before1_2, before1_3, after1_0, after1_1, after1_2, after1_3]
      rewrite [show (dat1 V c).Φ t.succ = Phi V c t.succ from rfl, show (dat1 V c).Φ t.castSucc = Phi V c t.castSucc from rfl,
        show (dat1 V c).owesAt () t.succ = (dat1 V c).owesAt () t.castSucc from rfl]
      unfold Phi; simp only [prevT_castSucc, prevT_succ, traj_eq, step_A V c t _ q6 q4, Fin.val_castSucc, Fin.val_succ]
      iintro ⟨⟨⟨%a0, -, HS0⟩, ⟨%a1, -, HS1⟩, ⟨%a2, -, HS2⟩, HT0, HT1, HR⟩, Ho, ⟨%d0, H0⟩, ⟨%d1, H1⟩, ⟨%d2, H2⟩, ⟨%d3, H3⟩⟩
      iapply ((runA c (crd t) (ms0 t) (hs0 t) (ms1 t) (hs1 t) (ms2 t) (hs2 t) (ms3 t) (hs3 t) T0c T1c (iblk V c (0 : Fin 4) t) (iblk V c (1 : Fin 4) t) (iblk V c (2 : Fin 4) t) q6 q4 (h16_of t q4)).2.2.2.2 a0 a1 a2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      isplitl [HS2]; · iexact HS2
      iintro ⟨H0, H1, H2, HT0, HT1, ⟨%e3, H3⟩, HS0, HS1, HS2⟩
      isplitl [HS0 HS1 HS2 HT0 HT1 HR]
      · isplitl [HS0]
        · iexists _; isplitr; swap
          · iexact HS0
          · ipureintro; intro _; rfl
        isplitl [HS1]
        · iexists _; isplitr; swap
          · iexact HS1
          · ipureintro; intro _; rfl
        isplitl [HS2]
        · iexists _; isplitr; swap
          · iexact HS2
          · ipureintro; intro _; rfl
        isplitl [HT0]; · iexact HT0
        isplitl [HT1]; · iexact HT1
        iexact HR
      isplitl [Ho]; · iexact Ho
      isplitl [H0]; · iapply owns_of_rep; iexact H0
      isplitl [H1]; · iapply owns_of_rep; iexact H1
      isplitl [H2]; · iapply owns_of_rep; iexact H2
      unfold owns; iexists _; isplitr; swap
      · iexact H3
      · ipureintro; exact View.read_writes_of_cover _ _ _ _ _ (coverA V c t q6 q4)

    · -- first, below the diagonal
      have i3 : cfgA.idle (3 : Fin 4) (cfgA.grid.coords t) = true := by rw [(allFacts t).2.1, decide_eq_false q4]; rfl
      have f3 : (cfgA.win (3 : Fin 4)).flush t = false := by rw [(allFacts t).2.2.1]; exact decide_eq_false q4
      rewrite [i3]
      simp only [before1_0, before1_1, before1_2, before1_3, after1_0, after1_1, after1_2, after1_3, f3]
      rewrite [show (dat1 V c).Φ t.succ = Phi V c t.succ from rfl, show (dat1 V c).Φ t.castSucc = Phi V c t.castSucc from rfl,
        show (dat1 V c).owesAt () t.succ = (dat1 V c).owesAt () t.castSucc from rfl]
      unfold Phi; simp only [prevT_castSucc, prevT_succ, traj_eq, step_B V c t _ q6 q4, Fin.val_castSucc, Fin.val_succ]
      iintro ⟨⟨⟨%a0, -, HS0⟩, ⟨%a1, -, HS1⟩, ⟨%a2, -, HS2⟩, HT0, HT1, HR⟩, Ho, ⟨%d0, H0⟩, ⟨%d1, H1⟩, ⟨%d2, H2⟩, ⟨%d3, H3⟩⟩
      iapply ((runB c (crd t) (ms0 t) (hs0 t) (ms1 t) (hs1 t) (ms2 t) (hs2 t) (ms3 t) (hs3 t) T0c T1c (iblk V c (0 : Fin 4) t) (iblk V c (1 : Fin 4) t) (iblk V c (2 : Fin 4) t) q6 q4 (h16_of_not t q4)).2.2.2 a0 a1 a2 d3 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      isplitl [HS2]; · iexact HS2
      iintro ⟨H0, H1, H2, HT0, HT1, H3, HS0, HS1, HS2⟩
      isplitl [HS0 HS1 HS2 HT0 HT1 HR]
      · isplitl [HS0]
        · iexists _; isplitr; swap
          · iexact HS0
          · ipureintro; intro _; rfl
        isplitl [HS1]
        · iexists _; isplitr; swap
          · iexact HS1
          · ipureintro; intro _; rfl
        isplitl [HS2]
        · iexists _; isplitr; swap
          · iexact HS2
          · ipureintro; intro _; rfl
        isplitl [HT0]; · iexact HT0
        isplitl [HT1]; · iexact HT1
        iexact HR
      isplitl [Ho]; · iexact Ho
      isplitl [H0]; · iapply owns_of_rep; iexact H0
      isplitl [H1]; · iapply owns_of_rep; iexact H1
      isplitl [H2]; · iapply owns_of_rep; iexact H2
      iexists d3; iexact H3

  · by_cases q4 : P4 t
    · -- later and diagonal
      have i3 : cfgA.idle (3 : Fin 4) (cfgA.grid.coords t) = false := by rw [(allFacts t).2.1, decide_eq_true q4]; rfl
      rewrite [i3]
      simp only [before1_0, before1_1, before1_2, before1_3, after1_0, after1_1, after1_2, after1_3]
      rewrite [show (dat1 V c).Φ t.succ = Phi V c t.succ from rfl, show (dat1 V c).Φ t.castSucc = Phi V c t.castSucc from rfl,
        show (dat1 V c).owesAt () t.succ = (dat1 V c).owesAt () t.castSucc from rfl]
      unfold Phi; simp only [prevT_castSucc, prevT_succ, traj_eq, step_D V c t _ q6 q4, Fin.val_castSucc, Fin.val_succ]
      have h0 : t.val ≠ 0 := fun h => q6 ((allFacts t).2.2.2 h)
      simp only [exists_held h0]
      iintro ⟨⟨HS0, HS1, HS2, HT0, HT1, HR⟩, Ho, ⟨%d0, H0⟩, ⟨%d1, H1⟩, ⟨%d2, H2⟩, ⟨%d3, H3⟩⟩
      iapply ((runD c (crd t) (ms0 t) (hs0 t) (ms1 t) (hs1 t) (ms2 t) (hs2 t) (ms3 t) (hs3 t) T0c T1c (iblk V c (0 : Fin 4) t) (iblk V c (1 : Fin 4) t) (iblk V c (2 : Fin 4) t) (prev V c t).2.1 (prev V c t).2.2.1 (prev V c t).2.2.2 q6 q4 (h16_of t q4)).2.2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      isplitl [HS2]; · iexact HS2
      iintro ⟨H0, H1, H2, HT0, HT1, ⟨%e3, H3⟩, HS0, HS1, HS2⟩
      isplitl [HS0 HS1 HS2 HT0 HT1 HR]
      · isplitl [HS0]
        · iexists _; isplitr; swap
          · iexact HS0
          · ipureintro; intro _; rfl
        isplitl [HS1]
        · iexists _; isplitr; swap
          · iexact HS1
          · ipureintro; intro _; rfl
        isplitl [HS2]
        · iexists _; isplitr; swap
          · iexact HS2
          · ipureintro; intro _; rfl
        isplitl [HT0]; · iexact HT0
        isplitl [HT1]; · iexact HT1
        iexact HR
      isplitl [Ho]; · iexact Ho
      isplitl [H0]; · iapply owns_of_rep; iexact H0
      isplitl [H1]; · iapply owns_of_rep; iexact H1
      isplitl [H2]; · iapply owns_of_rep; iexact H2
      unfold owns; iexists _; isplitr; swap
      · iexact H3
      · ipureintro; exact View.read_writes_of_cover _ _ _ _ _ (coverD V c t _ _ _ q6 q4)

    · -- later, below the diagonal
      have i3 : cfgA.idle (3 : Fin 4) (cfgA.grid.coords t) = true := by rw [(allFacts t).2.1, decide_eq_false q4]; rfl
      have f3 : (cfgA.win (3 : Fin 4)).flush t = false := by rw [(allFacts t).2.2.1]; exact decide_eq_false q4
      rewrite [i3]
      simp only [before1_0, before1_1, before1_2, before1_3, after1_0, after1_1, after1_2, after1_3, f3]
      rewrite [show (dat1 V c).Φ t.succ = Phi V c t.succ from rfl, show (dat1 V c).Φ t.castSucc = Phi V c t.castSucc from rfl,
        show (dat1 V c).owesAt () t.succ = (dat1 V c).owesAt () t.castSucc from rfl]
      unfold Phi; simp only [prevT_castSucc, prevT_succ, traj_eq, step_C V c t _ q6 q4, Fin.val_castSucc, Fin.val_succ]
      have h0 : t.val ≠ 0 := fun h => q6 ((allFacts t).2.2.2 h)
      simp only [exists_held h0]
      iintro ⟨⟨HS0, HS1, HS2, HT0, HT1, HR⟩, Ho, ⟨%d0, H0⟩, ⟨%d1, H1⟩, ⟨%d2, H2⟩, ⟨%d3, H3⟩⟩
      iapply ((runC c (crd t) (ms0 t) (hs0 t) (ms1 t) (hs1 t) (ms2 t) (hs2 t) (ms3 t) (hs3 t) T0c T1c (iblk V c (0 : Fin 4) t) (iblk V c (1 : Fin 4) t) (iblk V c (2 : Fin 4) t) (prev V c t).2.1 (prev V c t).2.2.1 (prev V c t).2.2.2 q6 q4 (h16_of_not t q4)).2.2.2 d3 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      isplitl [HS2]; · iexact HS2
      iintro ⟨H0, H1, H2, HT0, HT1, H3, HS0, HS1, HS2⟩
      isplitl [HS0 HS1 HS2 HT0 HT1 HR]
      · isplitl [HS0]
        · iexists _; isplitr; swap
          · iexact HS0
          · ipureintro; intro _; rfl
        isplitl [HS1]
        · iexists _; isplitr; swap
          · iexact HS1
          · ipureintro; intro _; rfl
        isplitl [HS2]
        · iexists _; isplitr; swap
          · iexact HS2
          · ipureintro; intro _; rfl
        isplitl [HT0]; · iexact HT0
        isplitl [HT1]; · iexact HT1
        iexact HR
      isplitl [Ho]; · iexact Ho
      isplitl [H0]; · iapply owns_of_rep; iexact H0
      isplitl [H1]; · iapply owns_of_rep; iexact H1
      isplitl [H2]; · iapply owns_of_rep; iexact H2
      iexists d3; iexact H3

/-- The library's body obligation, at every point. -/
theorem body_obligation (c : Dev nD) : BodyObligation (dat1 V c) (defs₀ (F := 𝔽)) Variants.none () Set.univ := fun t => by
  rw [bigSep_W1]
  exact sound_body V c t

end Data

end Cert.Kernel.R1

end
-- ==== Proof.KRun.lean ====
/-
  The whole run of the kernel program: two table constants, the projection pipeline, the attention pipeline.
  The contents of every unscoped buffer are followed through @main as a fold from the launch memory — a host stretch
  applies its operations, a pipeline replaces its arrays by what its write-backs leave —; each pipeline enters from the
  contents the item before it left and exits at the next; the argument arrays are never written, so they end as
  launched, and the result array ends at what the attention pipeline's write-backs leave.
-/
import proofs.«402334_j1417339207762_3_alg».proof.Proof.Gen.Kernel.Launch
import proofs.«402334_j1417339207762_3_alg».proof.Proof.Gen.Kernel.Skeleton
import proofs.«402334_j1417339207762_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic
import Idealize.ShloMosaic.PureOps.BitExact
import Idealize.ShloMosaic.PureOps.Ideal
import proofs.«402334_j1417339207762_3_alg».proof.Proof.KR0
import proofs.«402334_j1417339207762_3_alg».proof.Proof.KR1
import proofs.«402334_j1417339207762_3_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel.R1 (T0c T1c pfT tbQ tbK scM scL scA cfgA)

/-- The instance the programs are read at. -/
local notation "𝔽" => Bits

local notation "𝕄" => MT nD τ sig Unit (Elt 𝔽) ℕ (UR sig nD τ) ℕ

variable (m : (ℓ : Loc nD τ sig) → Buf (Elt 𝔽) ℓ) (ρ : Dev nD → PrngReg)

/-! # The buffer contents at each boundary of @main: a fold from the launch memory -/

/-- Core `c`'s buffers at launch. -/
abbrev W0 : Dev nD → Valuation τ sig (Elt 𝔽) := fun c b => (s₀ m ρ).mem ((c : Dev nD), b)
/-- After the two table constants are written (the projection pipeline's entry). -/
abbrev W1 : Dev nD → Valuation τ sig (Elt 𝔽) := fun c => StableHlo.after hostOps0 (W0 m ρ c)
abbrev V1 : (c : Dev nD) → (b : Ref sig .tc) → Buf (Elt 𝔽) ((c : Thread nD τ).loc b) := fun c b => W1 m ρ c b
/-- At the projection pipeline's exit: its arrays at what its write-backs leave, every other buffer as entered. -/
def W2 (c : Dev nD) : Valuation τ sig (Elt 𝔽) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 (launch0 (F := 𝔽)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt 𝔽) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention pipeline's exit. -/
def W3 (c : Dev nD) : Valuation τ sig (Elt 𝔽) :=
  Pipeline.withArrays spec1 c (W2 m ρ c) fun w => (R1.dat1 (V2 m ρ) c).arrAt w cfgA.N
theorem W3_arr (c : Dev nD) (w : Fin cfgA.W) :
    W3 m ρ c (Proc.devRef .tc (Pipeline.arrRef spec1 w)) = (R1.dat1 (V2 m ρ) c).arrAt w cfgA.N := by
  unfold W3; exact Pipeline.withArrays_arr spec1 (launch1 (F := 𝔽)).win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt 𝔽) ((c : Thread nD τ).loc b) := fun c b => W3 m ρ c b
theorem hF1 (c : Dev nD) (w : Fin cfgA.W) : (R1.dat1 (V2 m ρ) c).arrAt w cfgA.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The table constants write only the two tables. -/
theorem W1_of_not_written (c : Dev nD) (b : Ref sig .tc) (h : b ∉ hostOps0_W) : W1 m ρ c (Proc.devRef .tc b) = W0 m ρ c (Proc.devRef .tc b) :=
  StableHlo.after_of_writes_sub hostOps0 _ hostOps0_writes h

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((R0.dat0 (V1 m ρ) c).arrAt_in 1 rfl _).trans (R0.A_eq0 (V1 m ρ) c 1))
    _ = W0 m ρ c (Proc.devRef .tc main_arg0) := W1_of_not_written m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 2).trans (((R0.dat0 (V1 m ρ) c).arrAt_in 2 rfl _).trans (R0.A_eq0 (V1 m ρ) c 2))
    _ = W0 m ρ c (Proc.devRef .tc main_arg1) := W1_of_not_written m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 0).trans (((R0.dat0 (V1 m ρ) c).arrAt_in 0 rfl _).trans (R0.A_eq0 (V1 m ρ) c 0))
    _ = W0 m ρ c (Proc.devRef .tc main_arg2) := W1_of_not_written m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 3).trans (((R0.dat0 (V1 m ρ) c).arrAt_in 3 rfl _).trans (R0.A_eq0 (V1 m ρ) c 3))
    _ = W0 m ρ c (Proc.devRef .tc main_arg3) := W1_of_not_written m ρ c main_arg3 (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 4).trans (((R0.dat0 (V1 m ρ) c).arrAt_in 4 rfl _).trans (R0.A_eq0 (V1 m ρ) c 4))
    _ = W0 m ρ c (Proc.devRef .tc main_arg4) := W1_of_not_written m ρ c main_arg4 (by decide)
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 5).trans (((R0.dat0 (V1 m ρ) c).arrAt_in 5 rfl _).trans (R0.A_eq0 (V1 m ρ) c 5))
    _ = W0 m ρ c (Proc.devRef .tc main_arg5) := W1_of_not_written m ρ c main_arg5 (by decide)
    _ = m ((c : Thread nD τ).loc main_arg5) := rfl

/-! ### The tables as the attention pipeline finds them -/

theorem W1_main_c (c : Dev nD) : (W1 m ρ c (Proc.devRef .tc main_c) : S10.Idx → Elt 𝔽 .i32) = T0c := by
  show StableHlo.after hostOps0 (W0 m ρ c) (Proc.devRef .tc main_c) = _
  after_results; rfl
theorem W1_main_c_0 (c : Dev nD) : (W1 m ρ c (Proc.devRef .tc main_c_0) : S10.Idx → Elt 𝔽 .i32) = T1c := by
  show StableHlo.after hostOps0 (W0 m ρ c) (Proc.devRef .tc main_c_0) = _
  after_results; rfl
theorem V2_main_c (c : Dev nD) : (V2 m ρ c main_c : S10.Idx → Elt 𝔽 .i32) = T0c :=
  (W2_of_ne m ρ c main_c (by decide)).trans (W1_main_c m ρ c)
theorem V2_main_c_0 (c : Dev nD) : (V2 m ρ c main_c_0 : S10.Idx → Elt 𝔽 .i32) = T1c :=
  (W2_of_ne m ρ c main_c_0 (by decide)).trans (W1_main_c_0 m ρ c)

/-! # The proof data family and the thread state -/

/-- The tables' admissible contents: the projection pipeline has no table, the attention pipeline the two constants. -/
def adm : (p : Fin 2) → (pcfgs (F := 𝔽) p).Adm
  | ⟨0, _⟩ => cfg0.toPCfg_adm
  | ⟨1, _⟩ => R1.adm

/-- Every pipeline's proof data, each at its region's entry contents. -/
def pdats : (p : Fin 2) → (c : Dev nD) → Dat τ (Elt 𝔽) Unit ℕ (UR sig nD τ) ℕ (Pipeline.pin (pcfgs (F := 𝔽)) adm p) c
  | ⟨0, _⟩ => fun c => R0.dat0 (V1 m ρ) c
  | ⟨1, _⟩ => fun c => R1.dat1 (V2 m ρ) c

abbrev 𝒱₀ : Variants := Variants.none
abbrev L : GSem nD τ sig → Finset Unit := fun _ => ∅
abbrev lv : GSem nD τ sig → Unit → ℕ := fun _ _ => 0
/-- What rides beside the buffers through every segment: the generator register and the core owing nothing. -/
abbrev R (c : Dev nD) : sProp 𝕄 := iprop((∃ r, prngReg c r) ∗ ∃ W, owes (c : Thread nD τ) (0 : CellTallies nD τ sig Unit) W)

abbrev hseg (ops : List (HloOp τ sig (Elt 𝔽))) (hsub : ops.Forall fun op => op.bufs ⊆ StableHlo.tcRefs τ sig)
    (hfresh : ops.Forall fun op => op.fresh = ∅) (W : Dev nD → Valuation τ sig (Elt 𝔽)) :
    Pipeline.HostSeg (Name := ℕ) (U := UR sig nD τ) (pcfgs (F := 𝔽)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection pipeline over the thread state: entered from every unscoped buffer at `W1`, left at `W2`. -/
def reg0 : Pipeline.RegionSeg (pcfgs (F := 𝔽)) adm (pdats m ρ) () defs₀ 𝒱₀ L lv 0 where
  win := (launch0 (F := 𝔽)).win.to₀
  block_pos := (launch0 (F := 𝔽)).block_pos
  stage_whole := (launch0 (F := 𝔽)).stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := 𝔽)) adm (pdats m ρ) (launch0 (F := 𝔽)).win (launch0 (F := 𝔽)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := 𝔽)) adm (Ix := Unit) (Name := ℕ) (U := UR sig nD τ) (Lvl := ℕ)
      (launch0 (F := 𝔽)).win (launch0 (F := 𝔽)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The two tables, one by one. -/
theorem prefHeld_eq (c : Dev nD) (q : Fin 2 → PosShare TreeShare) (v : pre1.Contents (Elt 𝔽)) :
    (Pipeline.prefHeld (Ix := Unit) (Name := ℕ) (U := UR sig nD τ) (Lvl := ℕ) pre1 c q v : sProp 𝕄)
      = iprop((((c : Thread nD τ).loc main_c) ↦{q 0} v 0) ∗ (((c : Thread nD τ).loc main_c_0) ↦{q 1} v 1)) := by
  unfold Pipeline.prefHeld
  rw [bigSep_univ_eq_bigSepL [(0 : Fin 2), (1 : Fin 2)] (by decide) (by decide)]
  rfl

/-- The tables the attention pipeline finds are the two constants. -/
theorem tables_eq (c : Dev nD) : (fun k => V2 m ρ c (pre1.ref k)) = (R1.adm).1 := by
  funext k
  match k with
  | ⟨0, _⟩ => exact V2_main_c m ρ c
  | ⟨1, _⟩ => exact V2_main_c_0 m ρ c

theorem pref_in (c : Dev nD) :
    (Pipeline.prefHeld (Ix := Unit) (Name := ℕ) (U := UR sig nD τ) (Lvl := ℕ) pre1 c (fun _ => fullShare) (fun k => V2 m ρ c (pre1.ref k)) : sProp 𝕄) ⊢ Pipeline.prefHeld (Ix := Unit) (Name := ℕ) (U := UR sig nD τ) (Lvl := ℕ) pre1 c (fun _ => fullShare) (pfT : pre1.Contents (Elt 𝔽)) :=
  Entails.of_eq (congrArg (fun v => (Pipeline.prefHeld (Ix := Unit) (Name := ℕ) (U := UR sig nD τ) (Lvl := ℕ) pre1 c (fun _ => fullShare) v : sProp 𝕄)) (tables_eq m ρ c))
theorem pref_out (c : Dev nD) :
    (Pipeline.prefHeld (Ix := Unit) (Name := ℕ) (U := UR sig nD τ) (Lvl := ℕ) pre1 c (fun _ => fullShare) (pfT : pre1.Contents (Elt 𝔽)) : sProp 𝕄) ⊢ Pipeline.prefHeld (Ix := Unit) (Name := ℕ) (U := UR sig nD τ) (Lvl := ℕ) pre1 c (fun _ => fullShare) (fun k => V2 m ρ c (pre1.ref k)) :=
  Entails.of_eq (congrArg (fun v => (Pipeline.prefHeld (Ix := Unit) (Name := ℕ) (U := UR sig nD τ) (Lvl := ℕ) pre1 c (fun _ => fullShare) v : sProp 𝕄)) (tables_eq m ρ c).symm)

set_option backward.isDefEq.respectTransparency.types false in
set_option maxHeartbeats 2000000 in
/-- The attention pipeline over the thread state: entered from every unscoped buffer at `W2`, left at `W3`. The tables
    go into the pipeline's invariant and come back; the argument arrays and the generator register bypass it. -/
def reg1 : Pipeline.RegionSeg (pcfgs (F := 𝔽)) adm (pdats m ρ) () defs₀ 𝒱₀ L lv 1 where
  win := (launch1 (F := 𝔽)).win.to₀
  block_pos := (launch1 (F := 𝔽)).block_pos
  stage_whole := (launch1 (F := 𝔽)).stage_whole
  K := PEmpty
  osem k := k.elim
  ho := Pipeline.OwnSemFacts.none _
  hbody c := (R1.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(emp)
  Y c := Pipeline.prefHeld (Ix := Unit) (Name := ℕ) (U := UR sig nD τ) (Lvl := ℕ) pre1 c (fun _ => fullShare) (pfT : pre1.Contents (Elt 𝔽))
  Z c := iprop(Pipeline.unscopedRestP (Ix := Unit) (Name := ℕ) (U := UR sig nD τ) (Lvl := ℕ) pre1 spec1 c (V2 m ρ c) ∗ ∃ r, prngReg c r)
  hentry c := by
    rw [Pipeline.ownSems0_none]
    have hsplit := Pipeline.arrays_of_unscopedBufs (p := 1) (pcfgs (F := 𝔽)) adm (pdats m ρ) (launch1 (F := 𝔽)).win (launch1 (F := 𝔽)).arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    ihave Hr := (Entails.of_eq (Pipeline.unscopedRest_split (launch1 (F := 𝔽)).pre c (V2 m ρ c))) $$ Hrest
    icases Hr with ⟨Hpf, HrestP⟩
    imodintro
    isplitl [Ha]; · iexact Ha
    isplitl [Hpf]
    · iapply (pref_in m ρ c); iexact Hpf
    isplitl [HO]
    · unfold Pipeline.Dat.owesAt Pipeline.owesWithin
      icases HO with ⟨%W, HO⟩; iexists W; isplitr; · ipureintro; exact fun _ _ => Or.inl trivial
      iexact HO
    isplitr; · iempintro
    isplitl [HrestP]; · iexact HrestP
    iexact Hp
  hin c := by
    show iprop(emp ∗ Pipeline.prefHeld (Ix := Unit) (Name := ℕ) (U := UR sig nD τ) (Lvl := ℕ) pre1 c (fun _ => fullShare) (pfT : pre1.Contents (Elt 𝔽)) ∗ Pipeline.scopedRest spec1 c) ⊢ R1.Phi (V2 m ρ) c 0
    rw [prefHeld_eq, scopedRest1_eq]
    unfold R1.Phi R1.Rest
    iintro ⟨-, ⟨HT0, HT1⟩, ⟨H1, H2, H3, H4, H5, H6, H7, H8, H9, H10, H11, H12, H13, H14, H15, ⟨%a0, HS0⟩, ⟨%a1, HS1⟩, ⟨%a2, HS2⟩⟩⟩
    isplitl [HS0]
    · iexists a0; isplitr; swap
      · iexact HS0
      · ipureintro; intro h; exact absurd rfl h
    isplitl [HS1]
    · iexists a1; isplitr; swap
      · iexact HS1
      · ipureintro; intro h; exact absurd rfl h
    isplitl [HS2]
    · iexists a2; isplitr; swap
      · iexact HS2
      · ipureintro; intro h; exact absurd rfl h
    isplitl [HT0]; · iexact HT0
    isplitl [HT1]; · iexact HT1
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  hout c := by
    rw [Pipeline.ownSems0_none]
    show R1.Phi (V2 m ρ) c (Fin.last _) ⊢ iprop(Pipeline.prefHeld (Ix := Unit) (Name := ℕ) (U := UR sig nD τ) (Lvl := ℕ) pre1 c (fun _ => fullShare) (pfT : pre1.Contents (Elt 𝔽)) ∗ BI.emp ∗ Pipeline.scopedRest spec1 c)
    rw [prefHeld_eq, scopedRest1_eq]
    unfold R1.Phi R1.Rest
    iintro ⟨⟨%a0, -, HS0⟩, ⟨%a1, -, HS1⟩, ⟨%a2, -, HS2⟩, HT0, HT1, H1, H2, H3, H4, H5, H6, H7, H8, H9, H10, H11, H12, H13, H14, H15⟩
    isplitl [HT0 HT1]
    · isplitl [HT0]; · iexact HT0
      iexact HT1
    isplitr; · iempintro
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [HS0]; · iexists a0; iexact HS0
    isplitl [HS1]; · iexists a1; iexact HS1
    iexists a2; iexact HS2
  hexit c := by
    have hjoin := Pipeline.unscopedBufs_of_arrays (p := 1) (pcfgs (F := 𝔽)) adm (Ix := Unit) (Name := ℕ) (U := UR sig nD τ) (Lvl := ℕ)
      (launch1 (F := 𝔽)).win (launch1 (F := 𝔽)).arr_whole c (pdats m ρ) ((pdats m ρ 1 c).share_full fun _ => rfl)
      (V2 m ρ c) (V3 m ρ c) ((pdats m ρ 1 c).arrAt · cfgA.N) (hF1 m ρ c) (hrest1 m ρ c)
    rw [Pipeline.unscopedBufs_held] at hjoin
    iintro ⟨Ha, HO, HY, HrestP, Hp⟩
    imodintro
    isplitl [Ha HY HrestP Hp]
    · isplitl [Ha HY HrestP]
      · iapply hjoin
        isplitl [Ha]; · iexact Ha
        iapply (Entails.of_eq (Pipeline.unscopedRest_split (launch1 (F := 𝔽)).pre c (V2 m ρ c)).symm)
        isplitl [HY]; · iapply (pref_out m ρ c); iexact HY
        iexact HrestP
      iexact Hp
    unfold Pipeline.Dat.owesAt Pipeline.owesWithin
    icases HO with ⟨%W, -, HO⟩; iexists W; iexact HO

/-! # @main as segments, and the launch -/

abbrev segs : List (Pipeline.Seg (pcfgs (F := 𝔽)) adm (pdats m ρ) () defs₀ 𝒱₀ L lv) :=
  [ .host (hseg hostOps0 hostOps0_sub hostOps0_fresh (W0 m ρ)),
    .region (reg0 m ρ),
    .region (reg1 m ρ) ]

theorem main_run (c : Dev nD) : main (F := 𝔽) c = Pipeline.Seg.run (segs m ρ) := (main_chain c).trans (by chain_rfl)

set_option backward.isDefEq.respectTransparency.types false in
set_option maxHeartbeats 2000000 in
/-- From any memory with zero counters every weakly fair execution of @main terminates, nothing faulting, and every
    final state holds, in each unscoped buffer, what the fold through @main says. -/
theorem run_main : θ_run defs (onTc (τ := τ) (main (F := 𝔽))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := 𝔽)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := 𝔽)) adm) (cellOf_inj adm)) (Pipeline.launchToks (Pipeline.pin (pcfgs (F := 𝔽)) adm) (cellOf_inj adm)))
    (hu₀ := by
      iintro Hu; imodintro
      isplitl [Hu]
      · iapply (show (ownU (initOf (Pipeline.cells (Pipeline.pin (pcfgs (F := 𝔽)) adm) (cellOf_inj adm)) (Pipeline.launchToks (Pipeline.pin (pcfgs (F := 𝔽)) adm) (cellOf_inj adm))) : sProp 𝕄)
            ⊢ BI.own (emb₁ (initOf (Pipeline.cells (Pipeline.pin (pcfgs (F := 𝔽)) adm) (cellOf_inj adm)) (Pipeline.launchToks (Pipeline.pin (pcfgs (F := 𝔽)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the argument arrays end as launched. -/
theorem frame : θ_run defs (onTc (τ := τ) (main (F := 𝔽))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_main m ρ)

/-- THE RUN WITH ITS RESULT: the result array ends at what the attention pipeline's write-backs leave, the arguments as launched. -/
theorem run_result : θ_run defs (onTc (τ := τ) (main (F := 𝔽))) ⟨m, fun _ => 0, ρ⟩ (fun r => ∀ c : Dev nD,
      r.2.mem ((c.tc : Thread nD τ).loc main_v1) = (R1.dat1 (V2 m ρ) c).arrAt (3 : Fin 4) cfgA.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v1 (by decide))).trans (W3_arr m ρ c (3 : Fin 4)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_main m ρ)

end Cert.Kernel.Run

end
-- ==== Proof.R0.lean ====
/-
  The projection pipeline (the program's first pallas_call): its body reads three [2048, 256] blocks of input rows and
  the three [256, 64] weight matrices and stores, into three output blocks, each input block times its weight matrix.
  Here: the body's triple, what each window's staging buffer holds before and after the body at every grid point, and
  the body obligation of the pipeline — for any float instance.
-/
import proofs.«402334_j1417339207762_3_alg».proof.Proof.Gen.KernelIdeal.Launch
import proofs.«402334_j1417339207762_3_alg».proof.Proof.Gen.KernelIdeal.Skeleton
import proofs.«402334_j1417339207762_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's accesses: each buffer is read and written whole -/

abbrev rX : Rect S1x2048x256 := Rect.unit (s := S1x2048x256) ![0, 0, 0] S1x2048x256.size inb_S1x2048x256_S1x2048x256_0_0_0
abbrev rW : Rect S256x64 := Rect.unit (s := S256x64) ![0, 0] S256x64.size inb_S256x64_S256x64_0_0
abbrev rO : Rect S1x2048x64 := Rect.unit (s := S1x2048x64) ![0, 0, 0] S1x2048x64.size inb_S1x2048x64_S1x2048x64_0_0_0

/-! ## What the body leaves in each output block: the projection of the input block by the weight matrix -/

/-- The block of projected queries: the query-input block times the query weights. -/
def outQ (x : Vec F S1x2048x256 .f32) (w : Vec F S256x64 .f32) : Vec F S1x2048x64 .bf16 :=
  View.canon [⟨rO, k0_pay2 (View.ld x rX) (View.ld w rW)⟩]
/-- The block of projected keys. -/
def outK (x : Vec F S1x2048x256 .f32) (w : Vec F S256x64 .f32) : Vec F S1x2048x64 .bf16 :=
  View.canon [⟨rO, k0_pay3 (View.ld x rX) (View.ld w rW)⟩]
/-- The block of projected values. -/
def outV (x : Vec F S1x2048x256 .f32) (w : Vec F S256x64 .f32) : Vec F S1x2048x64 .bf16 :=
  View.canon [⟨rO, k0_pay1 (k0_pay4 (View.ld x rX) (View.ld w rW))⟩]

/-- One whole store covers its buffer. -/
theorem coverO (p0 : Vec F S1x2048x64 .bf16) (y : S1x2048x64.Idx) :
    ∃ pc ∈ ([⟨rO, p0⟩] : List (View.Piece (Elt F) S1x2048x64 .bf16)), y ∈ pc.1.set :=
  View.cover_of_tiled [⟨rO, p0⟩] S1x2048x64.size (by rfl) y

set_option maxHeartbeats 4000000 in
/-- The projection body on whole staging buffers: the six inputs are read and kept, each output buffer ends holding
    its projection. -/
theorem sound_kernel0 (c : Dev nD) (E : Set ℕ) (i : grid0.Coords)
    (arg2 : Memref sig .tc .vmem S1x2048x256 .f32) (harg2 : arg2.IsWhole) (arg3 : Memref sig .tc .vmem S1x2048x256 .f32) (harg3 : arg3.IsWhole)
    (arg4 : Memref sig .tc .vmem S1x2048x256 .f32) (harg4 : arg4.IsWhole) (arg5 : Memref sig .tc .vmem S256x64 .f32) (harg5 : arg5.IsWhole)
    (arg6 : Memref sig .tc .vmem S256x64 .f32) (harg6 : arg6.IsWhole) (arg7 : Memref sig .tc .vmem S256x64 .f32) (harg7 : arg7.IsWhole)
    (arg8 : Memref sig .tc .vmem S1x2048x64 .bf16) (harg8 : arg8.IsWhole) (arg9 : Memref sig .tc .vmem S1x2048x64 .bf16) (harg9 : arg9.IsWhole)
    (arg10 : Memref sig .tc .vmem S1x2048x64 .bf16) (harg10 : arg10.IsWhole)
    (x0 x1 x2 : Vec F S1x2048x256 .f32) (x3 x4 x5 : Vec F S256x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (outQ x0 x3) ∗ owns (c : Thread nD τ) arg9 fullShare (outK x1 x4)
            ∗ owns (c : Thread nD τ) arg10 fullShare (outV x2 x5)) -∗ K ⟨⟩))
      ⊢ wp frame (wpE (defs₀ (F := F)) Variants.none c none) E
          (cc0__proj_kernel i arg2 harg2 arg3 harg3 arg4 harg4 arg5 harg5 arg6 harg6 arg7 harg7 arg8 harg8 arg9 harg9 arg10 harg10) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    exact View.read_writes_eq_canon _ _ _ (coverO _)
  isplitl [H7]
  · iexists _; isplitr
    swap; · iexact H7
    ipureintro
    exact View.read_writes_eq_canon _ _ _ (coverO _)
  iexists _; isplitr
  swap; · iexact H8
  ipureintro
  exact View.read_writes_eq_canon _ _ _ (coverO _)

/-! ## The windows' blocks, and the pipeline's proof data at the contents `V` the region is entered with -/

section Data

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The proof data of the projection pipeline: the arrays as found; after the body each input buffer holds its block and
    each output buffer the projection of its input block; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => outQ (iblk0 V c 0 t) (iblk0 V c 3 t)
    | ⟨7, _⟩ => outK (iblk0 V c 1 t) (iblk0 V c 4 t)
    | ⟨8, _⟩ => outV (iblk0 V c 2 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = outQ (iblk0 V c 0 t) (iblk0 V c 3 t) := by dsimp only [dat0]
theorem after0_7 (c : Dev nD) (t : Fin cfg0.N) : (dat0 V c).after 7 t = outK (iblk0 V c 1 t) (iblk0 V c 4 t) := by dsimp only [dat0]
theorem after0_8 (c : Dev nD) (t : Fin cfg0.N) : (dat0 V c).after 8 t = outV (iblk0 V c 2 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Data

end Cert.KernelIdeal.R0

end
-- ==== Proof.R1Runs.lean ====
/-
  The attention body (the program's second pallas_call) run once per KIND of grid step, for any float instance. A step is
  the first of its query tile's run of key tiles or a later one (the carried shift, denominator and numerator are reset,
  or read), and the diagonal tile or one below it (scores masked and the output block stored, or not). For each of the
  four kinds: what the body leaves in the three carried buffers (and the output buffer), found by running it, with the
  proof that it runs so.
-/
import proofs.«402334_j1417339207762_3_alg».proof.Proof.Gen.KernelIdeal.Launch
import proofs.«402334_j1417339207762_3_alg».proof.Proof.Gen.KernelIdeal.Skeleton
import proofs.«402334_j1417339207762_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

set_option Elab.async false

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The tables and scratch buffers the attention body is handed, whole. -/
abbrev tbQ : Memref sig .tc .smem S10 .i32 := Memref.whole main_c
abbrev tbK : Memref sig .tc .smem S10 .i32 := Memref.whole main_c_0
abbrev scM : Memref sig .tc .vmem S1024x1 .f32 := Memref.whole cc1_scratch0
abbrev scL : Memref sig .tc .vmem S1024x1 .f32 := Memref.whole cc1_scratch1
abbrev scA : Memref sig .tc .vmem S1024x64 .f32 := Memref.whole cc1_scratch2

set_option maxHeartbeats 8000000 in
/-- The body at a grid point that starts a query tile's run of key tiles (the carried buffers are reset) and
    is the diagonal tile (masked scores; the output block is stored): what it leaves in the carried buffers and the output buffer, with the proof. -/
noncomputable def runA (c : Dev nD) (i : grid1.Coords)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .f32) (harg7 : arg7.IsWhole)
    (T0 T1 : S10.Idx → Elt F .i32) (xq xk xv : S1x1024x64.Idx → Elt F .bf16)
    (h6 : ((Scalar.cmpi .ne (Scalar.extui (Scalar.cmpi .eq (View.readAt (Elt F) tbK.view (Rect.unit (s := S10) (k1_off1 i) S1.size (k1_off1_inb i)).toLoadRect T1 (Shape.Idx.first (numel1_S1.symm ▸ Nat.one_pos))) 0#32)) 0#32) = 1#1))
    (h4 : (k1_cond4 (View.readAt (Elt F) tbQ.view (Rect.unit (s := S10) (k1_off1 i) S1.size (k1_off1_inb i)).toLoadRect T0 (Shape.Idx.first (numel1_S1.symm ▸ Nat.one_pos))) (View.readAt (Elt F) tbK.view (Rect.unit (s := S10) (k1_off1 i) S1.size (k1_off1_inb i)).toLoadRect T1 (Shape.Idx.first (numel1_S1.symm ▸ Nat.one_pos))) = 1#1))
    (h16 : ¬((Scalar.cmpi .ne (Scalar.extui (Scalar.xori (Scalar.cmpi .eq (View.readAt (Elt F) tbK.view (Rect.unit (s := S10) (k1_off1 i) S1.size (k1_off1_inb i)).toLoadRect T1 (Shape.Idx.first (numel1_S1.symm ▸ Nat.one_pos))) (View.readAt (Elt F) tbQ.view (Rect.unit (s := S10) (k1_off1 i) S1.size (k1_off1_inb i)).toLoadRect T0 (Shape.Idx.first (numel1_S1.symm ▸ Nat.one_pos)))) 1#1)) 0#32) = 1#1)) :
    Σ' (o7 : List (View.Piece (Elt F) S1x1024x64 .f32)) (om : Buf (Elt F) ((c : Thread nD τ).loc cc1_scratch0)) (ol : Buf (Elt F) ((c : Thread nD τ).loc cc1_scratch1)), { oa : Buf (Elt F) ((c : Thread nD τ).loc cc1_scratch2) //
      ∀ (sm : Buf (Elt F) ((c : Thread nD τ).loc cc1_scratch0)) (sl : Buf (Elt F) ((c : Thread nD τ).loc cc1_scratch1)) (sa : Buf (Elt F) ((c : Thread nD τ).loc cc1_scratch2)) (K : PUnit → sProp 𝕄),
        iprop((arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (tbQ.view.loc (c : Thread nD τ) ↦{fullShare} T0)
          ∗ (tbK.view.loc (c : Thread nD τ) ↦{fullShare} T1)
          ∗ (∃ d, owns (c : Thread nD τ) arg7 fullShare d)
          ∗ (scM.view.loc (c : Thread nD τ) ↦{fullShare} sm)
          ∗ (scL.view.loc (c : Thread nD τ) ↦{fullShare} sl)
          ∗ (scA.view.loc (c : Thread nD τ) ↦{fullShare} sa)
          ∗ (iprop((arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (tbQ.view.loc (c : Thread nD τ) ↦{fullShare} T0)
          ∗ (tbK.view.loc (c : Thread nD τ) ↦{fullShare} T1)
              ∗ (∃ f, arg7.view.loc (c : Thread nD τ) ↦[arg7.view.set]{fullShare} arg7.view.writes (Elt F) f o7)
              ∗ (scM.view.loc (c : Thread nD τ) ↦{fullShare} om)
              ∗ (scL.view.loc (c : Thread nD τ) ↦{fullShare} ol)
              ∗ (scA.view.loc (c : Thread nD τ) ↦{fullShare} oa)) -∗ K ⟨⟩))
          ⊢ wp frame (wpE (defs₀ (F := F)) Variants.none c none) Set.univ
          (cc1__attn_kernel i tbQ (Memref.isWhole_whole _) tbK (Memref.isWhole_whole _) arg4 harg4 arg5 harg5 arg6 harg6 arg7 harg7
            scM (Memref.isWhole_whole _) scL (Memref.isWhole_whole _) scA (Memref.isWhole_whole _)) K } :=
  ⟨_, _, _, _, fun sm sl sa K => by
    unfold owns
    rw [cc1__attn_kernel_eq_skeleton]; unfold cc1__attn_kernel_skel
    iintro ⟨H4, H5, H6, HT0, HT1, ⟨%d7, %f7, -, H7⟩, HSM, HSL, HSA, Hk⟩
    have hSM : scM.IsWhole := Memref.isWhole_whole _
    have hSL : scL.IsWhole := Memref.isWhole_whole _
    have hSA : scA.IsWhole := Memref.isWhole_whole _
    have hT0 : tbQ.IsWhole := Memref.isWhole_whole _
    have hT1 : tbK.IsWhole := Memref.isWhole_whole _
    sl_exec! (disch := first | exact h6 | exact h4 | exact h16)
    sl_step
    iapply Hk
    isplitl [H4]; · iexact H4
    isplitl [H5]; · iexact H5
    isplitl [H6]; · iexact H6
    isplitl [HT0]; · iexact HT0
    isplitl [HT1]; · iexact HT1
    isplitl [H7]; · iexists _; iexact H7
    isplitl [HSM]; · iexact HSM
    isplitl [HSL]; · iexact HSL
    iexact HSA⟩

set_option maxHeartbeats 8000000 in
/-- The body at a grid point that starts a query tile's run of key tiles (the carried buffers are reset) and
    is a tile below the diagonal (the output buffer is left alone): what it leaves in the carried buffers, with the proof. -/
noncomputable def runB (c : Dev nD) (i : grid1.Coords)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .f32) (harg7 : arg7.IsWhole)
    (T0 T1 : S10.Idx → Elt F .i32) (xq xk xv : S1x1024x64.Idx → Elt F .bf16)
    (h6 : ((Scalar.cmpi .ne (Scalar.extui (Scalar.cmpi .eq (View.readAt (Elt F) tbK.view (Rect.unit (s := S10) (k1_off1 i) S1.size (k1_off1_inb i)).toLoadRect T1 (Shape.Idx.first (numel1_S1.symm ▸ Nat.one_pos))) 0#32)) 0#32) = 1#1))
    (h4 : ¬(k1_cond4 (View.readAt (Elt F) tbQ.view (Rect.unit (s := S10) (k1_off1 i) S1.size (k1_off1_inb i)).toLoadRect T0 (Shape.Idx.first (numel1_S1.symm ▸ Nat.one_pos))) (View.readAt (Elt F) tbK.view (Rect.unit (s := S10) (k1_off1 i) S1.size (k1_off1_inb i)).toLoadRect T1 (Shape.Idx.first (numel1_S1.symm ▸ Nat.one_pos))) = 1#1))
    (h16 : ((Scalar.cmpi .ne (Scalar.extui (Scalar.xori (Scalar.cmpi .eq (View.readAt (Elt F) tbK.view (Rect.unit (s := S10) (k1_off1 i) S1.size (k1_off1_inb i)).toLoadRect T1 (Shape.Idx.first (numel1_S1.symm ▸ Nat.one_pos))) (View.readAt (Elt F) tbQ.view (Rect.unit (s := S10) (k1_off1 i) S1.size (k1_off1_inb i)).toLoadRect T0 (Shape.Idx.first (numel1_S1.symm ▸ Nat.one_pos)))) 1#1)) 0#32) = 1#1)) :
    Σ' (om : Buf (Elt F) ((c : Thread nD τ).loc cc1_scratch0)) (ol : Buf (Elt F) ((c : Thread nD τ).loc cc1_scratch1)), { oa : Buf (Elt F) ((c : Thread nD τ).loc cc1_scratch2) //
      ∀ (sm : Buf (Elt F) ((c : Thread nD τ).loc cc1_scratch0)) (sl : Buf (Elt F) ((c : Thread nD τ).loc cc1_scratch1)) (sa : Buf (Elt F) ((c : Thread nD τ).loc cc1_scratch2)) (y : S1x1024x64.Idx → Elt F .f32) (K : PUnit → sProp 𝕄),
        iprop((arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (tbQ.view.loc (c : Thread nD τ) ↦{fullShare} T0)
          ∗ (tbK.view.loc (c : Thread nD τ) ↦{fullShare} T1)
          ∗ owns (c : Thread nD τ) arg7 fullShare y
          ∗ (scM.view.loc (c : Thread nD τ) ↦{fullShare} sm)
          ∗ (scL.view.loc (c : Thread nD τ) ↦{fullShare} sl)
          ∗ (scA.view.loc (c : Thread nD τ) ↦{fullShare} sa)
          ∗ (iprop((arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (tbQ.view.loc (c : Thread nD τ) ↦{fullShare} T0)
          ∗ (tbK.view.loc (c : Thread nD τ) ↦{fullShare} T1)
              ∗ owns (c : Thread nD τ) arg7 fullShare y
              ∗ (scM.view.loc (c : Thread nD τ) ↦{fullShare} om)
              ∗ (scL.view.loc (c : Thread nD τ) ↦{fullShare} ol)
              ∗ (scA.view.loc (c : Thread nD τ) ↦{fullShare} oa)) -∗ K ⟨⟩))
          ⊢ wp frame (wpE (defs₀ (F := F)) Variants.none c none) Set.univ
          (cc1__attn_kernel i tbQ (Memref.isWhole_whole _) tbK (Memref.isWhole_whole _) arg4 harg4 arg5 harg5 arg6 harg6 arg7 harg7
            scM (Memref.isWhole_whole _) scL (Memref.isWhole_whole _) scA (Memref.isWhole_whole _)) K } :=
  ⟨_, _, _, fun sm sl sa y K => by
    unfold owns
    rw [cc1__attn_kernel_eq_skeleton]; unfold cc1__attn_kernel_skel
    iintro ⟨H4, H5, H6, HT0, HT1, ⟨%f7, %hf7, H7⟩, HSM, HSL, HSA, Hk⟩
    obtain rfl := harg7.eq_unread hf7
    have hSM : scM.IsWhole := Memref.isWhole_whole _
    have hSL : scL.IsWhole := Memref.isWhole_whole _
    have hSA : scA.IsWhole := Memref.isWhole_whole _
    have hT0 : tbQ.IsWhole := Memref.isWhole_whole _
    have hT1 : tbK.IsWhole := Memref.isWhole_whole _
    sl_exec! (disch := first | exact h6 | exact h4 | exact h16)
    sl_step
    iapply Hk
    isplitl [H4]; · iexact H4
    isplitl [H5]; · iexact H5
    isplitl [H6]; · iexact H6
    isplitl [HT0]; · iexact HT0
    isplitl [HT1]; · iexact HT1
    isplitl [H7]
    · iexists _; isplitr; · ipureintro; exact harg7.read_unread _
      iexact H7
    isplitl [HSM]; · iexact HSM
    isplitl [HSL]; · iexact HSL
    iexact HSA⟩

set_option maxHeartbeats 8000000 in
/-- The body at a grid point that continues a run (the carried buffers are read) and
    is a tile below the diagonal (the output buffer is left alone): what it leaves in the carried buffers, with the proof. -/
noncomputable def runC (c : Dev nD) (i : grid1.Coords)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .f32) (harg7 : arg7.IsWhole)
    (T0 T1 : S10.Idx → Elt F .i32) (xq xk xv : S1x1024x64.Idx → Elt F .bf16) (sm : Buf (Elt F) ((c : Thread nD τ).loc cc1_scratch0)) (sl : Buf (Elt F) ((c : Thread nD τ).loc cc1_scratch1)) (sa : Buf (Elt F) ((c : Thread nD τ).loc cc1_scratch2))
    (h6 : ¬((Scalar.cmpi .ne (Scalar.extui (Scalar.cmpi .eq (View.readAt (Elt F) tbK.view (Rect.unit (s := S10) (k1_off1 i) S1.size (k1_off1_inb i)).toLoadRect T1 (Shape.Idx.first (numel1_S1.symm ▸ Nat.one_pos))) 0#32)) 0#32) = 1#1))
    (h4 : ¬(k1_cond4 (View.readAt (Elt F) tbQ.view (Rect.unit (s := S10) (k1_off1 i) S1.size (k1_off1_inb i)).toLoadRect T0 (Shape.Idx.first (numel1_S1.symm ▸ Nat.one_pos))) (View.readAt (Elt F) tbK.view (Rect.unit (s := S10) (k1_off1 i) S1.size (k1_off1_inb i)).toLoadRect T1 (Shape.Idx.first (numel1_S1.symm ▸ Nat.one_pos))) = 1#1))
    (h16 : ((Scalar.cmpi .ne (Scalar.extui (Scalar.xori (Scalar.cmpi .eq (View.readAt (Elt F) tbK.view (Rect.unit (s := S10) (k1_off1 i) S1.size (k1_off1_inb i)).toLoadRect T1 (Shape.Idx.first (numel1_S1.symm ▸ Nat.one_pos))) (View.readAt (Elt F) tbQ.view (Rect.unit (s := S10) (k1_off1 i) S1.size (k1_off1_inb i)).toLoadRect T0 (Shape.Idx.first (numel1_S1.symm ▸ Nat.one_pos)))) 1#1)) 0#32) = 1#1)) :
    Σ' (om : Buf (Elt F) ((c : Thread nD τ).loc cc1_scratch0)) (ol : Buf (Elt F) ((c : Thread nD τ).loc cc1_scratch1)), { oa : Buf (Elt F) ((c : Thread nD τ).loc cc1_scratch2) //
      ∀ (y : S1x1024x64.Idx → Elt F .f32) (K : PUnit → sProp 𝕄),
        iprop((arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (tbQ.view.loc (c : Thread nD τ) ↦{fullShare} T0)
          ∗ (tbK.view.loc (c : Thread nD τ) ↦{fullShare} T1)
          ∗ owns (c : Thread nD τ) arg7 fullShare y
          ∗ (scM.view.loc (c : Thread nD τ) ↦{fullShare} sm)
          ∗ (scL.view.loc (c : Thread nD τ) ↦{fullShare} sl)
          ∗ (scA.view.loc (c : Thread nD τ) ↦{fullShare} sa)
          ∗ (iprop((arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (tbQ.view.loc (c : Thread nD τ) ↦{fullShare} T0)
          ∗ (tbK.view.loc (c : Thread nD τ) ↦{fullShare} T1)
              ∗ owns (c : Thread nD τ) arg7 fullShare y
              ∗ (scM.view.loc (c : Thread nD τ) ↦{fullShare} om)
              ∗ (scL.view.loc (c : Thread nD τ) ↦{fullShare} ol)
              ∗ (scA.view.loc (c : Thread nD τ) ↦{fullShare} oa)) -∗ K ⟨⟩))
          ⊢ wp frame (wpE (defs₀ (F := F)) Variants.none c none) Set.univ
          (cc1__attn_kernel i tbQ (Memref.isWhole_whole _) tbK (Memref.isWhole_whole _) arg4 harg4 arg5 harg5 arg6 harg6 arg7 harg7
            scM (Memref.isWhole_whole _) scL (Memref.isWhole_whole _) scA (Memref.isWhole_whole _)) K } :=
  ⟨_, _, _, fun y K => by
    unfold owns
    rw [cc1__attn_kernel_eq_skeleton]; unfold cc1__attn_kernel_skel
    iintro ⟨H4, H5, H6, HT0, HT1, ⟨%f7, %hf7, H7⟩, HSM, HSL, HSA, Hk⟩
    obtain rfl := harg7.eq_unread hf7
    have hSM : scM.IsWhole := Memref.isWhole_whole _
    have hSL : scL.IsWhole := Memref.isWhole_whole _
    have hSA : scA.IsWhole := Memref.isWhole_whole _
    have hT0 : tbQ.IsWhole := Memref.isWhole_whole _
    have hT1 : tbK.IsWhole := Memref.isWhole_whole _
    sl_exec! (disch := first | exact h6 | exact h4 | exact h16)
    sl_step
    iapply Hk
    isplitl [H4]; · iexact H4
    isplitl [H5]; · iexact H5
    isplitl [H6]; · iexact H6
    isplitl [HT0]; · iexact HT0
    isplitl [HT1]; · iexact HT1
    isplitl [H7]
    · iexists _; isplitr; · ipureintro; exact harg7.read_unread _
      iexact H7
    isplitl [HSM]; · iexact HSM
    isplitl [HSL]; · iexact HSL
    iexact HSA⟩

set_option maxHeartbeats 8000000 in
/-- The body at a grid point that continues a run (the carried buffers are read) and
    is the diagonal tile (masked scores; the output block is stored): what it leaves in the carried buffers and the output buffer, with the proof. -/
noncomputable def runD (c : Dev nD) (i : grid1.Coords)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .f32) (harg7 : arg7.IsWhole)
    (T0 T1 : S10.Idx → Elt F .i32) (xq xk xv : S1x1024x64.Idx → Elt F .bf16) (sm : Buf (Elt F) ((c : Thread nD τ).loc cc1_scratch0)) (sl : Buf (Elt F) ((c : Thread nD τ).loc cc1_scratch1)) (sa : Buf (Elt F) ((c : Thread nD τ).loc cc1_scratch2))
    (h6 : ¬((Scalar.cmpi .ne (Scalar.extui (Scalar.cmpi .eq (View.readAt (Elt F) tbK.view (Rect.unit (s := S10) (k1_off1 i) S1.size (k1_off1_inb i)).toLoadRect T1 (Shape.Idx.first (numel1_S1.symm ▸ Nat.one_pos))) 0#32)) 0#32) = 1#1))
    (h4 : (k1_cond4 (View.readAt (Elt F) tbQ.view (Rect.unit (s := S10) (k1_off1 i) S1.size (k1_off1_inb i)).toLoadRect T0 (Shape.Idx.first (numel1_S1.symm ▸ Nat.one_pos))) (View.readAt (Elt F) tbK.view (Rect.unit (s := S10) (k1_off1 i) S1.size (k1_off1_inb i)).toLoadRect T1 (Shape.Idx.first (numel1_S1.symm ▸ Nat.one_pos))) = 1#1))
    (h16 : ¬((Scalar.cmpi .ne (Scalar.extui (Scalar.xori (Scalar.cmpi .eq (View.readAt (Elt F) tbK.view (Rect.unit (s := S10) (k1_off1 i) S1.size (k1_off1_inb i)).toLoadRect T1 (Shape.Idx.first (numel1_S1.symm ▸ Nat.one_pos))) (View.readAt (Elt F) tbQ.view (Rect.unit (s := S10) (k1_off1 i) S1.size (k1_off1_inb i)).toLoadRect T0 (Shape.Idx.first (numel1_S1.symm ▸ Nat.one_pos)))) 1#1)) 0#32) = 1#1)) :
    Σ' (o7 : List (View.Piece (Elt F) S1x1024x64 .f32)) (om : Buf (Elt F) ((c : Thread nD τ).loc cc1_scratch0)) (ol : Buf (Elt F) ((c : Thread nD τ).loc cc1_scratch1)), { oa : Buf (Elt F) ((c : Thread nD τ).loc cc1_scratch2) //
      ∀ (K : PUnit → sProp 𝕄),
        iprop((arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (tbQ.view.loc (c : Thread nD τ) ↦{fullShare} T0)
          ∗ (tbK.view.loc (c : Thread nD τ) ↦{fullShare} T1)
          ∗ (∃ d, owns (c : Thread nD τ) arg7 fullShare d)
          ∗ (scM.view.loc (c : Thread nD τ) ↦{fullShare} sm)
          ∗ (scL.view.loc (c : Thread nD τ) ↦{fullShare} sl)
          ∗ (scA.view.loc (c : Thread nD τ) ↦{fullShare} sa)
          ∗ (iprop((arg4.view.loc (c : Thread nD τ) ↦[arg4.view.set]{fullShare} arg4.view.rep xq)
          ∗ (arg5.view.loc (c : Thread nD τ) ↦[arg5.view.set]{fullShare} arg5.view.rep xk)
          ∗ (arg6.view.loc (c : Thread nD τ) ↦[arg6.view.set]{fullShare} arg6.view.rep xv)
          ∗ (tbQ.view.loc (c : Thread nD τ) ↦{fullShare} T0)
          ∗ (tbK.view.loc (c : Thread nD τ) ↦{fullShare} T1)
              ∗ (∃ f, arg7.view.loc (c : Thread nD τ) ↦[arg7.view.set]{fullShare} arg7.view.writes (Elt F) f o7)
              ∗ (scM.view.loc (c : Thread nD τ) ↦{fullShare} om)
              ∗ (scL.view.loc (c : Thread nD τ) ↦{fullShare} ol)
              ∗ (scA.view.loc (c : Thread nD τ) ↦{fullShare} oa)) -∗ K ⟨⟩))
          ⊢ wp frame (wpE (defs₀ (F := F)) Variants.none c none) Set.univ
          (cc1__attn_kernel i tbQ (Memref.isWhole_whole _) tbK (Memref.isWhole_whole _) arg4 harg4 arg5 harg5 arg6 harg6 arg7 harg7
            scM (Memref.isWhole_whole _) scL (Memref.isWhole_whole _) scA (Memref.isWhole_whole _)) K } :=
  ⟨_, _, _, _, fun K => by
    unfold owns
    rw [cc1__attn_kernel_eq_skeleton]; unfold cc1__attn_kernel_skel
    iintro ⟨H4, H5, H6, HT0, HT1, ⟨%d7, %f7, -, H7⟩, HSM, HSL, HSA, Hk⟩
    have hSM : scM.IsWhole := Memref.isWhole_whole _
    have hSL : scL.IsWhole := Memref.isWhole_whole _
    have hSA : scA.IsWhole := Memref.isWhole_whole _
    have hT0 : tbQ.IsWhole := Memref.isWhole_whole _
    have hT1 : tbK.IsWhole := Memref.isWhole_whole _
    sl_exec! (disch := first | exact h6 | exact h4 | exact h16)
    sl_step
    iapply Hk
    isplitl [H4]; · iexact H4
    isplitl [H5]; · iexact H5
    isplitl [H6]; · iexact H6
    isplitl [HT0]; · iexact HT0
    isplitl [HT1]; · iexact HT1
    isplitl [H7]; · iexists _; iexact H7
    isplitl [HSM]; · iexact HSM
    isplitl [HSL]; · iexact HSL
    iexact HSA⟩

end Cert.KernelIdeal.R1

end
-- ==== Proof.R1.lean ====
/-
  The attention pipeline at the contents of its two prefetched tables (the query-tile and key-tile index of each of the ten
  steps per batch): which kind of step each grid point is, decided over the forty points; the trajectory of the output
  buffer and of the three carried buffers over the points; the pipeline's proof data and invariant; and the body
  obligation at every point, by the step's kind.
-/
import proofs.«402334_j1417339207762_3_alg».proof.Proof.Gen.KernelIdeal.Launch
import proofs.«402334_j1417339207762_3_alg».proof.Proof.Gen.KernelIdeal.Skeleton
import proofs.«402334_j1417339207762_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic
import Idealize.ShloMosaic.PureOps.BitExact
import Idealize.ShloMosaic.PureOps.Ideal
import proofs.«402334_j1417339207762_3_alg».proof.Proof.R1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The instance the programs are read at. -/
local notation "𝔽" => Ideal

local notation "𝕄" => MT nD τ sig Unit (Elt 𝔽) ℕ (UR sig nD τ) ℕ

/-! ## The pipeline at the tables' contents -/

/-- The two tables as @main's constants fill them: the query-tile index and the key-tile index of each of the ten steps. -/
abbrev T0c : S10.Idx → Elt 𝔽 .i32 := fun x => lit0 (S10.rowMajor x)
abbrev T1c : S10.Idx → Elt 𝔽 .i32 := fun x => lit1 (S10.rowMajor x)
def pfT : pre1.Contents (Elt 𝔽) := fun | ⟨0, _⟩ => T0c | ⟨1, _⟩ => T1c | ⟨_ + 2, h⟩ => absurd h (Nat.not_lt.2 (Nat.le_add_left _ _))

/-- Every block the tables select lies inside its array. -/
theorem ok_pfT : ok1 (F := 𝔽) (pfT) := by decide +kernel

def adm : (pcfg1 (F := 𝔽)).Adm := ⟨pfT, ok_pfT⟩
abbrev cfgA : Pipeline.Cfg sig Λ₀ := cfg1 (F := 𝔽) adm
abbrev crd (t : Fin cfgA.N) : cfgA.grid.Coords := cfgA.grid.coords t

abbrev wQ (i : grid1.Coords) : BitVec 32 := (View.readAt (Elt 𝔽) tbQ.view (Rect.unit (s := S10) (k1_off1 i) S1.size (k1_off1_inb i)).toLoadRect (T0c) (Shape.Idx.first (numel1_S1.symm ▸ Nat.one_pos)))
abbrev wK (i : grid1.Coords) : BitVec 32 := (View.readAt (Elt 𝔽) tbK.view (Rect.unit (s := S10) (k1_off1 i) S1.size (k1_off1_inb i)).toLoadRect (T1c) (Shape.Idx.first (numel1_S1.symm ▸ Nat.one_pos)))

/-- The step is the first of its query tile's run (key tile 0). -/
abbrev P6 (t : Fin cfgA.N) : Prop := (Scalar.cmpi .ne (Scalar.extui (Scalar.cmpi .eq (wK (crd t)) 0#32)) 0#32) = 1#1
/-- The step is the diagonal one (key tile = query tile), the last of its run. -/
abbrev P4 (t : Fin cfgA.N) : Prop := k1_cond4 (wQ (crd t)) (wK (crd t)) = 1#1
abbrev P16 (t : Fin cfgA.N) : Prop := (Scalar.cmpi .ne (Scalar.extui (Scalar.xori (Scalar.cmpi .eq (wK (crd t)) (wQ (crd t))) 1#1)) 0#32) = 1#1

abbrev FactsAt (t : Fin cfgA.N) : Prop :=
  (P16 t ↔ ¬ P4 t)
  ∧ (cfgA.idle (3 : Fin 4) (cfgA.grid.coords t) = !decide (P4 t))
  ∧ ((cfgA.win (3 : Fin 4)).flush t = decide (P4 t))
  ∧ (t.val = 0 → P6 t)

theorem allFacts : ∀ t : Fin cfgA.N, FactsAt t := by decide +kernel

/-! ## A point's staging buffers and blocks -/

abbrev ms0 (t : Fin cfgA.N) : Memref sig .tc .vmem S1x1024x64 .bf16 := spec1_0.stage (cfgA.slots t (0 : Fin 4))
abbrev hs0 (t : Fin cfgA.N) : (ms0 t).IsWhole := hstage1_0 ((cfgA.slots t (0 : Fin 4)).cast nbuf1_0)
abbrev ms1 (t : Fin cfgA.N) : Memref sig .tc .vmem S1x1024x64 .bf16 := spec1_1.stage (cfgA.slots t (1 : Fin 4))
abbrev hs1 (t : Fin cfgA.N) : (ms1 t).IsWhole := hstage1_1 ((cfgA.slots t (1 : Fin 4)).cast nbuf1_1)
abbrev ms2 (t : Fin cfgA.N) : Memref sig .tc .vmem S1x1024x64 .bf16 := spec1_2.stage (cfgA.slots t (2 : Fin 4))
abbrev hs2 (t : Fin cfgA.N) : (ms2 t).IsWhole := hstage1_2 ((cfgA.slots t (2 : Fin 4)).cast nbuf1_2)
abbrev ms3 (t : Fin cfgA.N) : Memref sig .tc .vmem S1x1024x64 .f32 := spec1_3.stage (cfgA.slots t (3 : Fin 4))
abbrev hs3 (t : Fin cfgA.N) : (ms3 t).IsWhole := hstage1_3 ((cfgA.slots t (3 : Fin 4)).cast nbuf1_3)

section Data

variable (V : (c : Dev nD) → (b : Ref sig .tc) → Buf (Elt 𝔽) ((c : Thread nD τ).loc b))

/-- Window `w`'s block at grid point `t`, read off its array as the region finds it. -/
def iblk (c : Dev nD) (w : Fin cfgA.W) (t : Fin cfgA.N) : ((cfgA.win w).xblock (crd t)).Idx → Elt 𝔽 (cfgA.win w).elt :=
  ((cfgA.win w).blk t).view.read (Elt 𝔽) (V c (Pipeline.arrRef spec1 w))

theorem h16_of (t : Fin cfgA.N) (q4 : P4 t) : ¬ P16 t := fun h => ((allFacts t).1.mp h) q4
theorem h16_of_not (t : Fin cfgA.N) (q4 : ¬ P4 t) : P16 t := (allFacts t).1.mpr q4

/-- One staging buffer of the output window, through which a stored block's contents are stated. -/
abbrev VO : View sig .tc .vmem S1x1024x64 .f32 := (Memref.whole cc1_stg3_0 : Memref sig .tc .vmem S1x1024x64 .f32).view

/-- What a list of stored pieces leaves in the output buffer, read back. -/
def outOf (L : List (View.Piece (Elt 𝔽) S1x1024x64 .f32)) : S1x1024x64.Idx → Elt 𝔽 .f32 :=
  VO.read (Elt 𝔽) (VO.writes (Elt 𝔽) VO.junk L)

/-! ## What the output buffer and the three carried buffers hold after each point -/

/-- One step: from what the carried buffers held (`prev`), what the output buffer and the carried buffers hold after the
    body at point `t`, by the step's kind. A step that stores no output leaves the output buffer's contents unnamed. -/
def step (c : Dev nD) (t : Fin cfgA.N) (prev : ((S1x1024x64.Idx → Elt 𝔽 .f32) × Buf (Elt 𝔽) ((c : Thread nD τ).loc cc1_scratch0) × Buf (Elt 𝔽) ((c : Thread nD τ).loc cc1_scratch1) × Buf (Elt 𝔽) ((c : Thread nD τ).loc cc1_scratch2))) : ((S1x1024x64.Idx → Elt 𝔽 .f32) × Buf (Elt 𝔽) ((c : Thread nD τ).loc cc1_scratch0) × Buf (Elt 𝔽) ((c : Thread nD τ).loc cc1_scratch1) × Buf (Elt 𝔽) ((c : Thread nD τ).loc cc1_scratch2)) :=
  if q6 : P6 t then
    if q4 : P4 t then
      (outOf (runA c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of t q4)).1,
        (runA c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of t q4)).2.1,
        (runA c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of t q4)).2.2.1,
        (runA c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of t q4)).2.2.2.1)
    else
      (default,
        (runB c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of_not t q4)).1,
        (runB c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of_not t q4)).2.1,
        (runB c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of_not t q4)).2.2.1)
  else
    if q4 : P4 t then
      (outOf (runD c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) prev.2.1 prev.2.2.1 prev.2.2.2 q6 q4 (h16_of t q4)).1,
        (runD c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) prev.2.1 prev.2.2.1 prev.2.2.2 q6 q4 (h16_of t q4)).2.1,
        (runD c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) prev.2.1 prev.2.2.1 prev.2.2.2 q6 q4 (h16_of t q4)).2.2.1,
        (runD c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) prev.2.1 prev.2.2.1 prev.2.2.2 q6 q4 (h16_of t q4)).2.2.2.1)
    else
      (default,
        (runC c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) prev.2.1 prev.2.2.1 prev.2.2.2 q6 q4 (h16_of_not t q4)).1,
        (runC c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) prev.2.1 prev.2.2.1 prev.2.2.2 q6 q4 (h16_of_not t q4)).2.1,
        (runC c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) prev.2.1 prev.2.2.1 prev.2.2.2 q6 q4 (h16_of_not t q4)).2.2.1)

/-- The trajectory: after position `n`. -/
def traj (c : Dev nD) : (n : ℕ) → n < cfgA.N → ((S1x1024x64.Idx → Elt 𝔽 .f32) × Buf (Elt 𝔽) ((c : Thread nD τ).loc cc1_scratch0) × Buf (Elt 𝔽) ((c : Thread nD τ).loc cc1_scratch1) × Buf (Elt 𝔽) ((c : Thread nD τ).loc cc1_scratch2))
  | 0, h => step V c ⟨0, h⟩ (default, default, default, default)
  | n + 1, h => step V c ⟨n + 1, h⟩ (traj c n (Nat.lt_of_succ_lt h))

/-- What they held BEFORE point `t` (unnamed before the first). -/
def prev (c : Dev nD) (t : Fin cfgA.N) : ((S1x1024x64.Idx → Elt 𝔽 .f32) × Buf (Elt 𝔽) ((c : Thread nD τ).loc cc1_scratch0) × Buf (Elt 𝔽) ((c : Thread nD τ).loc cc1_scratch1) × Buf (Elt 𝔽) ((c : Thread nD τ).loc cc1_scratch2)) :=
  if h : t.val = 0 then (default, default, default, default) else traj V c (t.val - 1) (by omega)

theorem traj_eq (c : Dev nD) (t : Fin cfgA.N) : traj V c t.val t.isLt = step V c t (prev V c t) := by
  obtain ⟨n, hn⟩ := t
  cases n with
  | zero => rfl
  | succ n => unfold prev; simp only [Nat.add_one_ne_zero, dif_neg, not_false_eq_true]; rfl

theorem step_A (c : Dev nD) (t : Fin cfgA.N) (p : ((S1x1024x64.Idx → Elt 𝔽 .f32) × Buf (Elt 𝔽) ((c : Thread nD τ).loc cc1_scratch0) × Buf (Elt 𝔽) ((c : Thread nD τ).loc cc1_scratch1) × Buf (Elt 𝔽) ((c : Thread nD τ).loc cc1_scratch2))) (q6 : P6 t) (q4 : P4 t) :
    step V c t p = (outOf (runA c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of t q4)).1,
        (runA c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of t q4)).2.1,
        (runA c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of t q4)).2.2.1,
        (runA c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of t q4)).2.2.2.1) := by
  unfold step; simp only [dif_pos q6, dif_pos q4]
theorem step_B (c : Dev nD) (t : Fin cfgA.N) (p : ((S1x1024x64.Idx → Elt 𝔽 .f32) × Buf (Elt 𝔽) ((c : Thread nD τ).loc cc1_scratch0) × Buf (Elt 𝔽) ((c : Thread nD τ).loc cc1_scratch1) × Buf (Elt 𝔽) ((c : Thread nD τ).loc cc1_scratch2))) (q6 : P6 t) (q4 : ¬ P4 t) :
    step V c t p = (default,
        (runB c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of_not t q4)).1,
        (runB c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of_not t q4)).2.1,
        (runB c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) q6 q4 (h16_of_not t q4)).2.2.1) := by
  unfold step; simp only [dif_pos q6, dif_neg q4]
theorem step_C (c : Dev nD) (t : Fin cfgA.N) (p : ((S1x1024x64.Idx → Elt 𝔽 .f32) × Buf (Elt 𝔽) ((c : Thread nD τ).loc cc1_scratch0) × Buf (Elt 𝔽) ((c : Thread nD τ).loc cc1_scratch1) × Buf (Elt 𝔽) ((c : Thread nD τ).loc cc1_scratch2))) (q6 : ¬ P6 t) (q4 : ¬ P4 t) :
    step V c t p = (default,
        (runC c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) p.2.1 p.2.2.1 p.2.2.2 q6 q4 (h16_of_not t q4)).1,
        (runC c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) p.2.1 p.2.2.1 p.2.2.2 q6 q4 (h16_of_not t q4)).2.1,
        (runC c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) p.2.1 p.2.2.1 p.2.2.2 q6 q4 (h16_of_not t q4)).2.2.1) := by
  unfold step; simp only [dif_neg q6, dif_neg q4]
theorem step_D (c : Dev nD) (t : Fin cfgA.N) (p : ((S1x1024x64.Idx → Elt 𝔽 .f32) × Buf (Elt 𝔽) ((c : Thread nD τ).loc cc1_scratch0) × Buf (Elt 𝔽) ((c : Thread nD τ).loc cc1_scratch1) × Buf (Elt 𝔽) ((c : Thread nD τ).loc cc1_scratch2))) (q6 : ¬ P6 t) (q4 : P4 t) :
    step V c t p = (outOf (runD c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) p.2.1 p.2.2.1 p.2.2.2 q6 q4 (h16_of t q4)).1,
        (runD c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) p.2.1 p.2.2.1 p.2.2.2 q6 q4 (h16_of t q4)).2.1,
        (runD c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) p.2.1 p.2.2.1 p.2.2.2 q6 q4 (h16_of t q4)).2.2.1,
        (runD c (crd t) (ms0 t) (hs0 t) (ms1 t) (hs1 t) (ms2 t) (hs2 t) (ms3 t) (hs3 t) (T0c) (T1c) (iblk V c (0 : Fin 4) t) (iblk V c (1 : Fin 4) t) (iblk V c (2 : Fin 4) t) p.2.1 p.2.2.1 p.2.2.2 q6 q4 (h16_of t q4)).2.2.2.1) := by
  unfold step; simp only [dif_neg q6, dif_pos q4]

/-! ## The pipeline's proof data -/

/-- What the tracked buffers held before position `t` of `Fin (N+1)` (the invariant's index). -/
def prevT (c : Dev nD) (t : Fin (cfgA.N + 1)) : ((S1x1024x64.Idx → Elt 𝔽 .f32) × Buf (Elt 𝔽) ((c : Thread nD τ).loc cc1_scratch0) × Buf (Elt 𝔽) ((c : Thread nD τ).loc cc1_scratch1) × Buf (Elt 𝔽) ((c : Thread nD τ).loc cc1_scratch2)) :=
  if h : t.val = 0 then (default, default, default, default) else traj V c (t.val - 1) (by omega)

theorem prevT_castSucc (c : Dev nD) (t : Fin cfgA.N) : prevT V c t.castSucc = prev V c t := rfl
theorem prevT_succ (c : Dev nD) (t : Fin cfgA.N) : prevT V c t.succ = traj V c t.val t.isLt := by
  unfold prevT; rw [dif_neg (by simp)]; rfl

/-- The scoped buffers of the other pipeline: untouched here, they ride along. -/
def Rest (c : Dev nD) : sProp 𝕄 :=
  iprop((∃ f : Buf (Elt 𝔽) ((c : Thread nD τ).loc cc0_stg0_0), ((c : Thread nD τ).loc cc0_stg0_0) ↦{fullShare} f) ∗ (∃ f : Buf (Elt 𝔽) ((c : Thread nD τ).loc cc0_stg0_1), ((c : Thread nD τ).loc cc0_stg0_1) ↦{fullShare} f) ∗ (∃ f : Buf (Elt 𝔽) ((c : Thread nD τ).loc cc0_stg1_0), ((c : Thread nD τ).loc cc0_stg1_0) ↦{fullShare} f) ∗ (∃ f : Buf (Elt 𝔽) ((c : Thread nD τ).loc cc0_stg1_1), ((c : Thread nD τ).loc cc0_stg1_1) ↦{fullShare} f) ∗ (∃ f : Buf (Elt 𝔽) ((c : Thread nD τ).loc cc0_stg2_0), ((c : Thread nD τ).loc cc0_stg2_0) ↦{fullShare} f) ∗ (∃ f : Buf (Elt 𝔽) ((c : Thread nD τ).loc cc0_stg2_1), ((c : Thread nD τ).loc cc0_stg2_1) ↦{fullShare} f) ∗ (∃ f : Buf (Elt 𝔽) ((c : Thread nD τ).loc cc0_stg3_0), ((c : Thread nD τ).loc cc0_stg3_0) ↦{fullShare} f) ∗ (∃ f : Buf (Elt 𝔽) ((c : Thread nD τ).loc cc0_stg4_0), ((c : Thread nD τ).loc cc0_stg4_0) ↦{fullShare} f) ∗ (∃ f : Buf (Elt 𝔽) ((c : Thread nD τ).loc cc0_stg5_0), ((c : Thread nD τ).loc cc0_stg5_0) ↦{fullShare} f) ∗ (∃ f : Buf (Elt 𝔽) ((c : Thread nD τ).loc cc0_stg6_0), ((c : Thread nD τ).loc cc0_stg6_0) ↦{fullShare} f) ∗ (∃ f : Buf (Elt 𝔽) ((c : Thread nD τ).loc cc0_stg6_1), ((c : Thread nD τ).loc cc0_stg6_1) ↦{fullShare} f) ∗ (∃ f : Buf (Elt 𝔽) ((c : Thread nD τ).loc cc0_stg7_0), ((c : Thread nD τ).loc cc0_stg7_0) ↦{fullShare} f) ∗ (∃ f : Buf (Elt 𝔽) ((c : Thread nD τ).loc cc0_stg7_1), ((c : Thread nD τ).loc cc0_stg7_1) ↦{fullShare} f) ∗ (∃ f : Buf (Elt 𝔽) ((c : Thread nD τ).loc cc0_stg8_0), ((c : Thread nD τ).loc cc0_stg8_0) ↦{fullShare} f) ∗ (∃ f : Buf (Elt 𝔽) ((c : Thread nD τ).loc cc0_stg8_1), ((c : Thread nD τ).loc cc0_stg8_1) ↦{fullShare} f))

/-- THE INVARIANT before point `t`: each carried buffer at what the trajectory says once a point has run (anything
    before the first, which resets them), the two tables at their contents, the other pipeline's buffers. -/
def Phi (c : Dev nD) (t : Fin (cfgA.N + 1)) : sProp 𝕄 :=
  iprop((∃ a, ⌜t.val ≠ 0 → a = (prevT V c t).2.1⌝ ∗ (scM.view.loc (c : Thread nD τ) ↦{fullShare} a))
    ∗ (∃ a, ⌜t.val ≠ 0 → a = (prevT V c t).2.2.1⌝ ∗ (scL.view.loc (c : Thread nD τ) ↦{fullShare} a))
    ∗ (∃ a, ⌜t.val ≠ 0 → a = (prevT V c t).2.2.2⌝ ∗ (scA.view.loc (c : Thread nD τ) ↦{fullShare} a))
    ∗ (tbQ.view.loc (c : Thread nD τ) ↦{fullShare} T0c)
    ∗ (tbK.view.loc (c : Thread nD τ) ↦{fullShare} T1c)
    ∗ Rest c)

/-- The proof data of the attention pipeline on core `c`. -/
def dat1 (c : Dev nD) : Dat τ (Elt 𝔽) Unit ℕ (UR sig nD τ) ℕ cfgA c where
  A w := V c (Pipeline.arrRef spec1 w)
  after w t := match w with
    | ⟨0, _⟩ => iblk V c (0 : Fin 4) t
    | ⟨1, _⟩ => iblk V c (1 : Fin 4) t
    | ⟨2, _⟩ => iblk V c (2 : Fin 4) t
    | ⟨3, _⟩ => (traj V c t.val t.isLt).1
  Φ t := Phi V c t
  q _ := fullShare
  owed _ := 0

theorem A_eq1 (c : Dev nD) (w : Fin cfgA.W) : (dat1 V c).A w = V c (Pipeline.arrRef spec1 w) := rfl
theorem after1_0 (c : Dev nD) (t : Fin cfgA.N) : (dat1 V c).after (0 : Fin 4) t = iblk V c (0 : Fin 4) t := rfl
theorem after1_1 (c : Dev nD) (t : Fin cfgA.N) : (dat1 V c).after (1 : Fin 4) t = iblk V c (1 : Fin 4) t := rfl
theorem after1_2 (c : Dev nD) (t : Fin cfgA.N) : (dat1 V c).after (2 : Fin 4) t = iblk V c (2 : Fin 4) t := rfl
theorem after1_3 (c : Dev nD) (t : Fin cfgA.N) : (dat1 V c).after (3 : Fin 4) t = (traj V c t.val t.isLt).1 := rfl

/-! ## What each window's staging buffer holds when the body runs -/

theorem before1_0 (c : Dev nD) (t : Fin cfgA.N) (d) : (dat1 V c).before (0 : Fin 4) t d = iblk V c (0 : Fin 4) t :=
  ((dat1 V c).before_in_eq_fetched (0 : Fin 4) rfl (fun _ => rfl) (fun _ _ _ => rfl) (fun t => by rw [after1_0]; unfold Dat.blockOf iblk; rfl) t d).trans
    (by unfold Dat.fetched Dat.blockOf iblk; rfl)
theorem before1_1 (c : Dev nD) (t : Fin cfgA.N) (d) : (dat1 V c).before (1 : Fin 4) t d = iblk V c (1 : Fin 4) t :=
  ((dat1 V c).before_in_eq_fetched (1 : Fin 4) rfl (fun _ => rfl) (fun _ _ _ => rfl) (fun t => by rw [after1_1]; unfold Dat.blockOf iblk; rfl) t d).trans
    (by unfold Dat.fetched Dat.blockOf iblk; rfl)
theorem before1_2 (c : Dev nD) (t : Fin cfgA.N) (d) : (dat1 V c).before (2 : Fin 4) t d = iblk V c (2 : Fin 4) t :=
  ((dat1 V c).before_in_eq_fetched (2 : Fin 4) rfl (fun _ => rfl) (fun _ _ _ => rfl) (fun t => by rw [after1_2]; unfold Dat.blockOf iblk; rfl) t d).trans
    (by unfold Dat.fetched Dat.blockOf iblk; rfl)

/-- The output buffer holds nothing the body stored, whenever the body runs: it is written back at exactly the points
    that store it. -/
theorem fresh_all : ∀ n, n ≤ cfgA.N → cfgA.fresh (3 : Fin 4) n = true :=
  Pipeline.Cfg.fresh_tab cfgA (3 : Fin 4) (fun _ => true) rfl (fun t => by
    obtain ⟨-, hi, hf, -⟩ := allFacts t
    rw [hi, hf]; by_cases q4 : P4 t <;> simp [q4])

theorem before1_3 (c : Dev nD) (t : Fin cfgA.N) (d) : (dat1 V c).before (3 : Fin 4) t d = d := by
  rw [(dat1 V c).before_out_traj (3 : Fin 4) rfl (fun _ _ => rfl)
    (fun t _ _ hf => absurd ((fresh_all t.val (Nat.le_of_lt t.isLt)).symm.trans hf) (by decide)) t.val t rfl d,
    if_pos (fresh_all t.val (Nat.le_of_lt t.isLt))]

/-! ## The stored output blocks tile the output buffer -/

theorem coverA (c : Dev nD) (t : Fin cfgA.N) (q6 : P6 t) (q4 : P4 t) (y : S1x1024x64.Idx) :
    ∃ pc ∈ (runA c (crd t) (ms0 t) (hs0 t) (ms1 t) (hs1 t) (ms2 t) (hs2 t) (ms3 t) (hs3 t) T0c T1c (iblk V c (0 : Fin 4) t) (iblk V c (1 : Fin 4) t) (iblk V c (2 : Fin 4) t) q6 q4 (h16_of t q4)).1, y ∈ pc.1.set :=
  View.cover_of_tiledL (runA c (crd t) (ms0 t) (hs0 t) (ms1 t) (hs1 t) (ms2 t) (hs2 t) (ms3 t) (hs3 t) T0c T1c (iblk V c (0 : Fin 4) t) (iblk V c (1 : Fin 4) t) (iblk V c (2 : Fin 4) t) q6 q4 (h16_of t q4)).1 S1x1024x64.size (by sl_kernel_rfl) y

theorem coverD (c : Dev nD) (t : Fin cfgA.N) (sm : Buf (Elt 𝔽) ((c : Thread nD τ).loc cc1_scratch0)) (sl : Buf (Elt 𝔽) ((c : Thread nD τ).loc cc1_scratch1)) (sa : Buf (Elt 𝔽) ((c : Thread nD τ).loc cc1_scratch2)) (q6 : ¬ P6 t) (q4 : P4 t) (y : S1x1024x64.Idx) :
    ∃ pc ∈ (runD c (crd t) (ms0 t) (hs0 t) (ms1 t) (hs1 t) (ms2 t) (hs2 t) (ms3 t) (hs3 t) T0c T1c (iblk V c (0 : Fin 4) t) (iblk V c (1 : Fin 4) t) (iblk V c (2 : Fin 4) t) sm sl sa q6 q4 (h16_of t q4)).1, y ∈ pc.1.set :=
  View.cover_of_tiledL (runD c (crd t) (ms0 t) (hs0 t) (ms1 t) (hs1 t) (ms2 t) (hs2 t) (ms3 t) (hs3 t) T0c T1c (iblk V c (0 : Fin 4) t) (iblk V c (1 : Fin 4) t) (iblk V c (2 : Fin 4) t) sm sl sa q6 q4 (h16_of t q4)).1 S1x1024x64.size (by sl_kernel_rfl) y

/-! ## The body obligation, at a generic point, by the step's kind -/

/-- The body at point `t` on its staging buffers, as the pipeline calls it. -/
abbrev bodyAt1 (t : Fin cfgA.N) : Prog (TpuEff nD τ sig (Elt 𝔽) Λ₀ .tc) PUnit :=
  cc1__attn_kernel (crd t) (Memref.whole main_c) (Memref.isWhole_whole _) (Memref.whole main_c_0) (Memref.isWhole_whole _)
    (ms0 t) (hs0 t) (ms1 t) (hs1 t) (ms2 t) (hs2 t) (ms3 t) (hs3 t)
    (Memref.whole cc1_scratch0) (Memref.isWhole_whole _) (Memref.whole cc1_scratch1) (Memref.isWhole_whole _) (Memref.whole cc1_scratch2) (Memref.isWhole_whole _)

set_option maxHeartbeats 8000000 in
theorem sound_body (c : Dev nD) (t : Fin cfgA.N) :
    iprop((dat1 V c).Φ t.castSucc ∗ (dat1 V c).owesAt () t.castSucc
        ∗ (∃ d, owns (c : Thread nD τ) (ms0 t) fullShare ((dat1 V c).before (0 : Fin 4) t d))
        ∗ (∃ d, owns (c : Thread nD τ) (ms1 t) fullShare ((dat1 V c).before (1 : Fin 4) t d))
        ∗ (∃ d, owns (c : Thread nD τ) (ms2 t) fullShare ((dat1 V c).before (2 : Fin 4) t d))
        ∗ (∃ d, owns (c : Thread nD τ) (ms3 t) fullShare ((dat1 V c).before (3 : Fin 4) t d)))
      ⊢ wp frame (wpE (defs₀ (F := 𝔽)) Variants.none c none) Set.univ (bodyAt1 t) fun _ =>
          iprop((dat1 V c).Φ t.succ ∗ (dat1 V c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dat1 V c).before w t d))
                  | true => owns (c : Thread nD τ) ((cfgA.win w).stage (cfgA.slots t w)) fullShare ((dat1 V c).after w t)
                | false => owns (c : Thread nD τ) ((cfgA.win w).stage (cfgA.slots t w)) fullShare ((dat1 V c).after w t)) := by
  rw [bigSep_W1]
  by_cases q6 : P6 t
  · by_cases q4 : P4 t
    · -- first and diagonal: reset, masked tile, output stored
      have i3 : cfgA.idle (3 : Fin 4) (cfgA.grid.coords t) = false := by rw [(allFacts t).2.1, decide_eq_true q4]; rfl
      rewrite [i3]
      simp only [before1_0, before1_1, before1_2, before1_3, after1_0, after1_1, after1_2, after1_3]
      rewrite [show (dat1 V c).Φ t.succ = Phi V c t.succ from rfl, show (dat1 V c).Φ t.castSucc = Phi V c t.castSucc from rfl,
        show (dat1 V c).owesAt () t.succ = (dat1 V c).owesAt () t.castSucc from rfl]
      unfold Phi; simp only [prevT_castSucc, prevT_succ, traj_eq, step_A V c t _ q6 q4, Fin.val_castSucc, Fin.val_succ]
      iintro ⟨⟨⟨%a0, -, HS0⟩, ⟨%a1, -, HS1⟩, ⟨%a2, -, HS2⟩, HT0, HT1, HR⟩, Ho, ⟨%d0, H0⟩, ⟨%d1, H1⟩, ⟨%d2, H2⟩, ⟨%d3, H3⟩⟩
      iapply ((runA c (crd t) (ms0 t) (hs0 t) (ms1 t) (hs1 t) (ms2 t) (hs2 t) (ms3 t) (hs3 t) T0c T1c (iblk V c (0 : Fin 4) t) (iblk V c (1 : Fin 4) t) (iblk V c (2 : Fin 4) t) q6 q4 (h16_of t q4)).2.2.2.2 a0 a1 a2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      isplitl [HS2]; · iexact HS2
      iintro ⟨H0, H1, H2, HT0, HT1, ⟨%e3, H3⟩, HS0, HS1, HS2⟩
      isplitl [HS0 HS1 HS2 HT0 HT1 HR]
      · isplitl [HS0]
        · iexists _; isplitr; swap
          · iexact HS0
          · ipureintro; intro _; rfl
        isplitl [HS1]
        · iexists _; isplitr; swap
          · iexact HS1
          · ipureintro; intro _; rfl
        isplitl [HS2]
        · iexists _; isplitr; swap
          · iexact HS2
          · ipureintro; intro _; rfl
        isplitl [HT0]; · iexact HT0
        isplitl [HT1]; · iexact HT1
        iexact HR
      isplitl [Ho]; · iexact Ho
      isplitl [H0]; · iapply owns_of_rep; iexact H0
      isplitl [H1]; · iapply owns_of_rep; iexact H1
      isplitl [H2]; · iapply owns_of_rep; iexact H2
      unfold owns; iexists _; isplitr; swap
      · iexact H3
      · ipureintro; exact View.read_writes_of_cover _ _ _ _ _ (coverA V c t q6 q4)

    · -- first, below the diagonal
      have i3 : cfgA.idle (3 : Fin 4) (cfgA.grid.coords t) = true := by rw [(allFacts t).2.1, decide_eq_false q4]; rfl
      have f3 : (cfgA.win (3 : Fin 4)).flush t = false := by rw [(allFacts t).2.2.1]; exact decide_eq_false q4
      rewrite [i3]
      simp only [before1_0, before1_1, before1_2, before1_3, after1_0, after1_1, after1_2, after1_3, f3]
      rewrite [show (dat1 V c).Φ t.succ = Phi V c t.succ from rfl, show (dat1 V c).Φ t.castSucc = Phi V c t.castSucc from rfl,
        show (dat1 V c).owesAt () t.succ = (dat1 V c).owesAt () t.castSucc from rfl]
      unfold Phi; simp only [prevT_castSucc, prevT_succ, traj_eq, step_B V c t _ q6 q4, Fin.val_castSucc, Fin.val_succ]
      iintro ⟨⟨⟨%a0, -, HS0⟩, ⟨%a1, -, HS1⟩, ⟨%a2, -, HS2⟩, HT0, HT1, HR⟩, Ho, ⟨%d0, H0⟩, ⟨%d1, H1⟩, ⟨%d2, H2⟩, ⟨%d3, H3⟩⟩
      iapply ((runB c (crd t) (ms0 t) (hs0 t) (ms1 t) (hs1 t) (ms2 t) (hs2 t) (ms3 t) (hs3 t) T0c T1c (iblk V c (0 : Fin 4) t) (iblk V c (1 : Fin 4) t) (iblk V c (2 : Fin 4) t) q6 q4 (h16_of_not t q4)).2.2.2 a0 a1 a2 d3 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      isplitl [HS2]; · iexact HS2
      iintro ⟨H0, H1, H2, HT0, HT1, H3, HS0, HS1, HS2⟩
      isplitl [HS0 HS1 HS2 HT0 HT1 HR]
      · isplitl [HS0]
        · iexists _; isplitr; swap
          · iexact HS0
          · ipureintro; intro _; rfl
        isplitl [HS1]
        · iexists _; isplitr; swap
          · iexact HS1
          · ipureintro; intro _; rfl
        isplitl [HS2]
        · iexists _; isplitr; swap
          · iexact HS2
          · ipureintro; intro _; rfl
        isplitl [HT0]; · iexact HT0
        isplitl [HT1]; · iexact HT1
        iexact HR
      isplitl [Ho]; · iexact Ho
      isplitl [H0]; · iapply owns_of_rep; iexact H0
      isplitl [H1]; · iapply owns_of_rep; iexact H1
      isplitl [H2]; · iapply owns_of_rep; iexact H2
      iexists d3; iexact H3

  · by_cases q4 : P4 t
    · -- later and diagonal
      have i3 : cfgA.idle (3 : Fin 4) (cfgA.grid.coords t) = false := by rw [(allFacts t).2.1, decide_eq_true q4]; rfl
      rewrite [i3]
      simp only [before1_0, before1_1, before1_2, before1_3, after1_0, after1_1, after1_2, after1_3]
      rewrite [show (dat1 V c).Φ t.succ = Phi V c t.succ from rfl, show (dat1 V c).Φ t.castSucc = Phi V c t.castSucc from rfl,
        show (dat1 V c).owesAt () t.succ = (dat1 V c).owesAt () t.castSucc from rfl]
      unfold Phi; simp only [prevT_castSucc, prevT_succ, traj_eq, step_D V c t _ q6 q4, Fin.val_castSucc, Fin.val_succ]
      have h0 : t.val ≠ 0 := fun h => q6 ((allFacts t).2.2.2 h)
      simp only [exists_held h0]
      iintro ⟨⟨HS0, HS1, HS2, HT0, HT1, HR⟩, Ho, ⟨%d0, H0⟩, ⟨%d1, H1⟩, ⟨%d2, H2⟩, ⟨%d3, H3⟩⟩
      iapply ((runD c (crd t) (ms0 t) (hs0 t) (ms1 t) (hs1 t) (ms2 t) (hs2 t) (ms3 t) (hs3 t) T0c T1c (iblk V c (0 : Fin 4) t) (iblk V c (1 : Fin 4) t) (iblk V c (2 : Fin 4) t) (prev V c t).2.1 (prev V c t).2.2.1 (prev V c t).2.2.2 q6 q4 (h16_of t q4)).2.2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      isplitl [HS0]; · iexact HS0
      isplitl [HS1]; · iexact HS1
      isplitl [HS2]; · iexact HS2
      iintro ⟨H0, H1, H2, HT0, HT1, ⟨%e3, H3⟩, HS0, HS1, HS2⟩
      isplitl [HS0 HS1 HS2 HT0 HT1 HR]
      · isplitl [HS0]
        · iexists _; isplitr; swap
          · iexact HS0
          · ipureintro; intro _; rfl
        isplitl [HS1]
        · iexists _; isplitr; swap
          · iexact HS1
          · ipureintro; intro _; rfl
        isplitl [HS2]
        · iexists _; isplitr; swap
          · iexact HS2
          · ipureintro; intro _; rfl
        isplitl [HT0]; · iexact HT0
        isplitl [HT1]; · iexact HT1
        iexact HR
      isplitl [Ho]; · iexact Ho
      isplitl [H0]; · iapply owns_of_rep; iexact H0
      isplitl [H1]; · iapply owns_of_rep; iexact H1
      isplitl [H2]; · iapply owns_of_rep; iexact H2
      unfold owns; iexists _; isplitr; swap
      · iexact H3
      · ipureintro; exact View.read_writes_of_cover _ _ _ _ _ (coverD V c t _ _ _ q6 q4)

    · -- later, below the diagonal
      have i3 : cfgA.idle (3 : Fin 4) (cfgA.grid.coords t) = true := by rw [(allFacts t).2.1, decide_eq_false q4]; rfl
      have f3 : (cfgA.win (3 : Fin 4)).flush t = false := by rw [(allFacts t).2.2.1]; exact decide_eq_false q4
      rewrite [i3]
      simp only [before1_0, before1_1, before1_2, before1_3, after1_0, after1_1, after1_2, after1_3, f3]
      rewrite [show (dat1 V c).Φ t.succ = Phi V c t.succ from rfl, show (dat1 V c).Φ t.castSucc = Phi V c t.castSucc from rfl,
        show (dat1 V c).owesAt () t.succ = (dat1 V c).owesAt () t.castSucc from rfl]
      unfold Phi; simp only [prevT_castSucc, prevT_succ, traj_eq, step_C V c t _ q6 q4, Fin.val_castSucc, Fin.val_succ]
      have h0 : t.val ≠ 0 := fun h => q6 ((allFacts t).2.2.2 h)
      simp only [exists_held h0]
      iintro ⟨⟨HS0, HS1, HS2, HT0, HT1, HR⟩, Ho, ⟨%d0, H0⟩, ⟨%d1, H1⟩, ⟨%d2, H2⟩, ⟨%d3, H3⟩⟩
      iapply ((runC c (crd t) (ms0 t) (hs0 t) (ms1 t) (hs1 t) (ms2 t) (hs2 t) (ms3 t) (hs3 t) T0c T1c (iblk V c (0 : Fin 4) t) (iblk V c (1 : Fin 4) t) (iblk V c (2 : Fin 4) t) (prev V c t).2.1 (prev V c t).2.2.1 (prev V c t).2.2.2 q6 q4 (h16_of_not t q4)).2.2.2 d3 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      isplitl [HS1]; · iexact HS1
      isplitl [HS2]; · iexact HS2
      iintro ⟨H0, H1, H2, HT0, HT1, H3, HS0, HS1, HS2⟩
      isplitl [HS0 HS1 HS2 HT0 HT1 HR]
      · isplitl [HS0]
        · iexists _; isplitr; swap
          · iexact HS0
          · ipureintro; intro _; rfl
        isplitl [HS1]
        · iexists _; isplitr; swap
          · iexact HS1
          · ipureintro; intro _; rfl
        isplitl [HS2]
        · iexists _; isplitr; swap
          · iexact HS2
          · ipureintro; intro _; rfl
        isplitl [HT0]; · iexact HT0
        isplitl [HT1]; · iexact HT1
        iexact HR
      isplitl [Ho]; · iexact Ho
      isplitl [H0]; · iapply owns_of_rep; iexact H0
      isplitl [H1]; · iapply owns_of_rep; iexact H1
      isplitl [H2]; · iapply owns_of_rep; iexact H2
      iexists d3; iexact H3

/-- The library's body obligation, at every point. -/
theorem body_obligation (c : Dev nD) : BodyObligation (dat1 V c) (defs₀ (F := 𝔽)) Variants.none () Set.univ := fun t => by
  rw [bigSep_W1]
  exact sound_body V c t

end Data

end Cert.KernelIdeal.R1

end
-- ==== Proof.Run.lean ====
/-
  The whole run of the idealized kernel program: two table constants, the projection pipeline, the attention pipeline.
  The contents of every unscoped buffer are followed through @main as a fold from the launch memory — a host stretch
  applies its operations, a pipeline replaces its arrays by what its write-backs leave —; each pipeline enters from the
  contents the item before it left and exits at the next; the argument arrays are never written, so they end as
  launched, and the result array ends at what the attention pipeline's write-backs leave.
-/
import proofs.«402334_j1417339207762_3_alg».proof.Proof.Gen.KernelIdeal.Launch
import proofs.«402334_j1417339207762_3_alg».proof.Proof.Gen.KernelIdeal.Skeleton
import proofs.«402334_j1417339207762_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic
import Idealize.ShloMosaic.PureOps.BitExact
import Idealize.ShloMosaic.PureOps.Ideal
import proofs.«402334_j1417339207762_3_alg».proof.Proof.R0
import proofs.«402334_j1417339207762_3_alg».proof.Proof.R1
import proofs.«402334_j1417339207762_3_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.R1 (T0c T1c pfT tbQ tbK scM scL scA cfgA)

/-- The instance the programs are read at. -/
local notation "𝔽" => Ideal

local notation "𝕄" => MT nD τ sig Unit (Elt 𝔽) ℕ (UR sig nD τ) ℕ

variable (m : (ℓ : Loc nD τ sig) → Buf (Elt 𝔽) ℓ) (ρ : Dev nD → PrngReg)

/-! # The buffer contents at each boundary of @main: a fold from the launch memory -/

/-- Core `c`'s buffers at launch. -/
abbrev W0 : Dev nD → Valuation τ sig (Elt 𝔽) := fun c b => (s₀ m ρ).mem ((c : Dev nD), b)
/-- After the two table constants are written (the projection pipeline's entry). -/
abbrev W1 : Dev nD → Valuation τ sig (Elt 𝔽) := fun c => StableHlo.after hostOps0 (W0 m ρ c)
abbrev V1 : (c : Dev nD) → (b : Ref sig .tc) → Buf (Elt 𝔽) ((c : Thread nD τ).loc b) := fun c b => W1 m ρ c b
/-- At the projection pipeline's exit: its arrays at what its write-backs leave, every other buffer as entered. -/
def W2 (c : Dev nD) : Valuation τ sig (Elt 𝔽) :=
  Pipeline.withArrays spec0 c (W1 m ρ c) fun w => (R0.dat0 (V1 m ρ) c).arrAt w cfg0.N
theorem W2_arr (c : Dev nD) (w : Fin cfg0.W) :
    W2 m ρ c (Proc.devRef .tc (Pipeline.arrRef spec0 w)) = (R0.dat0 (V1 m ρ) c).arrAt w cfg0.N := by
  unfold W2; exact Pipeline.withArrays_arr spec0 (launch0 (F := 𝔽)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt 𝔽) ((c : Thread nD τ).loc b) := fun c b => W2 m ρ c b
theorem hF0 (c : Dev nD) (w : Fin cfg0.W) : (R0.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention pipeline's exit. -/
def W3 (c : Dev nD) : Valuation τ sig (Elt 𝔽) :=
  Pipeline.withArrays spec1 c (W2 m ρ c) fun w => (R1.dat1 (V2 m ρ) c).arrAt w cfgA.N
theorem W3_arr (c : Dev nD) (w : Fin cfgA.W) :
    W3 m ρ c (Proc.devRef .tc (Pipeline.arrRef spec1 w)) = (R1.dat1 (V2 m ρ) c).arrAt w cfgA.N := by
  unfold W3; exact Pipeline.withArrays_arr spec1 (launch1 (F := 𝔽)).win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt 𝔽) ((c : Thread nD τ).loc b) := fun c b => W3 m ρ c b
theorem hF1 (c : Dev nD) (w : Fin cfgA.W) : (R1.dat1 (V2 m ρ) c).arrAt w cfgA.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The table constants write only the two tables. -/
theorem W1_of_not_written (c : Dev nD) (b : Ref sig .tc) (h : b ∉ hostOps0_W) : W1 m ρ c (Proc.devRef .tc b) = W0 m ρ c (Proc.devRef .tc b) :=
  StableHlo.after_of_writes_sub hostOps0 _ hostOps0_writes h

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((R0.dat0 (V1 m ρ) c).arrAt_in 1 rfl _).trans (R0.A_eq0 (V1 m ρ) c 1))
    _ = W0 m ρ c (Proc.devRef .tc main_arg0) := W1_of_not_written m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 2).trans (((R0.dat0 (V1 m ρ) c).arrAt_in 2 rfl _).trans (R0.A_eq0 (V1 m ρ) c 2))
    _ = W0 m ρ c (Proc.devRef .tc main_arg1) := W1_of_not_written m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 0).trans (((R0.dat0 (V1 m ρ) c).arrAt_in 0 rfl _).trans (R0.A_eq0 (V1 m ρ) c 0))
    _ = W0 m ρ c (Proc.devRef .tc main_arg2) := W1_of_not_written m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 3).trans (((R0.dat0 (V1 m ρ) c).arrAt_in 3 rfl _).trans (R0.A_eq0 (V1 m ρ) c 3))
    _ = W0 m ρ c (Proc.devRef .tc main_arg3) := W1_of_not_written m ρ c main_arg3 (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 4).trans (((R0.dat0 (V1 m ρ) c).arrAt_in 4 rfl _).trans (R0.A_eq0 (V1 m ρ) c 4))
    _ = W0 m ρ c (Proc.devRef .tc main_arg4) := W1_of_not_written m ρ c main_arg4 (by decide)
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 5).trans (((R0.dat0 (V1 m ρ) c).arrAt_in 5 rfl _).trans (R0.A_eq0 (V1 m ρ) c 5))
    _ = W0 m ρ c (Proc.devRef .tc main_arg5) := W1_of_not_written m ρ c main_arg5 (by decide)
    _ = m ((c : Thread nD τ).loc main_arg5) := rfl

/-! ### The tables as the attention pipeline finds them -/

theorem W1_main_c (c : Dev nD) : (W1 m ρ c (Proc.devRef .tc main_c) : S10.Idx → Elt 𝔽 .i32) = T0c := by
  show StableHlo.after hostOps0 (W0 m ρ c) (Proc.devRef .tc main_c) = _
  after_results; rfl
theorem W1_main_c_0 (c : Dev nD) : (W1 m ρ c (Proc.devRef .tc main_c_0) : S10.Idx → Elt 𝔽 .i32) = T1c := by
  show StableHlo.after hostOps0 (W0 m ρ c) (Proc.devRef .tc main_c_0) = _
  after_results; rfl
theorem V2_main_c (c : Dev nD) : (V2 m ρ c main_c : S10.Idx → Elt 𝔽 .i32) = T0c :=
  (W2_of_ne m ρ c main_c (by decide)).trans (W1_main_c m ρ c)
theorem V2_main_c_0 (c : Dev nD) : (V2 m ρ c main_c_0 : S10.Idx → Elt 𝔽 .i32) = T1c :=
  (W2_of_ne m ρ c main_c_0 (by decide)).trans (W1_main_c_0 m ρ c)

/-! # The proof data family and the thread state -/

/-- The tables' admissible contents: the projection pipeline has no table, the attention pipeline the two constants. -/
def adm : (p : Fin 2) → (pcfgs (F := 𝔽) p).Adm
  | ⟨0, _⟩ => cfg0.toPCfg_adm
  | ⟨1, _⟩ => R1.adm

/-- Every pipeline's proof data, each at its region's entry contents. -/
def pdats : (p : Fin 2) → (c : Dev nD) → Dat τ (Elt 𝔽) Unit ℕ (UR sig nD τ) ℕ (Pipeline.pin (pcfgs (F := 𝔽)) adm p) c
  | ⟨0, _⟩ => fun c => R0.dat0 (V1 m ρ) c
  | ⟨1, _⟩ => fun c => R1.dat1 (V2 m ρ) c

abbrev 𝒱₀ : Variants := Variants.none
abbrev L : GSem nD τ sig → Finset Unit := fun _ => ∅
abbrev lv : GSem nD τ sig → Unit → ℕ := fun _ _ => 0
/-- What rides beside the buffers through every segment: the generator register and the core owing nothing. -/
abbrev R (c : Dev nD) : sProp 𝕄 := iprop((∃ r, prngReg c r) ∗ ∃ W, owes (c : Thread nD τ) (0 : CellTallies nD τ sig Unit) W)

abbrev hseg (ops : List (HloOp τ sig (Elt 𝔽))) (hsub : ops.Forall fun op => op.bufs ⊆ StableHlo.tcRefs τ sig)
    (hfresh : ops.Forall fun op => op.fresh = ∅) (W : Dev nD → Valuation τ sig (Elt 𝔽)) :
    Pipeline.HostSeg (Name := ℕ) (U := UR sig nD τ) (pcfgs (F := 𝔽)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The projection pipeline over the thread state: entered from every unscoped buffer at `W1`, left at `W2`. -/
def reg0 : Pipeline.RegionSeg (pcfgs (F := 𝔽)) adm (pdats m ρ) () defs₀ 𝒱₀ L lv 0 where
  win := (launch0 (F := 𝔽)).win.to₀
  block_pos := (launch0 (F := 𝔽)).block_pos
  stage_whole := (launch0 (F := 𝔽)).stage_whole
  K := PEmpty
  osem k := k.elim
  ho := Pipeline.OwnSemFacts.none _
  hbody c := (R0.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := 𝔽)) adm (pdats m ρ) (launch0 (F := 𝔽)).win (launch0 (F := 𝔽)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := 𝔽)) adm (Ix := Unit) (Name := ℕ) (U := UR sig nD τ) (Lvl := ℕ)
      (launch0 (F := 𝔽)).win (launch0 (F := 𝔽)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The two tables, one by one. -/
theorem prefHeld_eq (c : Dev nD) (q : Fin 2 → PosShare TreeShare) (v : pre1.Contents (Elt 𝔽)) :
    (Pipeline.prefHeld (Ix := Unit) (Name := ℕ) (U := UR sig nD τ) (Lvl := ℕ) pre1 c q v : sProp 𝕄)
      = iprop((((c : Thread nD τ).loc main_c) ↦{q 0} v 0) ∗ (((c : Thread nD τ).loc main_c_0) ↦{q 1} v 1)) := by
  unfold Pipeline.prefHeld
  rw [bigSep_univ_eq_bigSepL [(0 : Fin 2), (1 : Fin 2)] (by decide) (by decide)]
  rfl

/-- The tables the attention pipeline finds are the two constants. -/
theorem tables_eq (c : Dev nD) : (fun k => V2 m ρ c (pre1.ref k)) = (R1.adm).1 := by
  funext k
  match k with
  | ⟨0, _⟩ => exact V2_main_c m ρ c
  | ⟨1, _⟩ => exact V2_main_c_0 m ρ c

theorem pref_in (c : Dev nD) :
    (Pipeline.prefHeld (Ix := Unit) (Name := ℕ) (U := UR sig nD τ) (Lvl := ℕ) pre1 c (fun _ => fullShare) (fun k => V2 m ρ c (pre1.ref k)) : sProp 𝕄) ⊢ Pipeline.prefHeld (Ix := Unit) (Name := ℕ) (U := UR sig nD τ) (Lvl := ℕ) pre1 c (fun _ => fullShare) (pfT : pre1.Contents (Elt 𝔽)) :=
  Entails.of_eq (congrArg (fun v => (Pipeline.prefHeld (Ix := Unit) (Name := ℕ) (U := UR sig nD τ) (Lvl := ℕ) pre1 c (fun _ => fullShare) v : sProp 𝕄)) (tables_eq m ρ c))
theorem pref_out (c : Dev nD) :
    (Pipeline.prefHeld (Ix := Unit) (Name := ℕ) (U := UR sig nD τ) (Lvl := ℕ) pre1 c (fun _ => fullShare) (pfT : pre1.Contents (Elt 𝔽)) : sProp 𝕄) ⊢ Pipeline.prefHeld (Ix := Unit) (Name := ℕ) (U := UR sig nD τ) (Lvl := ℕ) pre1 c (fun _ => fullShare) (fun k => V2 m ρ c (pre1.ref k)) :=
  Entails.of_eq (congrArg (fun v => (Pipeline.prefHeld (Ix := Unit) (Name := ℕ) (U := UR sig nD τ) (Lvl := ℕ) pre1 c (fun _ => fullShare) v : sProp 𝕄)) (tables_eq m ρ c).symm)

set_option backward.isDefEq.respectTransparency.types false in
set_option maxHeartbeats 2000000 in
/-- The attention pipeline over the thread state: entered from every unscoped buffer at `W2`, left at `W3`. The tables
    go into the pipeline's invariant and come back; the argument arrays and the generator register bypass it. -/
def reg1 : Pipeline.RegionSeg (pcfgs (F := 𝔽)) adm (pdats m ρ) () defs₀ 𝒱₀ L lv 1 where
  win := (launch1 (F := 𝔽)).win.to₀
  block_pos := (launch1 (F := 𝔽)).block_pos
  stage_whole := (launch1 (F := 𝔽)).stage_whole
  K := PEmpty
  osem k := k.elim
  ho := Pipeline.OwnSemFacts.none _
  hbody c := (R1.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(emp)
  Y c := Pipeline.prefHeld (Ix := Unit) (Name := ℕ) (U := UR sig nD τ) (Lvl := ℕ) pre1 c (fun _ => fullShare) (pfT : pre1.Contents (Elt 𝔽))
  Z c := iprop(Pipeline.unscopedRestP (Ix := Unit) (Name := ℕ) (U := UR sig nD τ) (Lvl := ℕ) pre1 spec1 c (V2 m ρ c) ∗ ∃ r, prngReg c r)
  hentry c := by
    rw [Pipeline.ownSems0_none]
    have hsplit := Pipeline.arrays_of_unscopedBufs (p := 1) (pcfgs (F := 𝔽)) adm (pdats m ρ) (launch1 (F := 𝔽)).win (launch1 (F := 𝔽)).arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    ihave Hr := (Entails.of_eq (Pipeline.unscopedRest_split (launch1 (F := 𝔽)).pre c (V2 m ρ c))) $$ Hrest
    icases Hr with ⟨Hpf, HrestP⟩
    imodintro
    isplitl [Ha]; · iexact Ha
    isplitl [Hpf]
    · iapply (pref_in m ρ c); iexact Hpf
    isplitl [HO]
    · unfold Pipeline.Dat.owesAt Pipeline.owesWithin
      icases HO with ⟨%W, HO⟩; iexists W; isplitr; · ipureintro; exact fun _ _ => Or.inl trivial
      iexact HO
    isplitr; · iempintro
    isplitl [HrestP]; · iexact HrestP
    iexact Hp
  hin c := by
    show iprop(emp ∗ Pipeline.prefHeld (Ix := Unit) (Name := ℕ) (U := UR sig nD τ) (Lvl := ℕ) pre1 c (fun _ => fullShare) (pfT : pre1.Contents (Elt 𝔽)) ∗ Pipeline.scopedRest spec1 c) ⊢ R1.Phi (V2 m ρ) c 0
    rw [prefHeld_eq, scopedRest1_eq]
    unfold R1.Phi R1.Rest
    iintro ⟨-, ⟨HT0, HT1⟩, ⟨H1, H2, H3, H4, H5, H6, H7, H8, H9, H10, H11, H12, H13, H14, H15, ⟨%a0, HS0⟩, ⟨%a1, HS1⟩, ⟨%a2, HS2⟩⟩⟩
    isplitl [HS0]
    · iexists a0; isplitr; swap
      · iexact HS0
      · ipureintro; intro h; exact absurd rfl h
    isplitl [HS1]
    · iexists a1; isplitr; swap
      · iexact HS1
      · ipureintro; intro h; exact absurd rfl h
    isplitl [HS2]
    · iexists a2; isplitr; swap
      · iexact HS2
      · ipureintro; intro h; exact absurd rfl h
    isplitl [HT0]; · iexact HT0
    isplitl [HT1]; · iexact HT1
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  hout c := by
    rw [Pipeline.ownSems0_none]
    show R1.Phi (V2 m ρ) c (Fin.last _) ⊢ iprop(Pipeline.prefHeld (Ix := Unit) (Name := ℕ) (U := UR sig nD τ) (Lvl := ℕ) pre1 c (fun _ => fullShare) (pfT : pre1.Contents (Elt 𝔽)) ∗ BI.emp ∗ Pipeline.scopedRest spec1 c)
    rw [prefHeld_eq, scopedRest1_eq]
    unfold R1.Phi R1.Rest
    iintro ⟨⟨%a0, -, HS0⟩, ⟨%a1, -, HS1⟩, ⟨%a2, -, HS2⟩, HT0, HT1, H1, H2, H3, H4, H5, H6, H7, H8, H9, H10, H11, H12, H13, H14, H15⟩
    isplitl [HT0 HT1]
    · isplitl [HT0]; · iexact HT0
      iexact HT1
    isplitr; · iempintro
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [HS0]; · iexists a0; iexact HS0
    isplitl [HS1]; · iexists a1; iexact HS1
    iexists a2; iexact HS2
  hexit c := by
    have hjoin := Pipeline.unscopedBufs_of_arrays (p := 1) (pcfgs (F := 𝔽)) adm (Ix := Unit) (Name := ℕ) (U := UR sig nD τ) (Lvl := ℕ)
      (launch1 (F := 𝔽)).win (launch1 (F := 𝔽)).arr_whole c (pdats m ρ) ((pdats m ρ 1 c).share_full fun _ => rfl)
      (V2 m ρ c) (V3 m ρ c) ((pdats m ρ 1 c).arrAt · cfgA.N) (hF1 m ρ c) (hrest1 m ρ c)
    rw [Pipeline.unscopedBufs_held] at hjoin
    iintro ⟨Ha, HO, HY, HrestP, Hp⟩
    imodintro
    isplitl [Ha HY HrestP Hp]
    · isplitl [Ha HY HrestP]
      · iapply hjoin
        isplitl [Ha]; · iexact Ha
        iapply (Entails.of_eq (Pipeline.unscopedRest_split (launch1 (F := 𝔽)).pre c (V2 m ρ c)).symm)
        isplitl [HY]; · iapply (pref_out m ρ c); iexact HY
        iexact HrestP
      iexact Hp
    unfold Pipeline.Dat.owesAt Pipeline.owesWithin
    icases HO with ⟨%W, -, HO⟩; iexists W; iexact HO

/-! # @main as segments, and the launch -/

abbrev segs : List (Pipeline.Seg (pcfgs (F := 𝔽)) adm (pdats m ρ) () defs₀ 𝒱₀ L lv) :=
  [ .host (hseg hostOps0 hostOps0_sub hostOps0_fresh (W0 m ρ)),
    .region (reg0 m ρ),
    .region (reg1 m ρ) ]

theorem main_run (c : Dev nD) : main (F := 𝔽) c = Pipeline.Seg.run (segs m ρ) := (main_chain c).trans (by chain_rfl)

set_option backward.isDefEq.respectTransparency.types false in
set_option maxHeartbeats 2000000 in
/-- From any memory with zero counters every weakly fair execution of @main terminates, nothing faulting, and every
    final state holds, in each unscoped buffer, what the fold through @main says. -/
theorem run_main : θ_run defs (onTc (τ := τ) (main (F := 𝔽))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := 𝔽)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := 𝔽)) adm) (cellOf_inj adm)) (Pipeline.launchToks (Pipeline.pin (pcfgs (F := 𝔽)) adm) (cellOf_inj adm)))
    (hu₀ := by
      iintro Hu; imodintro
      isplitl [Hu]
      · iapply (show (ownU (initOf (Pipeline.cells (Pipeline.pin (pcfgs (F := 𝔽)) adm) (cellOf_inj adm)) (Pipeline.launchToks (Pipeline.pin (pcfgs (F := 𝔽)) adm) (cellOf_inj adm))) : sProp 𝕄)
            ⊢ BI.own (emb₁ (initOf (Pipeline.cells (Pipeline.pin (pcfgs (F := 𝔽)) adm) (cellOf_inj adm)) (Pipeline.launchToks (Pipeline.pin (pcfgs (F := 𝔽)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the argument arrays end as launched. -/
theorem frame : θ_run defs (onTc (τ := τ) (main (F := 𝔽))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_main m ρ)

/-- THE RUN WITH ITS RESULT: the result array ends at what the attention pipeline's write-backs leave, the arguments as launched. -/
theorem run_result : θ_run defs (onTc (τ := τ) (main (F := 𝔽))) ⟨m, fun _ => 0, ρ⟩ (fun r => ∀ c : Dev nD,
      r.2.mem ((c.tc : Thread nD τ).loc main_v1) = (R1.dat1 (V2 m ρ) c).arrAt (3 : Fin 4) cfgA.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v1 (by decide))).trans (W3_arr m ρ c (3 : Fin 4)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_main m ρ)

end Cert.KernelIdeal.Run

end
-- ==== Proof.Spec.lean ====
/-
  The mathematics both programs compute, over the reals: three linear projections of the input rows,
  scaled dot-product scores, and causal softmax attention. A query row `q` attends to the key rows `k ≤ q`
  only; its output is the average of the value rows weighted by `exp (score q k)`, written here WITHOUT a
  shift by the row maximum: the quotient is the same for every real shift, which is why an online
  (tile by tile, rescaled) evaluation and a two-pass (maximum first) evaluation agree.
-/
import Idealize.ShloMosaic.PureOps.Ideal
import Idealize.ShloMosaic.Lib.ValueIdx

noncomputable section

open scoped BigOperators

namespace Cert.Spec

open Idealize.ShloMosaic Idealize.ShloMosaic.ValueIdx

/-- The shape of an input array: 4 batches of 4096 rows of 256 features. -/
abbrev SX : Shape := ⟨3, ![4, 4096, 256]⟩
/-- The shape of a weight matrix. -/
abbrev SW : Shape := ⟨2, ![256, 64]⟩
/-- The shape of a projected array and of the result. -/
abbrev SP : Shape := ⟨3, ![4, 4096, 64]⟩

/-- A linear projection of every row: `(x · w)[b, s, e] = ∑_d x[b, s, d] · w[d, e]`. -/
def projR (x : SX.Idx → ℝ) (w : SW.Idx → ℝ) (b : Fin 4) (s : Fin 4096) (e : Fin 64) : ℝ :=
  ∑ d : Fin 256, x (ix3 b s d) * w (ix2 d e)

/-- The scaled score of query row `q` against key row `k`: their dot product over the 64 features, divided by `√64 = 8`. -/
def scoreR (Q K : Fin 4 → Fin 4096 → Fin 64 → ℝ) (b : Fin 4) (q k : Fin 4096) : ℝ :=
  (∑ e : Fin 64, Q b q e * K b k e) / 8

/-- Causal softmax attention: the `exp (score)`-weighted average of the value rows `k ≤ q`. -/
def attnR (Q K V : Fin 4 → Fin 4096 → Fin 64 → ℝ) (b : Fin 4) (q : Fin 4096) (e : Fin 64) : ℝ :=
  (∑ k ∈ Finset.Iic q, Real.exp (scoreR Q K b q k) * V b k e) / (∑ k ∈ Finset.Iic q, Real.exp (scoreR Q K b q k))

/-- The real numbers an array of finite extended reals holds. -/
def re {S : Shape} (x : S.Idx → EReal) : S.Idx → ℝ := fun i => (x i).toReal

/-- An array holds finite numbers only. -/
def Finite {S : Shape} (x : S.Idx → EReal) : Prop := ∀ i, x i ≠ ⊥ ∧ x i ≠ ⊤

theorem Finite.coe_re {S : Shape} {x : S.Idx → EReal} (h : Finite x) (i : S.Idx) : ((re x i : ℝ) : EReal) = x i :=
  EReal.coe_toReal (h i).2 (h i).1

/-- The result both programs compute, as one function of the six argument arrays (in argument order: the inputs for
    keys, for values, for queries, then the query, key and value weights): attention of the projected queries over the
    projected keys and values. -/
def G (xk xv xq : SX.Idx → EReal) (wq wk wv : SW.Idx → EReal) : SP.Idx → EReal :=
  fun i => ((attnR (projR (re xq) (re wq)) (projR (re xk) (re wk)) (projR (re xv) (re wv)) (i 0) (i 1) (i 2) : ℝ) : EReal)

end Cert.Spec

end
-- ==== Proof.LibSoftmax.lean ====
/-
  Softmax-weighted averages on the extended reals, evaluated two ways.

  A row of real scores `s k` and real values `v k` over a finite set `S` of keys has the weighted average
  `(∑_{k ∈ S} exp (s k) · v k) / (∑_{k ∈ S} exp (s k))`. Shifting every score by one real `μ` multiplies numerator and
  denominator by `exp (-μ)`, so the quotient does not see the shift. Two evaluations rest on that:
  * TWO PASSES: with masked keys scored `⊥` (so that `exp` sends them to `0`), any finite shift `M`, weights
    `exp (sc k - M) / ∑ exp (sc k' - M)` (`twopass`);
  * ONLINE: a running triple (shift, denominator, numerator) extended one tile of keys at a time, the old sums
    rescaled by `exp (m - m')` when the shift moves from `m` to `m'` (`Inv`, `step_reset`, `step`, `Inv.div`).
  All sums are finite sums of reals read on the extended reals (`coe_sum`, `dot_coe`, `scaled_dot`).
-/
import Idealize.ShloMosaic.PureOps.Ideal

noncomputable section

open scoped BigOperators

namespace Cert.Lib

open Idealize.ShloMosaic

/-- A finite sum of reals, read on the extended reals, is the sum of the terms read there. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A dot product of real vectors read on the extended reals. -/
theorem dot_coe {n : ℕ} (a b : Fin n → ℝ) :
    ∑ k : Fin n, ((a k : ℝ) : EReal) * ((b k : ℝ) : EReal) = ((∑ k, a k * b k : ℝ) : EReal) := by
  rw [coe_sum]
  exact Finset.sum_congr rfl (fun k _ => (EReal.coe_mul _ _).symm)

/-- Scaling one factor of every product by `1/8` divides the dot product by `8`. -/
theorem scaled_dot {n : ℕ} (a b : Fin n → ℝ) :
    ∑ k : Fin n, (((a k : ℝ) : EReal) * ((1 / 8 : ℝ) : EReal)) * ((b k : ℝ) : EReal) = (((∑ k, a k * b k) / 8 : ℝ) : EReal) := by
  have h : ((∑ k, a k * b k) / 8 : ℝ) = ∑ k, a k * (1 / 8) * b k := by
    rw [Finset.sum_div]
    exact Finset.sum_congr rfl (fun k _ => by ring)
  rw [h, coe_sum]
  exact Finset.sum_congr rfl (fun k _ => by rw [EReal.coe_mul, EReal.coe_mul])

/-- The running triple of one query row after the keys `S`: for some real shift `μ`, the shift itself, and the
    `exp (-μ)`-scaled sums of `exp (s k)` and of `exp (s k) · v k` over `S`. -/
def Inv {κ : Type*} (S : Finset κ) (s v : κ → ℝ) (m l a : EReal) : Prop :=
  ∃ μ : ℝ, m = (μ : EReal) ∧ l = ((Real.exp (-μ) * ∑ k ∈ S, Real.exp (s k) : ℝ) : EReal)
    ∧ a = ((Real.exp (-μ) * ∑ k ∈ S, Real.exp (s k) * v k : ℝ) : EReal)

/-- The exponential of a masked score minus a real shift: the real exponential where visible, `0` where masked. -/
private theorem exp_masked_sub (c : Prop) [Decidable c] (x μ : ℝ) :
    Ideal.exp ((if c then ((x : ℝ) : EReal) else ⊥) - (μ : EReal)) = ((if c then Real.exp (x - μ) else 0 : ℝ) : EReal) := by
  split_ifs
  · rw [← EReal.coe_sub, Ideal.exp_coe]
  · rw [EReal.bot_sub, Ideal.exp_bot, EReal.coe_zero]

/-- One tile's shifted exponentials against real factors `g`: the `exp (-μ)`-scaled sum over the visible keys. -/
private theorem tile_sum {κ : Type*} [DecidableEq κ] {T : ℕ} (s g : κ → ℝ) (key : Fin T → κ) (hkey : Function.Injective key)
    (vis : Fin T → Prop) [DecidablePred vis]
    (t : Fin T → EReal) (ht : ∀ j, t j = if vis j then ((s (key j) : ℝ) : EReal) else ⊥) (μ : ℝ) :
    ∑ j, Ideal.exp (t j - (μ : EReal)) * ((g (key j) : ℝ) : EReal)
      = ((Real.exp (-μ) * ∑ k ∈ (Finset.univ.filter vis).image key, Real.exp (s k) * g k : ℝ) : EReal) := by
  have hreal : Real.exp (-μ) * ∑ k ∈ (Finset.univ.filter vis).image key, Real.exp (s k) * g k
      = ∑ j, (if vis j then Real.exp (s (key j) - μ) else 0) * g (key j) := by
    rw [Finset.sum_image (fun _ _ _ _ h => hkey h), Finset.sum_filter, Finset.mul_sum]
    refine Finset.sum_congr rfl (fun j _ => ?_)
    split_ifs
    · rw [sub_eq_add_neg, Real.exp_add]; ring
    · simp
  rw [hreal, coe_sum]
  refine Finset.sum_congr rfl (fun j _ => ?_)
  rw [ht j, exp_masked_sub, EReal.coe_mul]

/-- The same with no factor: the `exp (-μ)`-scaled sum of the visible keys' exponentials. -/
private theorem tile_sum_one {κ : Type*} [DecidableEq κ] {T : ℕ} (s : κ → ℝ) (key : Fin T → κ) (hkey : Function.Injective key)
    (vis : Fin T → Prop) [DecidablePred vis]
    (t : Fin T → EReal) (ht : ∀ j, t j = if vis j then ((s (key j) : ℝ) : EReal) else ⊥) (μ : ℝ) :
    ∑ j, Ideal.exp (t j - (μ : EReal))
      = ((Real.exp (-μ) * ∑ k ∈ (Finset.univ.filter vis).image key, Real.exp (s k) : ℝ) : EReal) := by
  have h := tile_sum s (fun _ => 1) key hkey vis t ht μ
  simpa using h

/-- The running maximum of a tile's masked scores is not `⊤`. -/
private theorem fold_max_lt_top {T : ℕ} (x : Fin T → ℝ) (vis : Fin T → Prop) [DecidablePred vis]
    (t : Fin T → EReal) (ht : ∀ j, t j = if vis j then ((x j : ℝ) : EReal) else ⊥) :
    (Finset.univ : Finset (Fin T)).fold max (⊥ : EReal) t < ⊤ := by
  rw [Finset.fold_max_lt]
  refine ⟨bot_lt_top, fun j _ => ?_⟩
  rw [ht j]
  split_ifs
  · exact EReal.coe_lt_top _
  · exact bot_lt_top

/-- The first tile after a reset (shift `⊥`, both sums `0`): a tile of `T` keys `key j`, scored `t j` — the real score
    where the key is visible, `⊥` where it is masked —, at least one of them visible. -/
theorem step_reset {κ : Type*} [DecidableEq κ] {T : ℕ} (s v : κ → ℝ) (key : Fin T → κ) (hkey : Function.Injective key)
    (vis : Fin T → Prop) [DecidablePred vis] (hne : ∃ j, vis j)
    (t w : Fin T → EReal) (ht : ∀ j, t j = if vis j then ((s (key j) : ℝ) : EReal) else ⊥)
    (hw : ∀ j, w j = ((v (key j) : ℝ) : EReal)) (m' : EReal)
    (hm' : m' = max (⊥ : EReal) ((Finset.univ : Finset (Fin T)).fold max (⊥ : EReal) t)) :
    Inv ((Finset.univ.filter vis).image key) s v m'
      (Ideal.exp (⊥ - m') * 0 + ∑ j, Ideal.exp (t j - m'))
      (Ideal.exp (⊥ - m') * 0 + ∑ j, Ideal.exp (t j - m') * w j) := by
  obtain ⟨j₀, hj₀⟩ := hne
  have hlt : (Finset.univ : Finset (Fin T)).fold max (⊥ : EReal) t < ⊤ :=
    fold_max_lt_top (fun j => s (key j)) vis t ht
  have hge : ((s (key j₀) : ℝ) : EReal) ≤ (Finset.univ : Finset (Fin T)).fold max (⊥ : EReal) t := by
    rw [Finset.le_fold_max]
    refine Or.inr ⟨j₀, Finset.mem_univ _, ?_⟩
    rw [ht j₀, if_pos hj₀]
  rw [max_eq_right bot_le] at hm'
  have hmtop : m' ≠ ⊤ := by rw [hm']; exact hlt.ne
  have hmbot : m' ≠ ⊥ := by
    rw [hm']
    exact ((EReal.bot_lt_coe _).trans_le hge).ne'
  obtain ⟨μ', hμ'⟩ : ∃ μ' : ℝ, m' = (μ' : EReal) := ⟨m'.toReal, (EReal.coe_toReal hmtop hmbot).symm⟩
  refine ⟨μ', hμ', ?_, ?_⟩
  · rw [mul_zero, zero_add, hμ', tile_sum_one s key hkey vis t ht μ']
  · rw [mul_zero, zero_add, hμ']
    have h := tile_sum s v key hkey vis t ht μ'
    rw [← h]
    exact Finset.sum_congr rfl (fun j _ => by rw [hw j])

/-- A further tile: the keys seen so far are `S`, the tile's keys are new. -/
theorem step {κ : Type*} [DecidableEq κ] {T : ℕ} (s v : κ → ℝ) (key : Fin T → κ) (hkey : Function.Injective key)
    (vis : Fin T → Prop) [DecidablePred vis]
    (t w : Fin T → EReal) (ht : ∀ j, t j = if vis j then ((s (key j) : ℝ) : EReal) else ⊥)
    (hw : ∀ j, w j = ((v (key j) : ℝ) : EReal))
    (S : Finset κ) (hdisj : ∀ j, key j ∉ S) (m l a : EReal) (hI : Inv S s v m l a) (m' : EReal)
    (hm' : m' = max m ((Finset.univ : Finset (Fin T)).fold max (⊥ : EReal) t)) :
    Inv (S ∪ (Finset.univ.filter vis).image key) s v m'
      (Ideal.exp (m - m') * l + ∑ j, Ideal.exp (t j - m'))
      (Ideal.exp (m - m') * a + ∑ j, Ideal.exp (t j - m') * w j) := by
  obtain ⟨μ, rfl, rfl, rfl⟩ := hI
  have hlt : (Finset.univ : Finset (Fin T)).fold max (⊥ : EReal) t < ⊤ :=
    fold_max_lt_top (fun j => s (key j)) vis t ht
  have hmtop : m' ≠ ⊤ := by
    rw [hm']
    exact (max_lt (EReal.coe_lt_top μ) hlt).ne
  have hmbot : m' ≠ ⊥ := by
    rw [hm']
    exact ((EReal.bot_lt_coe μ).trans_le (le_max_left _ _)).ne'
  obtain ⟨μ', hμ'⟩ : ∃ μ' : ℝ, m' = (μ' : EReal) := ⟨m'.toReal, (EReal.coe_toReal hmtop hmbot).symm⟩
  have hd : Disjoint S ((Finset.univ.filter vis).image key) := by
    rw [Finset.disjoint_right]
    intro k hk
    obtain ⟨j, _, rfl⟩ := Finset.mem_image.mp hk
    exact hdisj j
  have hexp : Real.exp (μ - μ') * Real.exp (-μ) = Real.exp (-μ') := by
    rw [← Real.exp_add]; congr 1; ring
  refine ⟨μ', hμ', ?_, ?_⟩
  · rw [hμ', tile_sum_one s key hkey vis t ht μ', ← EReal.coe_sub, Ideal.exp_coe, ← EReal.coe_mul, ← EReal.coe_add,
      Finset.sum_union hd, ← hexp]
    congr 1; ring
  · have h := tile_sum s v key hkey vis t ht μ'
    have h' : ∑ j, Ideal.exp (t j - (μ' : EReal)) * w j
        = ((Real.exp (-μ') * ∑ k ∈ (Finset.univ.filter vis).image key, Real.exp (s k) * v k : ℝ) : EReal) := by
      rw [← h]
      exact Finset.sum_congr rfl (fun j _ => by rw [hw j])
    rw [hμ', h', ← EReal.coe_sub, Ideal.exp_coe, ← EReal.coe_mul, ← EReal.coe_add, Finset.sum_union hd, ← hexp]
    congr 1; ring

/-- The quotient of the running numerator by the running denominator is the weighted average, whatever the shift. -/
theorem Inv.div {κ : Type*} {S : Finset κ} (hS : S.Nonempty) {s v : κ → ℝ} {m l a : EReal} (h : Inv S s v m l a) :
    Ideal.div a l = (((∑ k ∈ S, Real.exp (s k) * v k) / (∑ k ∈ S, Real.exp (s k)) : ℝ) : EReal) := by
  obtain ⟨μ, rfl, rfl, rfl⟩ := h
  have hpos : 0 < ∑ k ∈ S, Real.exp (s k) := Finset.sum_pos (fun k _ => Real.exp_pos _) hS
  have hne : Real.exp (-μ) * ∑ k ∈ S, Real.exp (s k) ≠ 0 := (mul_pos (Real.exp_pos _) hpos).ne'
  rw [Ideal.div_coe hne, ← EReal.coe_mul]
  congr 1
  have h1 : Real.exp (-μ) ≠ 0 := (Real.exp_pos _).ne'
  have h2 : ∑ k ∈ S, Real.exp (s k) ≠ 0 := hpos.ne'
  field_simp

/-- Two passes over a row of `n` keys of which query `q` sees the keys `k ≤ q`: the masked scores `sc`, any shift `M`
    that is at least the (finite) score of key `q` and is not `⊤`, the weights `exp (sc k - M)` over their sum (from `0`). -/
theorem twopass {n : ℕ} (q : Fin n) (s v : Fin n → ℝ) (sc w : Fin n → EReal)
    (hsc : ∀ k, sc k = if q < k then (⊥ : EReal) else ((s k : ℝ) : EReal)) (hw : ∀ k, w k = ((v k : ℝ) : EReal))
    (M : EReal) (hq : sc q ≤ M) (htop : M < ⊤) :
    ∑ k, Ideal.div (Ideal.exp (sc k - M)) (0 + ∑ k', Ideal.exp (sc k' - M)) * w k
      = (((∑ k ∈ Finset.Iic q, Real.exp (s k) * v k) / (∑ k ∈ Finset.Iic q, Real.exp (s k)) : ℝ) : EReal) := by
  have hscq : sc q = ((s q : ℝ) : EReal) := by rw [hsc q, if_neg (lt_irrefl q)]
  have hMbot : M ≠ ⊥ := by
    rw [hscq] at hq
    exact ((EReal.bot_lt_coe (s q)).trans_le hq).ne'
  obtain ⟨μ, rfl⟩ : ∃ μ : ℝ, M = (μ : EReal) := ⟨M.toReal, (EReal.coe_toReal htop.ne hMbot).symm⟩
  obtain ⟨e, he⟩ : ∃ e : Fin n → ℝ, ∀ k, e k = if ¬ q < k then Real.exp (s k - μ) else 0 := ⟨_, fun _ => rfl⟩
  have hterm : ∀ k, Ideal.exp (sc k - (μ : EReal)) = ((e k : ℝ) : EReal) := by
    intro k
    have h : sc k = if ¬ q < k then ((s k : ℝ) : EReal) else ⊥ := by
      rw [hsc k]; split_ifs <;> rfl
    rw [h, exp_masked_sub, he k]
  have hIic : Finset.Iic q = Finset.univ.filter (fun k => ¬ q < k) := by
    ext k; simp [not_lt]
  have hZ : ∑ k, e k = Real.exp (-μ) * ∑ k ∈ Finset.Iic q, Real.exp (s k) := by
    rw [hIic, Finset.sum_filter, Finset.mul_sum]
    refine Finset.sum_congr rfl (fun k _ => ?_)
    rw [he k]
    split_ifs
    · simp
    · rw [sub_eq_add_neg, Real.exp_add]; ring
  have hN : ∑ k, e k * v k = Real.exp (-μ) * ∑ k ∈ Finset.Iic q, Real.exp (s k) * v k := by
    rw [hIic, Finset.sum_filter, Finset.mul_sum]
    refine Finset.sum_congr rfl (fun k _ => ?_)
    rw [he k]
    split_ifs
    · simp
    · rw [sub_eq_add_neg, Real.exp_add]; ring
  have hpos : 0 < ∑ k ∈ Finset.Iic q, Real.exp (s k) :=
    Finset.sum_pos (fun k _ => Real.exp_pos _) ⟨q, Finset.mem_Iic.mpr le_rfl⟩
  have hDne : ∑ k, e k ≠ 0 := by
    rw [hZ]; exact (mul_pos (Real.exp_pos _) hpos).ne'
  have hden : (0 : EReal) + ∑ k', Ideal.exp (sc k' - (μ : EReal)) = ((∑ k, e k : ℝ) : EReal) := by
    rw [zero_add, coe_sum]
    exact Finset.sum_congr rfl (fun k _ => hterm k)
  have hsum : ∑ k, Ideal.div (Ideal.exp (sc k - (μ : EReal))) ((∑ k, e k : ℝ) : EReal) * w k
      = ((∑ k, e k * (1 / ∑ k, e k) * v k : ℝ) : EReal) := by
    refine (Finset.sum_congr rfl (fun k _ => ?_)).trans
      (coe_sum Finset.univ (fun k => e k * (1 / ∑ k, e k) * v k)).symm
    rw [Ideal.div_coe hDne, hterm k, hw k, EReal.coe_mul, EReal.coe_mul]
  rw [hden, hsum]
  congr 1
  have hfac : ∑ k, e k * (1 / ∑ k, e k) * v k = (1 / ∑ k, e k) * ∑ k, e k * v k := by
    rw [Finset.mul_sum]
    exact Finset.sum_congr rfl (fun k _ => by ring)
  rw [hfac, hN, hZ]
  have h1 : Real.exp (-μ) ≠ 0 := (Real.exp_pos _).ne'
  have h2 : ∑ k ∈ Finset.Iic q, Real.exp (s k) ≠ 0 := hpos.ne'
  field_simp

end Cert.Lib

end
-- ==== Proof.R0Value.lean ====
/-
  What the projection pipeline leaves in its three output arrays, on the extended reals: each is the input array times
  its weight matrix, row by row — block `t` of an output holds the product of block `t` of the input rows with the
  whole weight matrix, the blocks tile the array, and a finite sum of finite products is the real sum.
-/
import proofs.«402334_j1417339207762_3_alg».proof.Proof.R0
import proofs.«402334_j1417339207762_3_alg».proof.Proof.Spec
import proofs.«402334_j1417339207762_3_alg».proof.Proof.LibSoftmax
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.R0V

open Cert.KernelIdeal Cert.KernelIdeal.Gen Cert.KernelIdeal.R0
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b)) (c : Dev nD)

/-! ## The body's payload at an index: a row of the input block times a column of the weights -/

theorem lhs_proj_0 (i : S2048x64.Idx) (q : dot_S2048x256_S256x64_S2048x64_1_0_0_1_n_n.contr.Idx) :
    (dot_S2048x256_S256x64_S2048x64_1_0_0_1_n_n.lhsIdx i q 0).val = (i 0).val := by
  unfold DotDims.lhsIdx
  rw [dif_neg (show ¬(0 : Fin S2048x256.rank) ∈ dot_S2048x256_S256x64_S2048x64_1_0_0_1_n_n.lhsBatch by decide), dif_pos (show (0 : Fin S2048x256.rank) ∈ dot_S2048x256_S256x64_S2048x64_1_0_0_1_n_n.lhsNonContracting by decide)]
  rfl
theorem lhs_proj_1 (i : S2048x64.Idx) (q : dot_S2048x256_S256x64_S2048x64_1_0_0_1_n_n.contr.Idx) :
    (dot_S2048x256_S256x64_S2048x64_1_0_0_1_n_n.lhsIdx i q 1).val = (q ⟨0, by decide⟩).val :=
  dot_S2048x256_S256x64_S2048x64_1_0_0_1_n_n.lhsIdx_val_of_single rfl i q
theorem rhs_proj_0 (i : S2048x64.Idx) (q : dot_S2048x256_S256x64_S2048x64_1_0_0_1_n_n.contr.Idx) :
    (dot_S2048x256_S256x64_S2048x64_1_0_0_1_n_n.rhsIdx i q 0).val = (q ⟨0, by decide⟩).val :=
  dot_S2048x256_S256x64_S2048x64_1_0_0_1_n_n.rhsIdx_val_of_single rfl i q
theorem rhs_proj_1 (i : S2048x64.Idx) (q : dot_S2048x256_S256x64_S2048x64_1_0_0_1_n_n.contr.Idx) :
    (dot_S2048x256_S256x64_S2048x64_1_0_0_1_n_n.rhsIdx i q 1).val = (i 1).val := by
  unfold DotDims.rhsIdx
  rw [dif_neg (show ¬(1 : Fin S256x64.rank) ∈ dot_S2048x256_S256x64_S2048x64_1_0_0_1_n_n.rhsBatch by decide), dif_pos (show (1 : Fin S256x64.rank) ∈ dot_S2048x256_S256x64_S2048x64_1_0_0_1_n_n.rhsNonContracting by decide)]
  rfl

/-- The product of a [2048, 256] block with the [256, 64] weights, at `(r, e)`: the sum over the 256 features. -/
theorem matmul_ix (xs : FVec Ideal S2048x256 .bf16) (ws : FVec Ideal S256x64 .bf16) (r : Fin 2048) (e : Fin 64) :
    matmul (F := Ideal) dot_S2048x256_S256x64_S2048x64_1_0_0_1_n_n none xs ws (constant (F := Ideal) S2048x64 .f32 0x00000000#32) (ix2 r e)
      = ∑ d : Fin 256, xs (ix2 r d) * ws (ix2 d e) := by
  simp only [matmul]
  rw [Ideal.matmul_constant_zero_apply, ← Equiv.sum_comp (ValueIdx.contrEquiv1 dot_S2048x256_S256x64_S2048x64_1_0_0_1_n_n 256 rfl rfl).symm]
  refine Finset.sum_congr rfl fun k _ => ?_
  have hk := ValueIdx.contrEquiv1_symm_val dot_S2048x256_S256x64_S2048x64_1_0_0_1_n_n 256 rfl rfl k
  have el : dot_S2048x256_S256x64_S2048x64_1_0_0_1_n_n.lhsIdx (ix2 r e) ((ValueIdx.contrEquiv1 dot_S2048x256_S256x64_S2048x64_1_0_0_1_n_n 256 rfl rfl).symm k) = ix2 r k := funext fun a => Fin.ext (by
    match a with
    | ⟨0, _⟩ => exact lhs_proj_0 _ _
    | ⟨1, _⟩ => exact (lhs_proj_1 _ _).trans hk)
  have er : dot_S2048x256_S256x64_S2048x64_1_0_0_1_n_n.rhsIdx (ix2 r e) ((ValueIdx.contrEquiv1 dot_S2048x256_S256x64_S2048x64_1_0_0_1_n_n 256 rfl rfl).symm k) = ix2 k e := funext fun a => Fin.ext (by
    match a with
    | ⟨0, _⟩ => exact (rhs_proj_0 _ _).trans hk
    | ⟨1, _⟩ => exact rhs_proj_1 _ _)
  rw [el, er]

/-- The queries' payload at `(0, r, e)`: row `r` of the input block times column `e` of the weights. -/
theorem pay_ix (xb : Vec Ideal S1x2048x256 .f32) (wb : Vec Ideal S256x64 .f32) (r : Fin 2048) (e : Fin 64) :
    k0_pay2 (F := Ideal) xb wb (ix3 (0 : Fin 1) r e) = ∑ d : Fin 256, xb (ix3 (0 : Fin 1) r d) * wb (ix2 d e) := by
  unfold k0_pay2
  refine (shapeCast_addUnit_apply ![2048, 64] _ shapeCasts_S2048x64_S1x2048x64 (ix3 (0 : Fin 1) r e)).trans ?_
  have hj : (fun a : Fin 2 => (ix3 (0 : Fin 1) r e : S1x2048x64.Idx) a.succ) = (ix2 r e : S2048x64.Idx) :=
    funext fun a => Fin.ext (by match a with | ⟨0, _⟩ => rfl | ⟨1, _⟩ => rfl)
  rw [hj]
  refine (matmul_ix _ _ r e).trans (Finset.sum_congr rfl fun d _ => ?_)
  refine congrArg (· * wb (ix2 d e)) ?_
  refine (shapeCast_dropUnit_apply ![2048, 256] xb shapeCasts_S1x2048x256_S2048x256 (ix2 r d)).trans (congrArg xb ?_)
  exact funext fun a => Fin.ext (by match a with | ⟨0, _⟩ => rfl | ⟨1, _⟩ => rfl | ⟨2, _⟩ => rfl)

/-- The keys' payload is the same function of its block and weights. -/
theorem pay3_ix (xb : Vec Ideal S1x2048x256 .f32) (wb : Vec Ideal S256x64 .f32) (r : Fin 2048) (e : Fin 64) :
    k0_pay3 (F := Ideal) xb wb (ix3 (0 : Fin 1) r e) = ∑ d : Fin 256, xb (ix3 (0 : Fin 1) r d) * wb (ix2 d e) :=
  pay_ix xb wb r e

/-- The values' payload likewise. -/
theorem pay14_ix (xb : Vec Ideal S1x2048x256 .f32) (wb : Vec Ideal S256x64 .f32) (r : Fin 2048) (e : Fin 64) :
    k0_pay1 (F := Ideal) (k0_pay4 (F := Ideal) xb wb) (ix3 (0 : Fin 1) r e) = ∑ d : Fin 256, xb (ix3 (0 : Fin 1) r d) * wb (ix2 d e) :=
  pay_ix xb wb r e

/-! ## A finite sum of finite products is the real sum -/

/-- A dot product of two finite rows over the 256 features is the real projection of their real parts. -/
theorem proj_coe (x : S4x4096x256.Idx → EReal) (w : S256x64.Idx → EReal)
    (fx : Cert.Spec.Finite (S := Cert.Spec.SX) x) (fw : Cert.Spec.Finite (S := Cert.Spec.SW) w)
    (b : Fin 4) (s : Fin 4096) (e : Fin 64) :
    ∑ d : Fin 256, x (ix3 b s d) * w (ix2 d e)
      = ((Cert.Spec.projR (Cert.Spec.re (S := Cert.Spec.SX) x) (Cert.Spec.re (S := Cert.Spec.SW) w) b s e : ℝ) : EReal) := by
  unfold Cert.Spec.projR
  rw [← Cert.Lib.dot_coe]
  refine Finset.sum_congr rfl fun d _ => ?_
  rw [fx.coe_re, fw.coe_re]

/-- The projected array, as one function of the index. -/
abbrev projE (x : S4x4096x256.Idx → EReal) (w : S256x64.Idx → EReal) : S4x4096x64.Idx → EReal :=
  fun i => ((Cert.Spec.projR (Cert.Spec.re (S := Cert.Spec.SX) x) (Cert.Spec.re (S := Cert.Spec.SW) w) (i 0) (i 1) (i 2) : ℝ) : EReal)

/-- The projected array at an index with known coordinates. -/
theorem projE_of_val (x : S4x4096x256.Idx → EReal) (w : S256x64.Idx → EReal) (i : S4x4096x64.Idx)
    (b : Fin 4) (s : Fin 4096) (e : Fin 64) (h0 : (i 0).val = b.val) (h1 : (i 1).val = s.val) (h2 : (i 2).val = e.val) :
    projE x w i = ((Cert.Spec.projR (Cert.Spec.re (S := Cert.Spec.SX) x) (Cert.Spec.re (S := Cert.Spec.SW) w) b s e : ℝ) : EReal) := by
  have hi : i = ix3 b s e := funext fun a => Fin.ext (by
    match a with
    | ⟨0, _⟩ => exact h0
    | ⟨1, _⟩ => exact h1
    | ⟨2, _⟩ => exact h2)
  subst hi
  rfl

/-- Row `r` of half `h` of a batch is row `2048 h + r` of the batch. -/
def rowOf (h : Fin 2) (r : Fin 2048) : Fin 4096 := ⟨h.val * 2048 + r.val, by have := h.isLt; have := r.isLt; omega⟩

/-- ONE POINT, ONE ELEMENT. A payload that multiplies its block by its weights, on the block holding rows `2048 h …` of
    batch `b` of a finite array and on the finite weight matrix, gives at block index `y` the projected array at the array
    index `i` that `y` sits at. -/
theorem point_proj (pay : Vec Ideal S1x2048x256 .f32 → Vec Ideal S256x64 .f32 → FVec Ideal S1x2048x64 .bf16)
    (hpay : ∀ (xb : Vec Ideal S1x2048x256 .f32) (wb : Vec Ideal S256x64 .f32) (r : Fin 2048) (e : Fin 64),
      pay xb wb (ix3 (0 : Fin 1) r e) = ∑ d : Fin 256, xb (ix3 (0 : Fin 1) r d) * wb (ix2 d e))
    (x : S4x4096x256.Idx → EReal) (w : S256x64.Idx → EReal)
    (fx : Cert.Spec.Finite (S := Cert.Spec.SX) x) (fw : Cert.Spec.Finite (S := Cert.Spec.SW) w)
    (xb : Vec Ideal S1x2048x256 .f32) (wb : Vec Ideal S256x64 .f32) (b : Fin 4) (h : Fin 2)
    (hxb : ∀ (r : Fin 2048) (d : Fin 256), xb (ix3 (0 : Fin 1) r d) = x (ix3 b (rowOf h r) d))
    (hwb : ∀ (d : Fin 256) (e : Fin 64), wb (ix2 d e) = w (ix2 d e))
    (y : S1x2048x64.Idx) (i : S4x4096x64.Idx)
    (hi0 : (i 0).val = b.val) (hi1 : (i 1).val = h.val * 2048 + (y 1).val) (hi2 : (i 2).val = (y 2).val) :
    pay xb wb y = projE x w i := by
  obtain ⟨z, r, e, rfl⟩ : ∃ (z : Fin 1) (r : Fin 2048) (e : Fin 64), y = ix3 z r e := ⟨y 0, y 1, y 2, eq_ix3 y⟩
  obtain rfl : z = 0 := Subsingleton.elim _ _
  rw [hpay, projE_of_val x w i b (rowOf h r) e hi0 hi1 hi2]
  refine (Finset.sum_congr rfl fun d _ => ?_).trans (proj_coe x w fx fw b (rowOf h r) e)
  rw [hxb, hwb]

/-! ## From blocks to the array -/

theorem hz3 : (![0, 0, 0] : Fin 3 → Nat) = fun _ => 0 := funext fun a => by fin_cases a <;> rfl
theorem hz2 : (![0, 0] : Fin 2 → Nat) = fun _ => 0 := funext fun a => by fin_cases a <;> rfl

/-! ### The projected queries (window 6, from windows 0 and 3) -/

/-- The index maps, decided over the grid: the queries' input block moves with its output block, the weights' block is
    the whole matrix, and the output's block index is (batch, half, 0). -/
theorem idx_factsQ : ∀ t : Fin cfg0.N,
    win0_0.index t (0 : Fin 3) = win0_6.index t (0 : Fin 3) ∧ win0_0.index t (1 : Fin 3) = win0_6.index t (1 : Fin 3)
    ∧ win0_0.index t (2 : Fin 3) = 0 ∧ win0_6.index t (2 : Fin 3) = 0
    ∧ win0_3.index t (0 : Fin 2) = 0 ∧ win0_3.index t (1 : Fin 2) = 0
    ∧ win0_6.index t (0 : Fin 3) < 4 ∧ win0_6.index t (1 : Fin 3) < 2 :=
  (by decide +kernel : ∀ t : Fin grid0.N, _)

/-- Every (batch, half) is some point's block. -/
theorem idx_ontoQ : ∀ (q0 : Fin 4) (q1 : Fin 2), ∃ t : Fin cfg0.N, win0_6.index t = ![q0.val, q1.val, 0] :=
  (by decide +kernel : ∀ (q0 : Fin 4) (q1 : Fin 2), ∃ t : Fin grid0.N, win0_6.index t = ![q0.val, q1.val, 0])

/-- WHAT POINT `t` WRITES BACK to the queries' array is block `t` of the projected array. -/
theorem flushedQ_eq (x : S4x4096x256.Idx → EReal) (w : S256x64.Idx → EReal) (hx : V c main_arg2 = x) (hw : V c main_arg3 = w)
    (fx : Cert.Spec.Finite (S := Cert.Spec.SX) x) (fw : Cert.Spec.Finite (S := Cert.Spec.SW) w) (t : Fin cfg0.N) :
    (dat0 (F := Ideal) V c).flushed 6 t = ((cfg0.win 6).blk t).view.read (Elt Ideal) (projE x w) := by
  show (cfg0.win 6).cut (grid0.coords t) ((dat0 (F := Ideal) V c).after 6 t) = _
  rw [after0_6]
  unfold outQ
  rw [View.canon_unit_zero hz3]
  simp only [View.ld_unit_zero (S := S1x2048x256) hz3, View.ld_unit_zero (S := S256x64) hz2]
  obtain ⟨e0, e1, e2, e3, e4, e5, e6, e7⟩ := idx_factsQ t
  funext j
  have hj0 : (j 0).val < 1 := (j 0).isLt
  show k0_pay2 (F := Ideal) (iblk0 V c 0 t) (iblk0 V c 3 t) ((cfg0.win 6).xinj (grid0.coords t) j) = projE x w (((cfg0.win 6).blk t).view.emb j)
  refine point_proj _ pay_ix x w fx fw _ _ ⟨win0_6.index t (0 : Fin 3), e6⟩ ⟨win0_6.index t (1 : Fin 3), e7⟩ ?_ ?_ _ _ ?_ ?_ ?_
  · intro r d
    show V c main_arg2 (((cfg0.win 0).blk t).view.emb (ix3 (0 : Fin 1) r d)) = x _
    rw [hx]
    refine congrArg x (funext fun a => Fin.ext ?_)
    match a with
    | ⟨0, _⟩ => show win0_0.index t (0 : Fin 3) * 1 + 1 * 0 = win0_6.index t (0 : Fin 3); omega
    | ⟨1, _⟩ => show win0_0.index t (1 : Fin 3) * 2048 + 1 * r.val = win0_6.index t (1 : Fin 3) * 2048 + r.val; omega
    | ⟨2, _⟩ => show win0_0.index t (2 : Fin 3) * 256 + 1 * d.val = d.val; omega
  · intro d e
    show V c main_arg3 (((cfg0.win 3).blk t).view.emb (ix2 d e)) = w _
    rw [hw]
    refine congrArg w (funext fun a => Fin.ext ?_)
    match a with
    | ⟨0, _⟩ => show win0_3.index t (0 : Fin 2) * 256 + 1 * d.val = d.val; omega
    | ⟨1, _⟩ => show win0_3.index t (1 : Fin 2) * 64 + 1 * e.val = e.val; omega
  · show win0_6.index t (0 : Fin 3) * 1 + 1 * (j 0).val = win0_6.index t (0 : Fin 3); omega
  · show win0_6.index t (1 : Fin 3) * 2048 + 1 * (j 1).val = win0_6.index t (1 : Fin 3) * 2048 + (j 1).val; omega
  · show win0_6.index t (2 : Fin 3) * 64 + 1 * (j 2).val = (j 2).val; omega

/-- An index of the queries' array is in point `t`'s block iff each coordinate is in the block's range on its axis. -/
theorem mem_blkQ (t : Fin cfg0.N) (i : S4x4096x64.Idx) :
    i ∈ ((cfg0.win 6).blk t).view.set ↔ ∀ a : Fin 3, win0_6.index t a * S1x2048x64.size a ≤ (i a).val ∧ (i a).val < win0_6.index t a * S1x2048x64.size a + S1x2048x64.size a := by
  show i ∈ ((View.whole main_v0_0).slice (win0_6.rect t)).set ↔ _
  rw [View.set_slice_whole, Rect.mem_set_unit]
  exact Iff.rfl

/-- The blocks tile the queries' array: row `s` of batch `b` is in the block of the point at (b, s / 2048). -/
theorem coverQ (i : S4x4096x64.Idx) : ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 64 := (i 2).isLt
  obtain ⟨t, ht⟩ := idx_ontoQ ⟨(i 0).val, hi0⟩ ⟨(i 1).val / 2048, by omega⟩
  have q0 : win0_6.index t (0 : Fin 3) = (i 0).val := congrFun ht 0
  have q1 : win0_6.index t (1 : Fin 3) = (i 1).val / 2048 := congrFun ht 1
  have q2 : win0_6.index t (2 : Fin 3) = 0 := congrFun ht 2
  refine ⟨t, flush0_6 t, ?_⟩
  rw [mem_blkQ]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 2048 ≤ (i 1).val ∧ (i 1).val < win0_6.index t (1 : Fin 3) * 2048 + 2048; omega
  | ⟨2, _⟩ => show win0_6.index t (2 : Fin 3) * 64 ≤ (i 2).val ∧ (i 2).val < win0_6.index t (2 : Fin 3) * 64 + 64; omega

/-! ### The projected keys (window 7, from windows 1 and 4) -/

/-- The index maps, decided over the grid, for the keys' windows. -/
theorem idx_factsK : ∀ t : Fin cfg0.N,
    win0_1.index t (0 : Fin 3) = win0_7.index t (0 : Fin 3) ∧ win0_1.index t (1 : Fin 3) = win0_7.index t (1 : Fin 3)
    ∧ win0_1.index t (2 : Fin 3) = 0 ∧ win0_7.index t (2 : Fin 3) = 0
    ∧ win0_4.index t (0 : Fin 2) = 0 ∧ win0_4.index t (1 : Fin 2) = 0
    ∧ win0_7.index t (0 : Fin 3) < 4 ∧ win0_7.index t (1 : Fin 3) < 2 :=
  (by decide +kernel : ∀ t : Fin grid0.N, _)

/-- Every (batch, half) is some point's block. -/
theorem idx_ontoK : ∀ (q0 : Fin 4) (q1 : Fin 2), ∃ t : Fin cfg0.N, win0_7.index t = ![q0.val, q1.val, 0] :=
  (by decide +kernel : ∀ (q0 : Fin 4) (q1 : Fin 2), ∃ t : Fin grid0.N, win0_7.index t = ![q0.val, q1.val, 0])

/-- WHAT POINT `t` WRITES BACK to the keys' array is block `t` of the projected array. -/
theorem flushedK_eq (x : S4x4096x256.Idx → EReal) (w : S256x64.Idx → EReal) (hx : V c main_arg0 = x) (hw : V c main_arg4 = w)
    (fx : Cert.Spec.Finite (S := Cert.Spec.SX) x) (fw : Cert.Spec.Finite (S := Cert.Spec.SW) w) (t : Fin cfg0.N) :
    (dat0 (F := Ideal) V c).flushed 7 t = ((cfg0.win 7).blk t).view.read (Elt Ideal) (projE x w) := by
  show (cfg0.win 7).cut (grid0.coords t) ((dat0 (F := Ideal) V c).after 7 t) = _
  rw [after0_7]
  unfold outK
  rw [View.canon_unit_zero hz3]
  simp only [View.ld_unit_zero (S := S1x2048x256) hz3, View.ld_unit_zero (S := S256x64) hz2]
  obtain ⟨e0, e1, e2, e3, e4, e5, e6, e7⟩ := idx_factsK t
  funext j
  have hj0 : (j 0).val < 1 := (j 0).isLt
  show k0_pay3 (F := Ideal) (iblk0 V c 1 t) (iblk0 V c 4 t) ((cfg0.win 7).xinj (grid0.coords t) j) = projE x w (((cfg0.win 7).blk t).view.emb j)
  refine point_proj _ pay3_ix x w fx fw _ _ ⟨win0_7.index t (0 : Fin 3), e6⟩ ⟨win0_7.index t (1 : Fin 3), e7⟩ ?_ ?_ _ _ ?_ ?_ ?_
  · intro r d
    show V c main_arg0 (((cfg0.win 1).blk t).view.emb (ix3 (0 : Fin 1) r d)) = x _
    rw [hx]
    refine congrArg x (funext fun a => Fin.ext ?_)
    match a with
    | ⟨0, _⟩ => show win0_1.index t (0 : Fin 3) * 1 + 1 * 0 = win0_7.index t (0 : Fin 3); omega
    | ⟨1, _⟩ => show win0_1.index t (1 : Fin 3) * 2048 + 1 * r.val = win0_7.index t (1 : Fin 3) * 2048 + r.val; omega
    | ⟨2, _⟩ => show win0_1.index t (2 : Fin 3) * 256 + 1 * d.val = d.val; omega
  · intro d e
    show V c main_arg4 (((cfg0.win 4).blk t).view.emb (ix2 d e)) = w _
    rw [hw]
    refine congrArg w (funext fun a => Fin.ext ?_)
    match a with
    | ⟨0, _⟩ => show win0_4.index t (0 : Fin 2) * 256 + 1 * d.val = d.val; omega
    | ⟨1, _⟩ => show win0_4.index t (1 : Fin 2) * 64 + 1 * e.val = e.val; omega
  · show win0_7.index t (0 : Fin 3) * 1 + 1 * (j 0).val = win0_7.index t (0 : Fin 3); omega
  · show win0_7.index t (1 : Fin 3) * 2048 + 1 * (j 1).val = win0_7.index t (1 : Fin 3) * 2048 + (j 1).val; omega
  · show win0_7.index t (2 : Fin 3) * 64 + 1 * (j 2).val = (j 2).val; omega

/-- An index of the keys' array is in point `t`'s block iff each coordinate is in the block's range on its axis. -/
theorem mem_blkK (t : Fin cfg0.N) (i : S4x4096x64.Idx) :
    i ∈ ((cfg0.win 7).blk t).view.set ↔ ∀ a : Fin 3, win0_7.index t a * S1x2048x64.size a ≤ (i a).val ∧ (i a).val < win0_7.index t a * S1x2048x64.size a + S1x2048x64.size a := by
  show i ∈ ((View.whole main_v0_1).slice (win0_7.rect t)).set ↔ _
  rw [View.set_slice_whole, Rect.mem_set_unit]
  exact Iff.rfl

/-- The blocks tile the keys' array. -/
theorem coverK (i : S4x4096x64.Idx) : ∃ t : Fin cfg0.N, (cfg0.win 7).flush t = true ∧ i ∈ ((cfg0.win 7).blk t).view.set := by
  have hi0 : (i 0).val < 4 := (i 0).isLt
  have hi1 : (i 1).val < 4096 := (i 1).isLt
  have hi2 : (i 2).val < 64 := (i 2).isLt
  obtain ⟨t, ht⟩ := idx_ontoK ⟨(i 0).val, hi0⟩ ⟨(i 1).val / 2048, by omega⟩
  have q0 : win0_7.index t (0 : Fin 3) = (i 0).val := congrFun ht 0
  have q1 : win0_7.index t (1 : Fin 3) = (i 1).val / 2048 := congrFun ht 1
  have q2 : win0_7.index t (2 : Fin 3) = 0 := congrFun ht 2
  refine ⟨t, flush0_7 t, ?_⟩
  rw [mem_blkK]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 2048 ≤ (i 1).val ∧ (i 1).val < win0_7.index t (1 : Fin 3) * 2048 + 2048; omega
  | ⟨2, _⟩ => show win0_7.index t (2 : Fin 3) * 64 ≤ (i 2).val ∧ (i 2).val < win0_7.index t (2 : Fin 3) * 64 + 64; omega

/-! ### The projected values (window 8, from windows 2 and 5) -/

/-- The index maps, decided over the grid, for the values' windows. -/
theorem idx_factsV : ∀ t : Fin cfg0.N,
    win0_2.index t (0 : Fin 3) = win0_8.index t (0 : Fin 3) ∧ win0_2.index t (1 : Fin 3) = win0_8.index t (1 : Fin 3)
    ∧ win0_2.index t (2 : Fin 3) = 0 ∧ win0_8.index t (2 : Fin 3) = 0
    ∧ win0_5.index t (0 : Fin 2) = 0 ∧ win0_5.index t (1 : Fin 2) = 0
    ∧ win0_8.index t (0 : Fin 3) < 4 ∧ win0_8.index t (1 : Fin 3) < 2 :=
  (by decide +kernel : ∀ t : Fin grid0.N, _)

/-- Every (batch, half) is some point's block. -/
theorem idx_ontoV : ∀ (q0 : Fin 4) (q1 : Fin 2), ∃ t : Fin cfg0.N, win0_8.index t = ![q0.val, q1.val, 0] :=
  (by decide +kernel : ∀ (q0 : Fin 4) (q1 : Fin 2), ∃ t : Fin grid0.N, win0_8.index t = ![q0.val, q1.val, 0])

/-- WHAT POINT `t` WRITES BACK to the values' array is block `t` of the projected array. -/
theorem flushedV_eq (x : S4x4096x256.Idx → EReal) (w : S256x64.Idx → EReal) (hx : V c main_arg1 = x) (hw : V c main_arg5 = w)
    (fx : Cert.Spec.Finite (S := Cert.Spec.SX) x) (fw : Cert.Spec.Finite (S := Cert.Spec.SW) w) (t : Fin cfg0.N) :
    (dat0 (F := Ideal) V c).flushed 8 t = ((cfg0.win 8).blk t).view.read (Elt Ideal) (projE x w) := by
  show (cfg0.win 8).cut (grid0.coords t) ((dat0 (F := Ideal) V c).after 8 t) = _
  rw [after0_8]
  unfold outV
  rw [View.canon_unit_zero hz3]
  simp only [View.ld_unit_zero (S := S1x2048x256) hz3, View.ld_unit_zero (S := S256x64) hz2]
  obtain ⟨e0, e1, e2, e3, e4, e5, e6, e7⟩ := idx_factsV t
  funext j
  have hj0 : (j 0).val < 1 := (j 0).isLt
  show k0_pay1 (F := Ideal) (k0_pay4 (F := Ideal) (iblk0 V c 2 t) (iblk0 V c 5 t)) ((cfg0.win 8).xinj (grid0.coords t) j) = projE x w (((cfg0.win 8).blk t).view.emb j)
  refine point_proj (fun xb wb => k0_pay1 (F := Ideal) (k0_pay4 (F := Ideal) xb wb)) pay14_ix x w fx fw _ _ ⟨win0_8.index t (0 : Fin 3), e6⟩ ⟨win0_8.index t (1 : Fin 3), e7⟩ ?_ ?_ _ _ ?_ ?_ ?_
  · intro r d
    show V c main_arg1 (((cfg0.win 2).blk t).view.emb (ix3 (0 : Fin 1) r d)) = x _
    rw [hx]
    refine congrArg x (funext fun a => Fin.ext ?_)
    match a with
    | ⟨0, _⟩ => show win0_2.index t (0 : Fin 3) * 1 + 1 * 0 = win0_8.index t (0 : Fin 3); omega
    | ⟨1, _⟩ => show win0_2.index t (1 : Fin 3) * 2048 + 1 * r.val = win0_8.index t (1 : Fin 3) * 2048 + r.val; omega
    | ⟨2, _⟩ => show win0_2.index t (2 : Fin 3) * 256 + 1 * d.val = d.val; omega
  · intro d e
    show V c main_arg5 (((cfg0.win 5).blk t).view.emb (ix2 d e)) = w _
    rw [hw]
    refine congrArg w (funext fun a => Fin.ext ?_)
    match a with
    | ⟨0, _⟩ => show win0_5.index t (0 : Fin 2) * 256 + 1 * d.val = d.val; omega
    | ⟨1, _⟩ => show win0_5.index t (1 : Fin 2) * 64 + 1 * e.val = e.val; omega
  · show win0_8.index t (0 : Fin 3) * 1 + 1 * (j 0).val = win0_8.index t (0 : Fin 3); omega
  · show win0_8.index t (1 : Fin 3) * 2048 + 1 * (j 1).val = win0_8.index t (1 : Fin 3) * 2048 + (j 1).val; omega
  · show win0_8.index t (2 : Fin 3) * 64 + 1 * (j 2).val = (j 2).val; omega

/-- An index of the values' array is in point `t`'s block iff each coordinate is in the block's range on its axis. -/
theorem mem_blkV (t : Fin cfg0.N) (i : S4x4096x64.Idx) :
    i ∈ ((cfg0.win 8).blk t).view.set ↔ ∀ a : Fin 3, win0_8.index t a * S1x2048x64.size a ≤ (i a).val ∧ (i a).val < win0_8.index t a * S1x2048x64.size a + S1x2048x64.size a := by
  show i ∈ ((View.whole main_v0_2).slice (win0_8.rect t)).set ↔ _
  rw [View.set_slice_whole, Rect.mem_set_unit]
  exact Iff.rfl

/-- The blocks tile the values' array. -/
theorem coverV (i : S4x4096x64.Idx) : ∃ t : Fin cfg0.N, (cfg0.win 8).flush t = true ∧ i ∈ ((cfg0.win 8).blk t).view.set := by
  have hi0 : (i 0).val < 4 := (i 0).isLt
  have hi1 : (i 1).val < 4096 := (i 1).isLt
  have hi2 : (i 2).val < 64 := (i 2).isLt
  obtain ⟨t, ht⟩ := idx_ontoV ⟨(i 0).val, hi0⟩ ⟨(i 1).val / 2048, by omega⟩
  have q0 : win0_8.index t (0 : Fin 3) = (i 0).val := congrFun ht 0
  have q1 : win0_8.index t (1 : Fin 3) = (i 1).val / 2048 := congrFun ht 1
  have q2 : win0_8.index t (2 : Fin 3) = 0 := congrFun ht 2
  refine ⟨t, flush0_8 t, ?_⟩
  rw [mem_blkV]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 2048 ≤ (i 1).val ∧ (i 1).val < win0_8.index t (1 : Fin 3) * 2048 + 2048; omega
  | ⟨2, _⟩ => show win0_8.index t (2 : Fin 3) * 64 ≤ (i 2).val ∧ (i 2).val < win0_8.index t (2 : Fin 3) * 64 + 64; omega

/-- The projected queries: the array the query-input rows (argument 2) and the query weights (argument 3) give. -/
theorem arrQ (x : S4x4096x256.Idx → EReal) (w : S256x64.Idx → EReal) (hx : V c main_arg2 = x) (hw : V c main_arg3 = w)
    (fx : Cert.Spec.Finite (S := Cert.Spec.SX) x) (fw : Cert.Spec.Finite (S := Cert.Spec.SW) w) :
    (dat0 (F := Ideal) V c).arrAt (6 : Fin 9) cfg0.N
      = fun i : S4x4096x64.Idx => ((Cert.Spec.projR (Cert.Spec.re (S := Cert.Spec.SX) x) (Cert.Spec.re (S := Cert.Spec.SW) w) (i 0) (i 1) (i 2) : ℝ) : EReal) := by
  exact (dat0 (F := Ideal) V c).arrAt_eq_of_cover 6 (projE x w) (fun t _ => flushedQ_eq V c x w hx hw fx fw t) coverQ

/-- The projected keys: from the key-input rows (argument 0) and the key weights (argument 4). -/
theorem arrK (x : S4x4096x256.Idx → EReal) (w : S256x64.Idx → EReal) (hx : V c main_arg0 = x) (hw : V c main_arg4 = w)
    (fx : Cert.Spec.Finite (S := Cert.Spec.SX) x) (fw : Cert.Spec.Finite (S := Cert.Spec.SW) w) :
    (dat0 (F := Ideal) V c).arrAt (7 : Fin 9) cfg0.N
      = fun i : S4x4096x64.Idx => ((Cert.Spec.projR (Cert.Spec.re (S := Cert.Spec.SX) x) (Cert.Spec.re (S := Cert.Spec.SW) w) (i 0) (i 1) (i 2) : ℝ) : EReal) := by
  exact (dat0 (F := Ideal) V c).arrAt_eq_of_cover 7 (projE x w) (fun t _ => flushedK_eq V c x w hx hw fx fw t) coverK

/-- The projected values: from the value-input rows (argument 1) and the value weights (argument 5). -/
theorem arrV (x : S4x4096x256.Idx → EReal) (w : S256x64.Idx → EReal) (hx : V c main_arg1 = x) (hw : V c main_arg5 = w)
    (fx : Cert.Spec.Finite (S := Cert.Spec.SX) x) (fw : Cert.Spec.Finite (S := Cert.Spec.SW) w) :
    (dat0 (F := Ideal) V c).arrAt (8 : Fin 9) cfg0.N
      = fun i : S4x4096x64.Idx => ((Cert.Spec.projR (Cert.Spec.re (S := Cert.Spec.SX) x) (Cert.Spec.re (S := Cert.Spec.SW) w) (i 0) (i 1) (i 2) : ℝ) : EReal) := by
  exact (dat0 (F := Ideal) V c).arrAt_eq_of_cover 8 (projE x w) (fun t _ => flushedV_eq V c x w hx hw fx fw t) coverV

end Cert.KernelIdeal.R0V

end
-- ==== Proof.R1Pieces.lean ====
/-
  What one run of the attention body leaves in the carried buffers and in the output buffer, as the body's own
  arithmetic applied to what it loaded: for each of the four kinds of grid step (first or later tile of a query tile's run;
  diagonal tile or a tile below it), each carried buffer read back as a vector is the corresponding update of the
  running shift, denominator and numerator, and the stored output block is the numerator over the denominator.
-/
import proofs.«402334_j1417339207762_3_alg».proof.Proof.Gen.KernelIdeal.Launch
import proofs.«402334_j1417339207762_3_alg».proof.Proof.Gen.KernelIdeal.Skeleton
import proofs.«402334_j1417339207762_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic
import Idealize.ShloMosaic.Lib.Writes
import Idealize.ShloMosaic.Lib.Exec
import Idealize.ShloMosaic.Lib.Pipeline.Value
import proofs.«402334_j1417339207762_3_alg».proof.Proof.R1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- A carried buffer's contents read as a vector. -/
abbrev rdM {c : Dev nD} (sm : Buf (Elt F) ((c : Thread nD τ).loc cc1_scratch0)) : Vec F S1024x1 .f32 := scM.view.read (Elt F) sm
abbrev rdL {c : Dev nD} (sl : Buf (Elt F) ((c : Thread nD τ).loc cc1_scratch1)) : Vec F S1024x1 .f32 := scL.view.read (Elt F) sl
abbrev rdA {c : Dev nD} (sa : Buf (Elt F) ((c : Thread nD τ).loc cc1_scratch2)) : Vec F S1024x64 .f32 := scA.view.read (Elt F) sa

/-- One staging buffer of the output window, through which a stored block's contents are stated. -/
abbrev VOut : View sig .tc .vmem S1x1024x64 .f32 := (Memref.whole cc1_stg3_0 : Memref sig .tc .vmem S1x1024x64 .f32).view
/-- What a list of stored pieces leaves in the output buffer, read back. -/
def outRd (L : List (View.Piece (Elt F) S1x1024x64 .f32)) : S1x1024x64.Idx → Elt F .f32 :=
  VOut.read (Elt F) (VOut.writes (Elt F) VOut.junk L)

/-- The zero offsets of a rank-2 and of a rank-3 whole-buffer rectangle, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-! ## A first, diagonal step -/

theorem runA_m (c : Dev nD) (i : grid1.Coords)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .f32) (harg7 : arg7.IsWhole)
    (T0 T1 : S10.Idx → Elt F .i32) (xq xk xv : S1x1024x64.Idx → Elt F .bf16)
    (h6 : ((Scalar.cmpi .ne (Scalar.extui (Scalar.cmpi .eq (View.readAt (Elt F) tbK.view (Rect.unit (s := S10) (k1_off1 i) S1.size (k1_off1_inb i)).toLoadRect T1 (Shape.Idx.first (numel1_S1.symm ▸ Nat.one_pos))) 0#32)) 0#32) = 1#1))
    (h4 : (k1_cond4 (View.readAt (Elt F) tbQ.view (Rect.unit (s := S10) (k1_off1 i) S1.size (k1_off1_inb i)).toLoadRect T0 (Shape.Idx.first (numel1_S1.symm ▸ Nat.one_pos))) (View.readAt (Elt F) tbK.view (Rect.unit (s := S10) (k1_off1 i) S1.size (k1_off1_inb i)).toLoadRect T1 (Shape.Idx.first (numel1_S1.symm ▸ Nat.one_pos))) = 1#1))
    (h16 : ¬((Scalar.cmpi .ne (Scalar.extui (Scalar.xori (Scalar.cmpi .eq (View.readAt (Elt F) tbK.view (Rect.unit (s := S10) (k1_off1 i) S1.size (k1_off1_inb i)).toLoadRect T1 (Shape.Idx.first (numel1_S1.symm ▸ Nat.one_pos))) (View.readAt (Elt F) tbQ.view (Rect.unit (s := S10) (k1_off1 i) S1.size (k1_off1_inb i)).toLoadRect T0 (Shape.Idx.first (numel1_S1.symm ▸ Nat.one_pos)))) 1#1)) 0#32) = 1#1)) :
    rdM (runA c i arg4 harg4 arg5 harg5 arg6 harg6 arg7 harg7 T0 T1 xq xk xv h6 h4 h16).2.1 = k1_pay6 (k1_pay10 (k1_pay4 xq) xk (k1_pay1 (F := F))) := by
  unfold runA
  dsimp only
  sl_unfold_words
  refine (View.read_writes_junk_eq_canon _ _).trans ?_
  rw [View.canon_cons_unit_zero hz2]
  unfold k1_pay10 k1_pay9
  simp only [View.readAt_eq_ld, View.read_rep, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
theorem runA_l (c : Dev nD) (i : grid1.Coords)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .f32) (harg7 : arg7.IsWhole)
    (T0 T1 : S10.Idx → Elt F .i32) (xq xk xv : S1x1024x64.Idx → Elt F .bf16)
    (h6 : ((Scalar.cmpi .ne (Scalar.extui (Scalar.cmpi .eq (View.readAt (Elt F) tbK.view (Rect.unit (s := S10) (k1_off1 i) S1.size (k1_off1_inb i)).toLoadRect T1 (Shape.Idx.first (numel1_S1.symm ▸ Nat.one_pos))) 0#32)) 0#32) = 1#1))
    (h4 : (k1_cond4 (View.readAt (Elt F) tbQ.view (Rect.unit (s := S10) (k1_off1 i) S1.size (k1_off1_inb i)).toLoadRect T0 (Shape.Idx.first (numel1_S1.symm ▸ Nat.one_pos))) (View.readAt (Elt F) tbK.view (Rect.unit (s := S10) (k1_off1 i) S1.size (k1_off1_inb i)).toLoadRect T1 (Shape.Idx.first (numel1_S1.symm ▸ Nat.one_pos))) = 1#1))
    (h16 : ¬((Scalar.cmpi .ne (Scalar.extui (Scalar.xori (Scalar.cmpi .eq (View.readAt (Elt F) tbK.view (Rect.unit (s := S10) (k1_off1 i) S1.size (k1_off1_inb i)).toLoadRect T1 (Shape.Idx.first (numel1_S1.symm ▸ Nat.one_pos))) (View.readAt (Elt F) tbQ.view (Rect.unit (s := S10) (k1_off1 i) S1.size (k1_off1_inb i)).toLoadRect T0 (Shape.Idx.first (numel1_S1.symm ▸ Nat.one_pos)))) 1#1)) 0#32) = 1#1)) :
    rdL (runA c i arg4 harg4 arg5 harg5 arg6 harg6 arg7 harg7 T0 T1 xq xk xv h6 h4 h16).2.2.1 = k1_pay13 (k1_pay4 xq) xk (k1_pay1 (F := F)) (k1_pay1 (F := F)) (k1_pay2 (F := F)) := by
  unfold runA
  dsimp only
  sl_unfold_words
  refine (View.read_writes_junk_eq_canon _ _).trans ?_
  rw [View.canon_cons_unit_zero hz2]
  unfold k1_pay13 k1_pay11 k1_pay12 k1_pay10 k1_pay9
  simp only [View.readAt_eq_ld, View.read_rep, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
theorem runA_a (c : Dev nD) (i : grid1.Coords)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .f32) (harg7 : arg7.IsWhole)
    (T0 T1 : S10.Idx → Elt F .i32) (xq xk xv : S1x1024x64.Idx → Elt F .bf16)
    (h6 : ((Scalar.cmpi .ne (Scalar.extui (Scalar.cmpi .eq (View.readAt (Elt F) tbK.view (Rect.unit (s := S10) (k1_off1 i) S1.size (k1_off1_inb i)).toLoadRect T1 (Shape.Idx.first (numel1_S1.symm ▸ Nat.one_pos))) 0#32)) 0#32) = 1#1))
    (h4 : (k1_cond4 (View.readAt (Elt F) tbQ.view (Rect.unit (s := S10) (k1_off1 i) S1.size (k1_off1_inb i)).toLoadRect T0 (Shape.Idx.first (numel1_S1.symm ▸ Nat.one_pos))) (View.readAt (Elt F) tbK.view (Rect.unit (s := S10) (k1_off1 i) S1.size (k1_off1_inb i)).toLoadRect T1 (Shape.Idx.first (numel1_S1.symm ▸ Nat.one_pos))) = 1#1))
    (h16 : ¬((Scalar.cmpi .ne (Scalar.extui (Scalar.xori (Scalar.cmpi .eq (View.readAt (Elt F) tbK.view (Rect.unit (s := S10) (k1_off1 i) S1.size (k1_off1_inb i)).toLoadRect T1 (Shape.Idx.first (numel1_S1.symm ▸ Nat.one_pos))) (View.readAt (Elt F) tbQ.view (Rect.unit (s := S10) (k1_off1 i) S1.size (k1_off1_inb i)).toLoadRect T0 (Shape.Idx.first (numel1_S1.symm ▸ Nat.one_pos)))) 1#1)) 0#32) = 1#1)) :
    rdA (runA c i arg4 harg4 arg5 harg5 arg6 harg6 arg7 harg7 T0 T1 xq xk xv h6 h4 h16).2.2.2.1 = k1_pay5 (k1_pay14 (k1_pay4 xq) xk (k1_pay1 (F := F)) (k1_pay1 (F := F)) (k1_pay3 (F := F)) xv) := by
  unfold runA
  dsimp only
  sl_unfold_words
  refine (View.read_writes_junk_eq_canon _ _).trans ?_
  rw [View.canon_cons_unit_zero hz2]
  unfold k1_pay14 k1_pay11 k1_pay12 k1_pay10 k1_pay9
  simp only [View.readAt_eq_ld, View.read_rep, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
theorem runA_o (c : Dev nD) (i : grid1.Coords)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .f32) (harg7 : arg7.IsWhole)
    (T0 T1 : S10.Idx → Elt F .i32) (xq xk xv : S1x1024x64.Idx → Elt F .bf16)
    (h6 : ((Scalar.cmpi .ne (Scalar.extui (Scalar.cmpi .eq (View.readAt (Elt F) tbK.view (Rect.unit (s := S10) (k1_off1 i) S1.size (k1_off1_inb i)).toLoadRect T1 (Shape.Idx.first (numel1_S1.symm ▸ Nat.one_pos))) 0#32)) 0#32) = 1#1))
    (h4 : (k1_cond4 (View.readAt (Elt F) tbQ.view (Rect.unit (s := S10) (k1_off1 i) S1.size (k1_off1_inb i)).toLoadRect T0 (Shape.Idx.first (numel1_S1.symm ▸ Nat.one_pos))) (View.readAt (Elt F) tbK.view (Rect.unit (s := S10) (k1_off1 i) S1.size (k1_off1_inb i)).toLoadRect T1 (Shape.Idx.first (numel1_S1.symm ▸ Nat.one_pos))) = 1#1))
    (h16 : ¬((Scalar.cmpi .ne (Scalar.extui (Scalar.xori (Scalar.cmpi .eq (View.readAt (Elt F) tbK.view (Rect.unit (s := S10) (k1_off1 i) S1.size (k1_off1_inb i)).toLoadRect T1 (Shape.Idx.first (numel1_S1.symm ▸ Nat.one_pos))) (View.readAt (Elt F) tbQ.view (Rect.unit (s := S10) (k1_off1 i) S1.size (k1_off1_inb i)).toLoadRect T0 (Shape.Idx.first (numel1_S1.symm ▸ Nat.one_pos)))) 1#1)) 0#32) = 1#1)) :
    outRd (runA c i arg4 harg4 arg5 harg5 arg6 harg6 arg7 harg7 T0 T1 xq xk xv h6 h4 h16).1 = k1_pay8 (rdA (runA c i arg4 harg4 arg5 harg5 arg6 harg6 arg7 harg7 T0 T1 xq xk xv h6 h4 h16).2.2.2.1) (rdL (runA c i arg4 harg4 arg5 harg5 arg6 harg6 arg7 harg7 T0 T1 xq xk xv h6 h4 h16).2.2.1) := by
  unfold outRd runA
  dsimp only
  sl_unfold_words
  refine (View.read_writes_junk_eq_canon _ _).trans ?_
  rw [View.canon_unit_zero hz3]
  simp only [View.readCov, View.readAt_eq_ld, View.ld_unit_zero (S := S1024x1) hz2, View.ld_unit_zero (S := S1024x64) hz2]

/-! ## A first step below the diagonal -/

theorem runB_m (c : Dev nD) (i : grid1.Coords)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .f32) (harg7 : arg7.IsWhole)
    (T0 T1 : S10.Idx → Elt F .i32) (xq xk xv : S1x1024x64.Idx → Elt F .bf16)
    (h6 : ((Scalar.cmpi .ne (Scalar.extui (Scalar.cmpi .eq (View.readAt (Elt F) tbK.view (Rect.unit (s := S10) (k1_off1 i) S1.size (k1_off1_inb i)).toLoadRect T1 (Shape.Idx.first (numel1_S1.symm ▸ Nat.one_pos))) 0#32)) 0#32) = 1#1))
    (h4 : ¬(k1_cond4 (View.readAt (Elt F) tbQ.view (Rect.unit (s := S10) (k1_off1 i) S1.size (k1_off1_inb i)).toLoadRect T0 (Shape.Idx.first (numel1_S1.symm ▸ Nat.one_pos))) (View.readAt (Elt F) tbK.view (Rect.unit (s := S10) (k1_off1 i) S1.size (k1_off1_inb i)).toLoadRect T1 (Shape.Idx.first (numel1_S1.symm ▸ Nat.one_pos))) = 1#1))
    (h16 : ((Scalar.cmpi .ne (Scalar.extui (Scalar.xori (Scalar.cmpi .eq (View.readAt (Elt F) tbK.view (Rect.unit (s := S10) (k1_off1 i) S1.size (k1_off1_inb i)).toLoadRect T1 (Shape.Idx.first (numel1_S1.symm ▸ Nat.one_pos))) (View.readAt (Elt F) tbQ.view (Rect.unit (s := S10) (k1_off1 i) S1.size (k1_off1_inb i)).toLoadRect T0 (Shape.Idx.first (numel1_S1.symm ▸ Nat.one_pos)))) 1#1)) 0#32) = 1#1)) :
    rdM (runB c i arg4 harg4 arg5 harg5 arg6 harg6 arg7 harg7 T0 T1 xq xk xv h6 h4 h16).1 = k1_pay7 (k1_pay16 (k1_pay4 xq) xk (k1_pay1 (F := F))) := by
  unfold runB
  dsimp only
  sl_unfold_words
  refine (View.read_writes_junk_eq_canon _ _).trans ?_
  rw [View.canon_cons_unit_zero hz2]
  unfold k1_pay16 k1_pay15
  simp only [View.readAt_eq_ld, View.read_rep, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
theorem runB_l (c : Dev nD) (i : grid1.Coords)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .f32) (harg7 : arg7.IsWhole)
    (T0 T1 : S10.Idx → Elt F .i32) (xq xk xv : S1x1024x64.Idx → Elt F .bf16)
    (h6 : ((Scalar.cmpi .ne (Scalar.extui (Scalar.cmpi .eq (View.readAt (Elt F) tbK.view (Rect.unit (s := S10) (k1_off1 i) S1.size (k1_off1_inb i)).toLoadRect T1 (Shape.Idx.first (numel1_S1.symm ▸ Nat.one_pos))) 0#32)) 0#32) = 1#1))
    (h4 : ¬(k1_cond4 (View.readAt (Elt F) tbQ.view (Rect.unit (s := S10) (k1_off1 i) S1.size (k1_off1_inb i)).toLoadRect T0 (Shape.Idx.first (numel1_S1.symm ▸ Nat.one_pos))) (View.readAt (Elt F) tbK.view (Rect.unit (s := S10) (k1_off1 i) S1.size (k1_off1_inb i)).toLoadRect T1 (Shape.Idx.first (numel1_S1.symm ▸ Nat.one_pos))) = 1#1))
    (h16 : ((Scalar.cmpi .ne (Scalar.extui (Scalar.xori (Scalar.cmpi .eq (View.readAt (Elt F) tbK.view (Rect.unit (s := S10) (k1_off1 i) S1.size (k1_off1_inb i)).toLoadRect T1 (Shape.Idx.first (numel1_S1.symm ▸ Nat.one_pos))) (View.readAt (Elt F) tbQ.view (Rect.unit (s := S10) (k1_off1 i) S1.size (k1_off1_inb i)).toLoadRect T0 (Shape.Idx.first (numel1_S1.symm ▸ Nat.one_pos)))) 1#1)) 0#32) = 1#1)) :
    rdL (runB c i arg4 harg4 arg5 harg5 arg6 harg6 arg7 harg7 T0 T1 xq xk xv h6 h4 h16).2.1 = k1_pay19 (k1_pay4 xq) xk (k1_pay1 (F := F)) (k1_pay1 (F := F)) (k1_pay2 (F := F)) := by
  unfold runB
  dsimp only
  sl_unfold_words
  refine (View.read_writes_junk_eq_canon _ _).trans ?_
  rw [View.canon_cons_unit_zero hz2]
  unfold k1_pay19 k1_pay17 k1_pay18 k1_pay16 k1_pay15
  simp only [View.readAt_eq_ld, View.read_rep, View.ld_unit_zero (S := S1024x1) hz2, View.ld_unit_zero (S := S1024x64) hz2, View.ld_unit_zero (S := S1x1024x64) hz3, View.readCov_unit_zero (S := S1024x1) _ hz2, View.readCov_unit_zero (S := S1024x64) _ hz2]
theorem runB_a (c : Dev nD) (i : grid1.Coords)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .f32) (harg7 : arg7.IsWhole)
    (T0 T1 : S10.Idx → Elt F .i32) (xq xk xv : S1x1024x64.Idx → Elt F .bf16)
    (h6 : ((Scalar.cmpi .ne (Scalar.extui (Scalar.cmpi .eq (View.readAt (Elt F) tbK.view (Rect.unit (s := S10) (k1_off1 i) S1.size (k1_off1_inb i)).toLoadRect T1 (Shape.Idx.first (numel1_S1.symm ▸ Nat.one_pos))) 0#32)) 0#32) = 1#1))
    (h4 : ¬(k1_cond4 (View.readAt (Elt F) tbQ.view (Rect.unit (s := S10) (k1_off1 i) S1.size (k1_off1_inb i)).toLoadRect T0 (Shape.Idx.first (numel1_S1.symm ▸ Nat.one_pos))) (View.readAt (Elt F) tbK.view (Rect.unit (s := S10) (k1_off1 i) S1.size (k1_off1_inb i)).toLoadRect T1 (Shape.Idx.first (numel1_S1.symm ▸ Nat.one_pos))) = 1#1))
    (h16 : ((Scalar.cmpi .ne (Scalar.extui (Scalar.xori (Scalar.cmpi .eq (View.readAt (Elt F) tbK.view (Rect.unit (s := S10) (k1_off1 i) S1.size (k1_off1_inb i)).toLoadRect T1 (Shape.Idx.first (numel1_S1.symm ▸ Nat.one_pos))) (View.readAt (Elt F) tbQ.view (Rect.unit (s := S10) (k1_off1 i) S1.size (k1_off1_inb i)).toLoadRect T0 (Shape.Idx.first (numel1_S1.symm ▸ Nat.one_pos)))) 1#1)) 0#32) = 1#1)) :
    rdA (runB c i arg4 harg4 arg5 harg5 arg6 harg6 arg7 harg7 T0 T1 xq xk xv h6 h4 h16).2.2.1 = k1_pay20 (k1_pay4 xq) xk (k1_pay1 (F := F)) (k1_pay1 (F := F)) (k1_pay3 (F := F)) xv := by
  unfold runB
  dsimp only
  sl_unfold_words
  refine (View.read_writes_junk_eq_canon _ _).trans ?_
  rw [View.canon_cons_unit_zero hz2]
  unfold k1_pay20 k1_pay17 k1_pay18 k1_pay16 k1_pay15
  simp only [View.readAt_eq_ld, View.read_rep, View.ld_unit_zero (S := S1024x1) hz2, View.ld_unit_zero (S := S1024x64) hz2, View.ld_unit_zero (S := S1x1024x64) hz3, View.readCov_unit_zero (S := S1024x1) _ hz2, View.readCov_unit_zero (S := S1024x64) _ hz2]

/-! ## A later step below the diagonal -/

theorem runC_m (c : Dev nD) (i : grid1.Coords)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .f32) (harg7 : arg7.IsWhole)
    (T0 T1 : S10.Idx → Elt F .i32) (xq xk xv : S1x1024x64.Idx → Elt F .bf16) (sm : Buf (Elt F) ((c : Thread nD τ).loc cc1_scratch0)) (sl : Buf (Elt F) ((c : Thread nD τ).loc cc1_scratch1)) (sa : Buf (Elt F) ((c : Thread nD τ).loc cc1_scratch2))
    (h6 : ¬((Scalar.cmpi .ne (Scalar.extui (Scalar.cmpi .eq (View.readAt (Elt F) tbK.view (Rect.unit (s := S10) (k1_off1 i) S1.size (k1_off1_inb i)).toLoadRect T1 (Shape.Idx.first (numel1_S1.symm ▸ Nat.one_pos))) 0#32)) 0#32) = 1#1))
    (h4 : ¬(k1_cond4 (View.readAt (Elt F) tbQ.view (Rect.unit (s := S10) (k1_off1 i) S1.size (k1_off1_inb i)).toLoadRect T0 (Shape.Idx.first (numel1_S1.symm ▸ Nat.one_pos))) (View.readAt (Elt F) tbK.view (Rect.unit (s := S10) (k1_off1 i) S1.size (k1_off1_inb i)).toLoadRect T1 (Shape.Idx.first (numel1_S1.symm ▸ Nat.one_pos))) = 1#1))
    (h16 : ((Scalar.cmpi .ne (Scalar.extui (Scalar.xori (Scalar.cmpi .eq (View.readAt (Elt F) tbK.view (Rect.unit (s := S10) (k1_off1 i) S1.size (k1_off1_inb i)).toLoadRect T1 (Shape.Idx.first (numel1_S1.symm ▸ Nat.one_pos))) (View.readAt (Elt F) tbQ.view (Rect.unit (s := S10) (k1_off1 i) S1.size (k1_off1_inb i)).toLoadRect T0 (Shape.Idx.first (numel1_S1.symm ▸ Nat.one_pos)))) 1#1)) 0#32) = 1#1)) :
    rdM (runC c i arg4 harg4 arg5 harg5 arg6 harg6 arg7 harg7 T0 T1 xq xk xv sm sl sa h6 h4 h16).1 = k1_pay7 (k1_pay16 (k1_pay4 xq) xk (rdM sm)) := by
  unfold runC
  dsimp only
  sl_unfold_words
  refine (View.read_writes_junk_eq_canon _ _).trans ?_
  rw [View.canon_unit_zero hz2]
  unfold k1_pay16 k1_pay15
  simp only [View.readAt_eq_ld, View.read_rep, View.ld_unit_zero (S := S1024x1) hz2, View.ld_unit_zero (S := S1024x64) hz2, View.ld_unit_zero (S := S1x1024x64) hz3]
theorem runC_l (c : Dev nD) (i : grid1.Coords)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .f32) (harg7 : arg7.IsWhole)
    (T0 T1 : S10.Idx → Elt F .i32) (xq xk xv : S1x1024x64.Idx → Elt F .bf16) (sm : Buf (Elt F) ((c : Thread nD τ).loc cc1_scratch0)) (sl : Buf (Elt F) ((c : Thread nD τ).loc cc1_scratch1)) (sa : Buf (Elt F) ((c : Thread nD τ).loc cc1_scratch2))
    (h6 : ¬((Scalar.cmpi .ne (Scalar.extui (Scalar.cmpi .eq (View.readAt (Elt F) tbK.view (Rect.unit (s := S10) (k1_off1 i) S1.size (k1_off1_inb i)).toLoadRect T1 (Shape.Idx.first (numel1_S1.symm ▸ Nat.one_pos))) 0#32)) 0#32) = 1#1))
    (h4 : ¬(k1_cond4 (View.readAt (Elt F) tbQ.view (Rect.unit (s := S10) (k1_off1 i) S1.size (k1_off1_inb i)).toLoadRect T0 (Shape.Idx.first (numel1_S1.symm ▸ Nat.one_pos))) (View.readAt (Elt F) tbK.view (Rect.unit (s := S10) (k1_off1 i) S1.size (k1_off1_inb i)).toLoadRect T1 (Shape.Idx.first (numel1_S1.symm ▸ Nat.one_pos))) = 1#1))
    (h16 : ((Scalar.cmpi .ne (Scalar.extui (Scalar.xori (Scalar.cmpi .eq (View.readAt (Elt F) tbK.view (Rect.unit (s := S10) (k1_off1 i) S1.size (k1_off1_inb i)).toLoadRect T1 (Shape.Idx.first (numel1_S1.symm ▸ Nat.one_pos))) (View.readAt (Elt F) tbQ.view (Rect.unit (s := S10) (k1_off1 i) S1.size (k1_off1_inb i)).toLoadRect T0 (Shape.Idx.first (numel1_S1.symm ▸ Nat.one_pos)))) 1#1)) 0#32) = 1#1)) :
    rdL (runC c i arg4 harg4 arg5 harg5 arg6 harg6 arg7 harg7 T0 T1 xq xk xv sm sl sa h6 h4 h16).2.1 = k1_pay19 (k1_pay4 xq) xk (rdM sm) (rdM sm) (rdL sl) := by
  unfold runC
  dsimp only
  sl_unfold_words
  refine (View.read_writes_junk_eq_canon _ _).trans ?_
  rw [View.canon_unit_zero hz2]
  unfold k1_pay19 k1_pay17 k1_pay18 k1_pay16 k1_pay15
  simp only [View.readAt_eq_ld, View.read_rep, View.ld_unit_zero (S := S1024x1) hz2, View.ld_unit_zero (S := S1024x64) hz2, View.ld_unit_zero (S := S1x1024x64) hz3]
theorem runC_a (c : Dev nD) (i : grid1.Coords)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .f32) (harg7 : arg7.IsWhole)
    (T0 T1 : S10.Idx → Elt F .i32) (xq xk xv : S1x1024x64.Idx → Elt F .bf16) (sm : Buf (Elt F) ((c : Thread nD τ).loc cc1_scratch0)) (sl : Buf (Elt F) ((c : Thread nD τ).loc cc1_scratch1)) (sa : Buf (Elt F) ((c : Thread nD τ).loc cc1_scratch2))
    (h6 : ¬((Scalar.cmpi .ne (Scalar.extui (Scalar.cmpi .eq (View.readAt (Elt F) tbK.view (Rect.unit (s := S10) (k1_off1 i) S1.size (k1_off1_inb i)).toLoadRect T1 (Shape.Idx.first (numel1_S1.symm ▸ Nat.one_pos))) 0#32)) 0#32) = 1#1))
    (h4 : ¬(k1_cond4 (View.readAt (Elt F) tbQ.view (Rect.unit (s := S10) (k1_off1 i) S1.size (k1_off1_inb i)).toLoadRect T0 (Shape.Idx.first (numel1_S1.symm ▸ Nat.one_pos))) (View.readAt (Elt F) tbK.view (Rect.unit (s := S10) (k1_off1 i) S1.size (k1_off1_inb i)).toLoadRect T1 (Shape.Idx.first (numel1_S1.symm ▸ Nat.one_pos))) = 1#1))
    (h16 : ((Scalar.cmpi .ne (Scalar.extui (Scalar.xori (Scalar.cmpi .eq (View.readAt (Elt F) tbK.view (Rect.unit (s := S10) (k1_off1 i) S1.size (k1_off1_inb i)).toLoadRect T1 (Shape.Idx.first (numel1_S1.symm ▸ Nat.one_pos))) (View.readAt (Elt F) tbQ.view (Rect.unit (s := S10) (k1_off1 i) S1.size (k1_off1_inb i)).toLoadRect T0 (Shape.Idx.first (numel1_S1.symm ▸ Nat.one_pos)))) 1#1)) 0#32) = 1#1)) :
    rdA (runC c i arg4 harg4 arg5 harg5 arg6 harg6 arg7 harg7 T0 T1 xq xk xv sm sl sa h6 h4 h16).2.2.1 = k1_pay20 (k1_pay4 xq) xk (rdM sm) (rdM sm) (rdA sa) xv := by
  unfold runC
  dsimp only
  sl_unfold_words
  refine (View.read_writes_junk_eq_canon _ _).trans ?_
  rw [View.canon_unit_zero hz2]
  unfold k1_pay20 k1_pay17 k1_pay18 k1_pay16 k1_pay15
  simp only [View.readAt_eq_ld, View.read_rep, View.ld_unit_zero (S := S1024x1) hz2, View.ld_unit_zero (S := S1024x64) hz2, View.ld_unit_zero (S := S1x1024x64) hz3]

/-! ## A later, diagonal step -/

theorem runD_m (c : Dev nD) (i : grid1.Coords)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .f32) (harg7 : arg7.IsWhole)
    (T0 T1 : S10.Idx → Elt F .i32) (xq xk xv : S1x1024x64.Idx → Elt F .bf16) (sm : Buf (Elt F) ((c : Thread nD τ).loc cc1_scratch0)) (sl : Buf (Elt F) ((c : Thread nD τ).loc cc1_scratch1)) (sa : Buf (Elt F) ((c : Thread nD τ).loc cc1_scratch2))
    (h6 : ¬((Scalar.cmpi .ne (Scalar.extui (Scalar.cmpi .eq (View.readAt (Elt F) tbK.view (Rect.unit (s := S10) (k1_off1 i) S1.size (k1_off1_inb i)).toLoadRect T1 (Shape.Idx.first (numel1_S1.symm ▸ Nat.one_pos))) 0#32)) 0#32) = 1#1))
    (h4 : (k1_cond4 (View.readAt (Elt F) tbQ.view (Rect.unit (s := S10) (k1_off1 i) S1.size (k1_off1_inb i)).toLoadRect T0 (Shape.Idx.first (numel1_S1.symm ▸ Nat.one_pos))) (View.readAt (Elt F) tbK.view (Rect.unit (s := S10) (k1_off1 i) S1.size (k1_off1_inb i)).toLoadRect T1 (Shape.Idx.first (numel1_S1.symm ▸ Nat.one_pos))) = 1#1))
    (h16 : ¬((Scalar.cmpi .ne (Scalar.extui (Scalar.xori (Scalar.cmpi .eq (View.readAt (Elt F) tbK.view (Rect.unit (s := S10) (k1_off1 i) S1.size (k1_off1_inb i)).toLoadRect T1 (Shape.Idx.first (numel1_S1.symm ▸ Nat.one_pos))) (View.readAt (Elt F) tbQ.view (Rect.unit (s := S10) (k1_off1 i) S1.size (k1_off1_inb i)).toLoadRect T0 (Shape.Idx.first (numel1_S1.symm ▸ Nat.one_pos)))) 1#1)) 0#32) = 1#1)) :
    rdM (runD c i arg4 harg4 arg5 harg5 arg6 harg6 arg7 harg7 T0 T1 xq xk xv sm sl sa h6 h4 h16).2.1 = k1_pay6 (k1_pay10 (k1_pay4 xq) xk (rdM sm)) := by
  unfold runD
  dsimp only
  sl_unfold_words
  refine (View.read_writes_junk_eq_canon _ _).trans ?_
  rw [View.canon_unit_zero hz2]
  unfold k1_pay10 k1_pay9
  simp only [View.readAt_eq_ld, View.read_rep, View.ld_unit_zero (S := S1024x1) hz2, View.ld_unit_zero (S := S1024x64) hz2, View.ld_unit_zero (S := S1x1024x64) hz3]
theorem runD_l (c : Dev nD) (i : grid1.Coords)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .f32) (harg7 : arg7.IsWhole)
    (T0 T1 : S10.Idx → Elt F .i32) (xq xk xv : S1x1024x64.Idx → Elt F .bf16) (sm : Buf (Elt F) ((c : Thread nD τ).loc cc1_scratch0)) (sl : Buf (Elt F) ((c : Thread nD τ).loc cc1_scratch1)) (sa : Buf (Elt F) ((c : Thread nD τ).loc cc1_scratch2))
    (h6 : ¬((Scalar.cmpi .ne (Scalar.extui (Scalar.cmpi .eq (View.readAt (Elt F) tbK.view (Rect.unit (s := S10) (k1_off1 i) S1.size (k1_off1_inb i)).toLoadRect T1 (Shape.Idx.first (numel1_S1.symm ▸ Nat.one_pos))) 0#32)) 0#32) = 1#1))
    (h4 : (k1_cond4 (View.readAt (Elt F) tbQ.view (Rect.unit (s := S10) (k1_off1 i) S1.size (k1_off1_inb i)).toLoadRect T0 (Shape.Idx.first (numel1_S1.symm ▸ Nat.one_pos))) (View.readAt (Elt F) tbK.view (Rect.unit (s := S10) (k1_off1 i) S1.size (k1_off1_inb i)).toLoadRect T1 (Shape.Idx.first (numel1_S1.symm ▸ Nat.one_pos))) = 1#1))
    (h16 : ¬((Scalar.cmpi .ne (Scalar.extui (Scalar.xori (Scalar.cmpi .eq (View.readAt (Elt F) tbK.view (Rect.unit (s := S10) (k1_off1 i) S1.size (k1_off1_inb i)).toLoadRect T1 (Shape.Idx.first (numel1_S1.symm ▸ Nat.one_pos))) (View.readAt (Elt F) tbQ.view (Rect.unit (s := S10) (k1_off1 i) S1.size (k1_off1_inb i)).toLoadRect T0 (Shape.Idx.first (numel1_S1.symm ▸ Nat.one_pos)))) 1#1)) 0#32) = 1#1)) :
    rdL (runD c i arg4 harg4 arg5 harg5 arg6 harg6 arg7 harg7 T0 T1 xq xk xv sm sl sa h6 h4 h16).2.2.1 = k1_pay13 (k1_pay4 xq) xk (rdM sm) (rdM sm) (rdL sl) := by
  unfold runD
  dsimp only
  sl_unfold_words
  refine (View.read_writes_junk_eq_canon _ _).trans ?_
  rw [View.canon_unit_zero hz2]
  unfold k1_pay13 k1_pay11 k1_pay12 k1_pay10 k1_pay9
  simp only [View.readAt_eq_ld, View.read_rep, View.ld_unit_zero (S := S1024x1) hz2, View.ld_unit_zero (S := S1024x64) hz2, View.ld_unit_zero (S := S1x1024x64) hz3]
theorem runD_a (c : Dev nD) (i : grid1.Coords)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .f32) (harg7 : arg7.IsWhole)
    (T0 T1 : S10.Idx → Elt F .i32) (xq xk xv : S1x1024x64.Idx → Elt F .bf16) (sm : Buf (Elt F) ((c : Thread nD τ).loc cc1_scratch0)) (sl : Buf (Elt F) ((c : Thread nD τ).loc cc1_scratch1)) (sa : Buf (Elt F) ((c : Thread nD τ).loc cc1_scratch2))
    (h6 : ¬((Scalar.cmpi .ne (Scalar.extui (Scalar.cmpi .eq (View.readAt (Elt F) tbK.view (Rect.unit (s := S10) (k1_off1 i) S1.size (k1_off1_inb i)).toLoadRect T1 (Shape.Idx.first (numel1_S1.symm ▸ Nat.one_pos))) 0#32)) 0#32) = 1#1))
    (h4 : (k1_cond4 (View.readAt (Elt F) tbQ.view (Rect.unit (s := S10) (k1_off1 i) S1.size (k1_off1_inb i)).toLoadRect T0 (Shape.Idx.first (numel1_S1.symm ▸ Nat.one_pos))) (View.readAt (Elt F) tbK.view (Rect.unit (s := S10) (k1_off1 i) S1.size (k1_off1_inb i)).toLoadRect T1 (Shape.Idx.first (numel1_S1.symm ▸ Nat.one_pos))) = 1#1))
    (h16 : ¬((Scalar.cmpi .ne (Scalar.extui (Scalar.xori (Scalar.cmpi .eq (View.readAt (Elt F) tbK.view (Rect.unit (s := S10) (k1_off1 i) S1.size (k1_off1_inb i)).toLoadRect T1 (Shape.Idx.first (numel1_S1.symm ▸ Nat.one_pos))) (View.readAt (Elt F) tbQ.view (Rect.unit (s := S10) (k1_off1 i) S1.size (k1_off1_inb i)).toLoadRect T0 (Shape.Idx.first (numel1_S1.symm ▸ Nat.one_pos)))) 1#1)) 0#32) = 1#1)) :
    rdA (runD c i arg4 harg4 arg5 harg5 arg6 harg6 arg7 harg7 T0 T1 xq xk xv sm sl sa h6 h4 h16).2.2.2.1 = k1_pay5 (k1_pay14 (k1_pay4 xq) xk (rdM sm) (rdM sm) (rdA sa) xv) := by
  unfold runD
  dsimp only
  sl_unfold_words
  refine (View.read_writes_junk_eq_canon _ _).trans ?_
  rw [View.canon_unit_zero hz2]
  unfold k1_pay14 k1_pay11 k1_pay12 k1_pay10 k1_pay9
  simp only [View.readAt_eq_ld, View.read_rep, View.ld_unit_zero (S := S1024x1) hz2, View.ld_unit_zero (S := S1024x64) hz2, View.ld_unit_zero (S := S1x1024x64) hz3]
theorem runD_o (c : Dev nD) (i : grid1.Coords)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .f32) (harg7 : arg7.IsWhole)
    (T0 T1 : S10.Idx → Elt F .i32) (xq xk xv : S1x1024x64.Idx → Elt F .bf16) (sm : Buf (Elt F) ((c : Thread nD τ).loc cc1_scratch0)) (sl : Buf (Elt F) ((c : Thread nD τ).loc cc1_scratch1)) (sa : Buf (Elt F) ((c : Thread nD τ).loc cc1_scratch2))
    (h6 : ¬((Scalar.cmpi .ne (Scalar.extui (Scalar.cmpi .eq (View.readAt (Elt F) tbK.view (Rect.unit (s := S10) (k1_off1 i) S1.size (k1_off1_inb i)).toLoadRect T1 (Shape.Idx.first (numel1_S1.symm ▸ Nat.one_pos))) 0#32)) 0#32) = 1#1))
    (h4 : (k1_cond4 (View.readAt (Elt F) tbQ.view (Rect.unit (s := S10) (k1_off1 i) S1.size (k1_off1_inb i)).toLoadRect T0 (Shape.Idx.first (numel1_S1.symm ▸ Nat.one_pos))) (View.readAt (Elt F) tbK.view (Rect.unit (s := S10) (k1_off1 i) S1.size (k1_off1_inb i)).toLoadRect T1 (Shape.Idx.first (numel1_S1.symm ▸ Nat.one_pos))) = 1#1))
    (h16 : ¬((Scalar.cmpi .ne (Scalar.extui (Scalar.xori (Scalar.cmpi .eq (View.readAt (Elt F) tbK.view (Rect.unit (s := S10) (k1_off1 i) S1.size (k1_off1_inb i)).toLoadRect T1 (Shape.Idx.first (numel1_S1.symm ▸ Nat.one_pos))) (View.readAt (Elt F) tbQ.view (Rect.unit (s := S10) (k1_off1 i) S1.size (k1_off1_inb i)).toLoadRect T0 (Shape.Idx.first (numel1_S1.symm ▸ Nat.one_pos)))) 1#1)) 0#32) = 1#1)) :
    outRd (runD c i arg4 harg4 arg5 harg5 arg6 harg6 arg7 harg7 T0 T1 xq xk xv sm sl sa h6 h4 h16).1 = k1_pay8 (rdA (runD c i arg4 harg4 arg5 harg5 arg6 harg6 arg7 harg7 T0 T1 xq xk xv sm sl sa h6 h4 h16).2.2.2.1) (rdL (runD c i arg4 harg4 arg5 harg5 arg6 harg6 arg7 harg7 T0 T1 xq xk xv sm sl sa h6 h4 h16).2.2.1) := by
  unfold outRd runD
  dsimp only
  sl_unfold_words
  refine (View.read_writes_junk_eq_canon _ _).trans ?_
  rw [View.canon_unit_zero hz3]
  simp only [View.readCov, View.readAt_eq_ld, View.ld_unit_zero (S := S1024x1) hz2, View.ld_unit_zero (S := S1024x64) hz2]

end Cert.KernelIdeal.R1

end
-- ==== Proof.R1Blocks.lean ====
/-
  The geometry of the attention pipeline's forty grid points: which batch, query tile and key tile a point works on (read
  off the two tables), how the point before it relates to it, where each window's block sits in its array, and that the
  blocks the diagonal points write back tile the output array.
-/
import proofs.«402334_j1417339207762_3_alg».proof.Proof.R1
import Idealize.ShloMosaic.Lib.ValueIdx
import Idealize.ShloMosaic.Lib.Pipeline.Value

set_option maxRecDepth 16384

noncomputable section

namespace Cert.KernelIdeal.R1V

open Cert.KernelIdeal Cert.KernelIdeal.Gen Cert.KernelIdeal.R1
open Idealize.ShloMosaic Idealize.ShloMosaic.TcCoe Idealize.ShloMosaic.ValueIdx
open Idealize.ShloMosaic.Pipeline (Dat Cfg Window)

/-- The batch a grid point works on. -/
def bN (t : Fin cfgA.N) : ℕ := t.val / 10
/-- Its query tile: the first table at the point's step. -/
def qiN (t : Fin cfgA.N) : ℕ := [0, 1, 1, 2, 2, 2, 3, 3, 3, 3].getD (t.val % 10) 0
/-- Its key tile: the second table at the point's step. -/
def kiN (t : Fin cfgA.N) : ℕ := [0, 0, 1, 0, 1, 2, 0, 1, 2, 3].getD (t.val % 10) 0

/-- The tables' facts, decided over the forty points. -/
private theorem tabFacts : ∀ t : Fin cfgA.N,
    bN t < 4 ∧ qiN t < 4 ∧ kiN t ≤ qiN t ∧ (P6 t ↔ kiN t = 0) ∧ (P4 t ↔ kiN t = qiN t)
    ∧ (¬ P6 t → if h0 : t.val - 1 < cfgA.N then t.val ≠ 0 ∧ bN ⟨t.val - 1, h0⟩ = bN t ∧ qiN ⟨t.val - 1, h0⟩ = qiN t ∧ kiN ⟨t.val - 1, h0⟩ + 1 = kiN t else False) := by
  decide +kernel

/-- Each window's block index at a point: (batch, query tile, 0) for the queries and the output, (batch, key tile, 0) for the keys and the values. -/
private theorem idxFacts : ∀ t : Fin cfgA.N,
    ((cfgA.win (0 : Fin 4)).index t (0 : Fin 3) = bN t ∧ (cfgA.win (0 : Fin 4)).index t (1 : Fin 3) = qiN t ∧ (cfgA.win (0 : Fin 4)).index t (2 : Fin 3) = 0)
    ∧ ((cfgA.win (1 : Fin 4)).index t (0 : Fin 3) = bN t ∧ (cfgA.win (1 : Fin 4)).index t (1 : Fin 3) = kiN t ∧ (cfgA.win (1 : Fin 4)).index t (2 : Fin 3) = 0)
    ∧ ((cfgA.win (2 : Fin 4)).index t (0 : Fin 3) = bN t ∧ (cfgA.win (2 : Fin 4)).index t (1 : Fin 3) = kiN t ∧ (cfgA.win (2 : Fin 4)).index t (2 : Fin 3) = 0)
    ∧ ((cfgA.win (3 : Fin 4)).index t (0 : Fin 3) = bN t ∧ (cfgA.win (3 : Fin 4)).index t (1 : Fin 3) = qiN t ∧ (cfgA.win (3 : Fin 4)).index t (2 : Fin 3) = 0) := by
  decide +kernel

theorem bN_lt (t : Fin cfgA.N) : bN t < 4 := by
  exact (tabFacts t).1
theorem qiN_lt (t : Fin cfgA.N) : qiN t < 4 := by
  exact (tabFacts t).2.1
theorem kiN_le (t : Fin cfgA.N) : kiN t ≤ qiN t := by
  exact (tabFacts t).2.2.1
/-- A point is the first of its run exactly when its key tile is 0, -/
theorem P6_iff (t : Fin cfgA.N) : P6 t ↔ kiN t = 0 := by
  exact (tabFacts t).2.2.2.1
/-- and the diagonal one exactly when its key tile is its query tile. -/
theorem P4_iff (t : Fin cfgA.N) : P4 t ↔ kiN t = qiN t := by
  exact (tabFacts t).2.2.2.2.1
/-- A point that is not the first of its run follows the point with the same batch and query tile and the key tile before. -/
theorem pred_facts (t : Fin cfgA.N) (h : ¬ P6 t) :
    ∃ h0 : t.val - 1 < cfgA.N, t.val ≠ 0 ∧ bN ⟨t.val - 1, h0⟩ = bN t ∧ qiN ⟨t.val - 1, h0⟩ = qiN t ∧ kiN ⟨t.val - 1, h0⟩ + 1 = kiN t := by
  have hd := (tabFacts t).2.2.2.2.2 h
  by_cases h0 : t.val - 1 < cfgA.N
  · rw [dif_pos h0] at hd
    exact ⟨h0, hd⟩
  · rw [dif_neg h0] at hd
    exact hd.elim

variable (V : (c : Dev nD) → (b : Ref sig .tc) → Buf (Elt Ideal) ((c : Thread nD τ).loc b)) (c : Dev nD)

/-- The query block at a point: rows `1024 · qi ..` of batch `b` of the projected queries. -/
theorem iblk0_apply (t : Fin cfgA.N) (r : Fin 1024) (e : Fin 64) (i : S4x4096x64.Idx)
    (h0 : (i 0).val = bN t) (h1 : (i 1).val = 1024 * qiN t + r.val) (h2 : (i 2).val = e.val) :
    iblk V c (0 : Fin 4) t (ix3 (0 : Fin 1) r e) = (V c main_v0_0 : S4x4096x64.Idx → EReal) i := by
  obtain ⟨e0, e1, e2⟩ := (idxFacts t).1
  show V c (Pipeline.arrRef spec1 (0 : Fin 4)) (((cfgA.win (0 : Fin 4)).blk t).view.emb (ix3 (0 : Fin 1) r e)) = _
  refine congrArg (V c (Pipeline.arrRef spec1 (0 : Fin 4))) (funext fun a => Fin.ext ?_)
  match a with
  | ⟨0, _⟩ => show (cfgA.win (0 : Fin 4)).index t (0 : Fin 3) * 1 + 1 * 0 = (i 0).val; omega
  | ⟨1, _⟩ => show (cfgA.win (0 : Fin 4)).index t (1 : Fin 3) * 1024 + 1 * r.val = (i 1).val; omega
  | ⟨2, _⟩ => show (cfgA.win (0 : Fin 4)).index t (2 : Fin 3) * 64 + 1 * e.val = (i 2).val; omega
/-- The key block: rows `1024 · ki ..` of the projected keys. -/
theorem iblk1_apply (t : Fin cfgA.N) (r : Fin 1024) (e : Fin 64) (i : S4x4096x64.Idx)
    (h0 : (i 0).val = bN t) (h1 : (i 1).val = 1024 * kiN t + r.val) (h2 : (i 2).val = e.val) :
    iblk V c (1 : Fin 4) t (ix3 (0 : Fin 1) r e) = (V c main_v0_1 : S4x4096x64.Idx → EReal) i := by
  obtain ⟨e0, e1, e2⟩ := (idxFacts t).2.1
  show V c (Pipeline.arrRef spec1 (1 : Fin 4)) (((cfgA.win (1 : Fin 4)).blk t).view.emb (ix3 (0 : Fin 1) r e)) = _
  refine congrArg (V c (Pipeline.arrRef spec1 (1 : Fin 4))) (funext fun a => Fin.ext ?_)
  match a with
  | ⟨0, _⟩ => show (cfgA.win (1 : Fin 4)).index t (0 : Fin 3) * 1 + 1 * 0 = (i 0).val; omega
  | ⟨1, _⟩ => show (cfgA.win (1 : Fin 4)).index t (1 : Fin 3) * 1024 + 1 * r.val = (i 1).val; omega
  | ⟨2, _⟩ => show (cfgA.win (1 : Fin 4)).index t (2 : Fin 3) * 64 + 1 * e.val = (i 2).val; omega
/-- The value block: rows `1024 · ki ..` of the projected values. -/
theorem iblk2_apply (t : Fin cfgA.N) (r : Fin 1024) (e : Fin 64) (i : S4x4096x64.Idx)
    (h0 : (i 0).val = bN t) (h1 : (i 1).val = 1024 * kiN t + r.val) (h2 : (i 2).val = e.val) :
    iblk V c (2 : Fin 4) t (ix3 (0 : Fin 1) r e) = (V c main_v0_2 : S4x4096x64.Idx → EReal) i := by
  obtain ⟨e0, e1, e2⟩ := (idxFacts t).2.2.1
  show V c (Pipeline.arrRef spec1 (2 : Fin 4)) (((cfgA.win (2 : Fin 4)).blk t).view.emb (ix3 (0 : Fin 1) r e)) = _
  refine congrArg (V c (Pipeline.arrRef spec1 (2 : Fin 4))) (funext fun a => Fin.ext ?_)
  match a with
  | ⟨0, _⟩ => show (cfgA.win (2 : Fin 4)).index t (0 : Fin 3) * 1 + 1 * 0 = (i 0).val; omega
  | ⟨1, _⟩ => show (cfgA.win (2 : Fin 4)).index t (1 : Fin 3) * 1024 + 1 * r.val = (i 1).val; omega
  | ⟨2, _⟩ => show (cfgA.win (2 : Fin 4)).index t (2 : Fin 3) * 64 + 1 * e.val = (i 2).val; omega

/-- Every (batch, query tile) has its diagonal point. -/
private theorem ontoFacts : ∀ (b q : Fin 4), ∃ t : Fin cfgA.N, kiN t = qiN t ∧ bN t = b.val ∧ qiN t = q.val := by
  decide +kernel

/-- An index of the output array is in a point's block iff each coordinate is in the block's range on its axis. -/
private theorem mem_blkOut (t : Fin cfgA.N) (i : S4x4096x64.Idx) :
    i ∈ ((cfgA.win (3 : Fin 4)).blk t).view.set ↔ ∀ a : Fin 3, (cfgA.win (3 : Fin 4)).index t a * S1x1024x64.size a ≤ (i a).val ∧ (i a).val < (cfgA.win (3 : Fin 4)).index t a * S1x1024x64.size a + S1x1024x64.size a := by
  show i ∈ ((View.whole main_v1).slice ((cfgA.win (3 : Fin 4)).rect t)).set ↔ _
  rw [View.set_slice_whole, Rect.mem_set_unit]
  exact Iff.rfl

/-- The diagonal points' blocks tile the output array: row `s` of batch `b` is in the block of the diagonal point of (b, s / 1024). -/
private theorem coverOut (i : S4x4096x64.Idx) :
    ∃ t : Fin cfgA.N, (cfgA.win (3 : Fin 4)).flush t = true ∧ i ∈ ((cfgA.win (3 : Fin 4)).blk t).view.set := by
  have hi0 : (i 0).val < 4 := (i 0).isLt
  have hi1 : (i 1).val < 4096 := (i 1).isLt
  have hi2 : (i 2).val < 64 := (i 2).isLt
  obtain ⟨t, hk, hb, hq⟩ := ontoFacts ⟨(i 0).val, hi0⟩ ⟨(i 1).val / 1024, by omega⟩
  have hb' : bN t = (i 0).val := hb
  have hq' : qiN t = (i 1).val / 1024 := hq
  obtain ⟨e0, e1, e2⟩ := (idxFacts t).2.2.2
  have q4 : P4 t := (P4_iff t).mpr hk
  refine ⟨t, ((allFacts t).2.2.1).trans (decide_eq_true q4), ?_⟩
  rw [mem_blkOut]
  intro a
  match a with
  | ⟨0, _⟩ => show (cfgA.win (3 : Fin 4)).index t (0 : Fin 3) * 1 ≤ (i 0).val ∧ (i 0).val < (cfgA.win (3 : Fin 4)).index t (0 : Fin 3) * 1 + 1; omega
  | ⟨1, _⟩ => show (cfgA.win (3 : Fin 4)).index t (1 : Fin 3) * 1024 ≤ (i 1).val ∧ (i 1).val < (cfgA.win (3 : Fin 4)).index t (1 : Fin 3) * 1024 + 1024; omega
  | ⟨2, _⟩ => show (cfgA.win (3 : Fin 4)).index t (2 : Fin 3) * 64 ≤ (i 2).val ∧ (i 2).val < (cfgA.win (3 : Fin 4)).index t (2 : Fin 3) * 64 + 64; omega

/-- The output array ends holding `G` as soon as every diagonal point stores, at each row and column of its block, the
    entry of `G` at the block's place in the array: the diagonal points are the ones that write back, and their blocks
    (batch `b`, rows `1024 · qi ..`) tile the array. -/
theorem arrOut_of (G : S4x4096x64.Idx → EReal)
    (h : ∀ t : Fin cfgA.N, P4 t → ∀ (r : Fin 1024) (e : Fin 64) (i : S4x4096x64.Idx),
      (i 0).val = bN t → (i 1).val = 1024 * qiN t + r.val → (i 2).val = e.val →
      (traj V c t.val t.isLt).1 (ix3 (0 : Fin 1) r e) = G i) :
    (dat1 V c).arrAt (3 : Fin 4) cfgA.N = G := by
  refine (dat1 V c).arrAt_eq_of_cover (3 : Fin 4) G (fun t hf => ?_) coverOut
  have q4 : P4 t := of_decide_eq_true (((allFacts t).2.2.1).symm.trans hf)
  obtain ⟨e0, e1, e2⟩ := (idxFacts t).2.2.2
  show (cfgA.win (3 : Fin 4)).cut (crd t) ((dat1 V c).after (3 : Fin 4) t) = _
  rw [after1_3]
  refine funext fun (j : S1x1024x64.Idx) => ?_
  obtain ⟨z, r, e, rfl⟩ : ∃ (z : Fin 1) (r : Fin 1024) (e : Fin 64), j = ix3 z r e := ⟨j 0, j 1, j 2, eq_ix3 j⟩
  obtain rfl : z = 0 := Subsingleton.elim _ _
  show (traj V c t.val t.isLt).1 ((cfgA.win (3 : Fin 4)).xinj (crd t) (ix3 (0 : Fin 1) r e)) = G (((cfgA.win (3 : Fin 4)).blk t).view.emb (ix3 (0 : Fin 1) r e))
  have hx : (cfgA.win (3 : Fin 4)).xinj (crd t) (ix3 (0 : Fin 1) r e) = ix3 (0 : Fin 1) r e :=
    funext fun a => Fin.ext (by match a with | ⟨0, _⟩ => rfl | ⟨1, _⟩ => rfl | ⟨2, _⟩ => rfl)
  rw [hx]
  refine h t q4 r e _ ?_ ?_ ?_
  · show (cfgA.win (3 : Fin 4)).index t (0 : Fin 3) * 1 + 1 * 0 = bN t; omega
  · show (cfgA.win (3 : Fin 4)).index t (1 : Fin 3) * 1024 + 1 * r.val = 1024 * qiN t + r.val; omega
  · show (cfgA.win (3 : Fin 4)).index t (2 : Fin 3) * 64 + 1 * e.val = e.val; omega

end Cert.KernelIdeal.R1V

end
-- ==== Proof.TileRead.lean ====
/-
  One tile of the attention body, read at an index on the extended reals.

  The body scales the query block by 1/8, multiplies it with the transposed key block into a 1024 × 1024 tile of scores
  (on the diagonal tile the entries with column > row are replaced by the named constant, which is `⊥`), takes
  the new row shift as the maximum of the old shift and the row's maximum, and updates the running denominator and
  numerator: `l' = exp (m - m') · l + ∑_j exp (s_j - m')`, `a' = exp (m - m') · a + ∑_j exp (s_j - m') · v_j`. Here each of
  these vector values is read at one row `r` (and one feature column `e`), as a plain expression in the entries of
  the blocks and of the carried buffers.
-/
import proofs.«402334_j1417339207762_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.TileRead

open Cert.KernelIdeal Cert.KernelIdeal.Gen
open Idealize.ShloMosaic Idealize.ShloMosaic.ValueIdx

/-- A tile's score of query row `r` against key row `j`: the query entries scaled by 1/8, times the key entries. -/
def tsc (xq xk : S1x1024x64.Idx → EReal) (r j : Fin 1024) : EReal :=
  ∑ e : Fin 64, (xq (ix3 (0 : Fin 1) r e) * ((1 / 8 : ℝ) : EReal)) * xk (ix3 (0 : Fin 1) j e)

/-- The diagonal tile's score: masked (`⊥`) where the key's position in the tile is past the query's. -/
def tscD (xq xk : S1x1024x64.Idx → EReal) (r j : Fin 1024) : EReal :=
  if r < j then ⊥ else tsc xq xk r j

variable (xq xk xv : Vec Ideal S1x1024x64 .bf16) (M L : Vec Ideal S1024x1 .f32) (A : Vec Ideal S1024x64 .f32)

/-! ### Constants at the extended reals -/

/-- The f32 pattern of minus infinity is the bottom element. -/
private theorem ofBits_neg_inf : Ideal.ofBits .f32 0xFF800000#32 = ⊥ := by simp [Ideal.ofBits, Ideal.ieee]

/-- The bf16 pattern 0x3E00 is one eighth. -/
private theorem ofBits_eighth : Ideal.ofBits .bf16 0x3E00#16 = (((1 : ℝ) / 8 : ℝ) : EReal) := by
  simp [Ideal.ofBits, Ideal.ieee, -EReal.coe_mul]; norm_num

/-- The named masking constant is the bottom element. -/
private theorem neg_big : Named.named (F := Ideal) κ "neg_big" (φ := .f32) 0xFF333332#32 = (⊥ : EReal) :=
  IdealRules.named_const.ideal_named_scalar _ _ _ _ rfl

/-! ### Column layouts read at an index -/

/-- A column `[a, 1]` broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector's entry `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ### A row's maximum and a row's sum -/

/-- The maximum over axis 1 of a 1024 × 1024 tile, from minus infinity, at row `r`: the fold of `max` from `⊥` over the row. -/
private theorem rowMax_apply (src : FVec Ideal S1024x1024 .f32) (hφ : FKind.Formats .f32)
    (hacc : (0xFF800000#32 : BitVec 32) = FKind.maximumf.neutral .f32 hφ) (r : Fin 1024) :
    multiReduction (F := Ideal) .maximumf [1] S1024 src 0xFF800000#32 reduces_S1024x1024_S1024 hφ hacc (ValueIdx.ix1 r)
      = (Finset.univ : Finset (Fin 1024)).fold max (⊥ : EReal) (fun j => src (ix2 r j)) := by
  refine (Ideal.multiReduction_maximumf_single src _ _ hφ hacc (ValueIdx.ix1 r)).trans ?_
  rw [Ideal.ofBits_def, ofBits_neg_inf]
  refine congrArg (fun f => Finset.fold max (⊥ : EReal) f (Finset.univ : Finset (Fin 1024))) (funext fun j => ?_)
  exact congrArg src (funext fun a => Fin.ext (by match a with | ⟨0, _⟩ => rfl | ⟨1, _⟩ => rfl))

/-- The sum over axis 1 of a 1024 × 1024 tile, from zero, at row `r`: the sum over the row. -/
private theorem rowSum_apply (src : FVec Ideal S1024x1024 .f32) (hφ : FKind.Formats .f32)
    (hacc : (0x00000000#32 : BitVec 32) = FKind.add.neutral .f32 hφ) (r : Fin 1024) :
    multiReduction (F := Ideal) .add [1] S1024 src 0x00000000#32 reduces_S1024x1024_S1024 hφ hacc (ValueIdx.ix1 r)
      = ∑ j : Fin 1024, src (ix2 r j) := by
  refine (Ideal.multiReduction_add_single src _ _ hφ hacc (ValueIdx.ix1 r)).trans ?_
  refine Finset.sum_congr rfl fun j _ => ?_
  exact congrArg src (funext fun a => Fin.ext (by match a with | ⟨0, _⟩ => rfl | ⟨1, _⟩ => rfl))

/-! ### The two matrix products read at an index -/

private theorem lhsQ_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
private theorem lhsQ_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
private theorem rhsQ_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
private theorem rhsQ_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The product of a 1024 × 64 block with a 64 × 1024 block, from zero: entry `(r, c)` is the sum over the 64 shared coordinates. -/
private theorem matmulQ_apply (lhs : FVec Ideal S1024x64 .bf16) (rhs : FVec Ideal S64x1024 .bf16) (r : Fin 1024) (c : Fin 1024) :
    matmul dot_S1024x64_S64x1024_S1024x1024_1_0_0_1_n_n none lhs rhs (constant (F := Ideal) S1024x1024 .f32 0x00000000#32) (ix2 r c)
      = ∑ k : Fin 64, lhs (ix2 r k) * rhs (ix2 k c) := by
  refine (Ideal.matmul_constant_zero_apply dot_S1024x64_S64x1024_S1024x1024_1_0_0_1_n_n none lhs rhs (ix2 r c)).trans ?_
  rw [← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 r c) ((contrEquiv1 dot_S1024x64_S64x1024_S1024x1024_1_0_0_1_n_n 64 rfl rfl).symm k) = ix2 r k := funext fun a => Fin.ext (by
    match a with
    | ⟨0, _⟩ => exact lhsQ_0 _ _
    | ⟨1, _⟩ => exact (lhsQ_1 _ _).trans hk)
  have er : dot_S1024x64_S64x1024_S1024x1024_1_0_0_1_n_n.rhsIdx (ix2 r c) ((contrEquiv1 dot_S1024x64_S64x1024_S1024x1024_1_0_0_1_n_n 64 rfl rfl).symm k) = ix2 k c := funext fun a => Fin.ext (by
    match a with
    | ⟨0, _⟩ => exact (rhsQ_0 _ _).trans hk
    | ⟨1, _⟩ => exact rhsQ_1 _ _)
  rw [el, er]

private theorem lhsP_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
private theorem lhsP_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
private theorem rhsP_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
private theorem rhsP_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The product of a 1024 × 1024 tile with a 1024 × 64 block, from zero: entry `(r, c)` is the sum over the 1024 shared coordinates. -/
private theorem matmulP_apply (lhs : FVec Ideal S1024x1024 .bf16) (rhs : FVec Ideal S1024x64 .bf16) (r : Fin 1024) (c : Fin 64) :
    matmul dot_S1024x1024_S1024x64_S1024x64_1_0_0_1_n_n none lhs rhs (constant (F := Ideal) S1024x64 .f32 0x00000000#32) (ix2 r c)
      = ∑ k : Fin 1024, lhs (ix2 r k) * rhs (ix2 k c) := by
  refine (Ideal.matmul_constant_zero_apply dot_S1024x1024_S1024x64_S1024x64_1_0_0_1_n_n none lhs rhs (ix2 r c)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 r c) ((contrEquiv1 dot_S1024x1024_S1024x64_S1024x64_1_0_0_1_n_n 1024 rfl rfl).symm k) = ix2 r k := funext fun a => Fin.ext (by
    match a with
    | ⟨0, _⟩ => exact lhsP_0 _ _
    | ⟨1, _⟩ => exact (lhsP_1 _ _).trans hk)
  have er : dot_S1024x1024_S1024x64_S1024x64_1_0_0_1_n_n.rhsIdx (ix2 r c) ((contrEquiv1 dot_S1024x1024_S1024x64_S1024x64_1_0_0_1_n_n 1024 rfl rfl).symm k) = ix2 k c := funext fun a => Fin.ext (by
    match a with
    | ⟨0, _⟩ => exact (rhsP_0 _ _).trans hk
    | ⟨1, _⟩ => exact rhsP_1 _ _)
  rw [el, er]

/-! ### The mask of the diagonal tile -/

/-- The signed comparison of two small words: `a > b` as words iff `b < a` as numbers. -/
private theorem sgt_ofNat (a b : ℕ) (ha : a < 1024) (hb : b < 1024) :
    IntOp.cmpi .sgt (BitVec.ofNat 32 a) (BitVec.ofNat 32 b) = if b < a then 1#1 else 0#1 := by
  have ha' : (BitVec.ofNat 32 a).toNat = a := by rw [BitVec.toNat_ofNat]; omega
  have hb' : (BitVec.ofNat 32 b).toNat = b := by rw [BitVec.toNat_ofNat]; omega
  have ma : (BitVec.ofNat 32 a).msb = false := BitVec.msb_eq_false_iff_two_mul_lt.mpr (by omega)
  have mb : (BitVec.ofNat 32 b).msb = false := BitVec.msb_eq_false_iff_two_mul_lt.mpr (by omega)
  unfold IntOp.cmpi
  simp only [BitVec.slt, BitVec.toInt_eq_msb_cond, ma, mb, ha', hb', Bool.false_eq_true, ↓reduceIte]
  by_cases h : b < a
  · simp [h]
  · simp [h]

/-- The mask at `(r, j)`: the column position compared with the row position, set exactly where `r < j`. -/
private theorem mask_apply (r j : Fin 1024) :
    cmpi .sgt (broadcastTo S1024x1024 (iota .tc S1x1024 32 [1] iota_S1x1024_d1_w32) broadcasts_S1x1024_S1024x1024)
      (broadcastTo S1024x1024 (iota .tc S1024x1 32 [0] iota_S1024x1_d0_w32) broadcasts_S1024x1_S1024x1024) (ix2 r j)
      = if r < j then 1#1 else 0#1 := by
  show IntOp.cmpi .sgt (broadcastTo S1024x1024 (iota .tc S1x1024 32 [1] iota_S1x1024_d1_w32) broadcasts_S1x1024_S1024x1024 (ix2 r j))
      (broadcastTo S1024x1024 (iota .tc S1024x1 32 [0] iota_S1024x1_d0_w32) broadcasts_S1024x1_S1024x1024 (ix2 r j)) = _
  rw [broadcastTo_1b_ab_apply, broadcastTo_a1_ab_apply, iota_single_apply, iota_single_apply]
  exact sgt_ofNat j.val r.val j.isLt r.isLt

/-- The exponential of a vector at an index is the exponential of the entry. -/
private theorem exp_apply {s : Shape} {φ : FTy} (a : FVec Ideal s φ) (i : s.Idx) : exp a i = Ideal.exp (a i) := rfl

/-! ### The reset values -/

theorem pay1_apply (i : S1024x1.Idx) : k1_pay1 (F := Ideal) i = ⊥ := by
  simp only [k1_pay1]
  rw [shapeCast_self]
  exact ofBits_neg_inf
theorem pay2_apply (i : S1024x1.Idx) : k1_pay2 (F := Ideal) i = 0 := by
  simp only [k1_pay2]
  rw [shapeCast_self]
  exact Ideal.ofBits_zero_f32
theorem pay3_apply (i : S1024x64.Idx) : k1_pay3 (F := Ideal) i = 0 := by
  simp only [k1_pay3]
  rw [shapeCast_self]
  exact Ideal.ofBits_zero_f32

/-! ### Re-laid values -/

theorem pay5_eq (v : FVec Ideal S1024x64 .f32) : k1_pay5 v = v := by
  simp only [k1_pay5]
  exact shapeCast_self _ _
theorem pay6_eq (v : FVec Ideal S1024x1 .f32) : k1_pay6 v = v := by
  simp only [k1_pay6]
  exact shapeCast_self _ _
theorem pay7_eq (v : FVec Ideal S1024x1 .f32) : k1_pay7 v = v := by
  simp only [k1_pay7]
  exact shapeCast_self _ _

/-- The output block: the numerator over the denominator, row by row. -/
theorem pay8_apply (r : Fin 1024) (e : Fin 64) :
    k1_pay8 (F := Ideal) A L (ix3 (0 : Fin 1) r e) = Ideal.div (A (ix2 r e)) (L (ix2 r (0 : Fin 1))) := by
  simp only [k1_pay8]
  refine (shapeCast_ab_1ab_apply _ _ (0 : Fin 1) r e).trans ?_
  rw [divf_apply]
  exact congrArg (Ideal.div (A (ix2 r e))) (broadcastTo_a1_ab_apply L _ r e)

/-! ### The scores -/

theorem pay15_apply (r j : Fin 1024) : k1_pay15 (F := Ideal) (k1_pay4 xq) xk (ix2 r j) = tsc xq xk r j := by
  simp only [k1_pay15, k1_pay4]
  refine (matmulQ_apply _ _ r j).trans ?_
  unfold tsc
  refine Finset.sum_congr rfl fun e _ => ?_
  rw [mulf_apply, broadcast_apply, transpose_ix2_apply, shapeCast_1ab_ab_apply, shapeCast_1ab_ab_apply]
  exact congrArg (fun c => xq (ix3 (0 : Fin 1) r e) * c * xk (ix3 (0 : Fin 1) j e)) ofBits_eighth
theorem pay9_apply (r j : Fin 1024) : k1_pay9 (F := Ideal) (k1_pay4 xq) xk (ix2 r j) = tscD xq xk r j := by
  simp only [k1_pay9]
  rw [select_apply, mask_apply, broadcast_apply, neg_big]
  unfold tscD
  by_cases h : r < j
  · rw [if_pos h, if_pos h, select_one]
  · rw [if_neg h, if_neg h, select_zero]
    exact pay15_apply xq xk r j

/-! ### The new shift -/

theorem pay16_apply (r : Fin 1024) :
    k1_pay16 (F := Ideal) (k1_pay4 xq) xk M (ix2 r (0 : Fin 1))
      = max (M (ix2 r (0 : Fin 1))) ((Finset.univ : Finset (Fin 1024)).fold max (⊥ : EReal) (tsc xq xk r)) := by
  simp only [k1_pay16]
  rw [maximumf_apply]
  refine congrArg (max (M (ix2 r (0 : Fin 1)))) ?_
  refine (shapeCast_a_a1_apply _ _ r (0 : Fin 1)).trans ?_
  refine (rowMax_apply _ _ _ r).trans ?_
  refine congrArg (fun f => Finset.fold max (⊥ : EReal) f (Finset.univ : Finset (Fin 1024))) (funext fun j => ?_)
  exact pay15_apply xq xk r j
theorem pay10_apply (r : Fin 1024) :
    k1_pay10 (F := Ideal) (k1_pay4 xq) xk M (ix2 r (0 : Fin 1))
      = max (M (ix2 r (0 : Fin 1))) ((Finset.univ : Finset (Fin 1024)).fold max (⊥ : EReal) (tscD xq xk r)) := by
  simp only [k1_pay10]
  rw [maximumf_apply]
  refine congrArg (max (M (ix2 r (0 : Fin 1)))) ?_
  refine (shapeCast_a_a1_apply _ _ r (0 : Fin 1)).trans ?_
  refine (rowMax_apply _ _ _ r).trans ?_
  refine congrArg (fun f => Finset.fold max (⊥ : EReal) f (Finset.univ : Finset (Fin 1024))) (funext fun j => ?_)
  exact pay9_apply xq xk r j

/-! ### The running denominator -/

theorem pay19_apply (r : Fin 1024) :
    k1_pay19 (F := Ideal) (k1_pay4 xq) xk M M L (ix2 r (0 : Fin 1))
      = Ideal.exp (M (ix2 r (0 : Fin 1)) - k1_pay16 (F := Ideal) (k1_pay4 xq) xk M (ix2 r (0 : Fin 1))) * L (ix2 r (0 : Fin 1))
        + ∑ j : Fin 1024, Ideal.exp (tsc xq xk r j - k1_pay16 (F := Ideal) (k1_pay4 xq) xk M (ix2 r (0 : Fin 1))) := by
  simp only [k1_pay19, k1_pay17, k1_pay18]
  refine (congrFun (shapeCast_self _ _) _).trans ?_
  rw [addf_apply, mulf_apply, exp_apply, subf_apply]
  refine congrArg₂ (fun a b : EReal => a + b) rfl ?_
  refine (shapeCast_a_a1_apply _ _ r (0 : Fin 1)).trans ?_
  refine (rowSum_apply _ _ _ r).trans ?_
  refine Finset.sum_congr rfl fun j _ => ?_
  rw [exp_apply, subf_apply, broadcastTo_a1_ab_apply, pay15_apply]
theorem pay13_apply (r : Fin 1024) :
    k1_pay13 (F := Ideal) (k1_pay4 xq) xk M M L (ix2 r (0 : Fin 1))
      = Ideal.exp (M (ix2 r (0 : Fin 1)) - k1_pay10 (F := Ideal) (k1_pay4 xq) xk M (ix2 r (0 : Fin 1))) * L (ix2 r (0 : Fin 1))
        + ∑ j : Fin 1024, Ideal.exp (tscD xq xk r j - k1_pay10 (F := Ideal) (k1_pay4 xq) xk M (ix2 r (0 : Fin 1))) := by
  simp only [k1_pay13, k1_pay11, k1_pay12]
  refine (congrFun (shapeCast_self _ _) _).trans ?_
  rw [addf_apply, mulf_apply, exp_apply, subf_apply]
  refine congrArg₂ (fun a b : EReal => a + b) rfl ?_
  refine (shapeCast_a_a1_apply _ _ r (0 : Fin 1)).trans ?_
  refine (rowSum_apply _ _ _ r).trans ?_
  refine Finset.sum_congr rfl fun j _ => ?_
  rw [exp_apply, subf_apply, broadcastTo_a1_ab_apply, pay9_apply]

/-! ### The running numerator -/

theorem pay20_apply (r : Fin 1024) (e : Fin 64) :
    k1_pay20 (F := Ideal) (k1_pay4 xq) xk M M A xv (ix2 r e)
      = Ideal.exp (M (ix2 r (0 : Fin 1)) - k1_pay16 (F := Ideal) (k1_pay4 xq) xk M (ix2 r (0 : Fin 1))) * A (ix2 r e)
        + ∑ j : Fin 1024, Ideal.exp (tsc xq xk r j - k1_pay16 (F := Ideal) (k1_pay4 xq) xk M (ix2 r (0 : Fin 1))) * xv (ix3 (0 : Fin 1) j e) := by
  simp only [k1_pay20, k1_pay17, k1_pay18]
  refine (congrFun (shapeCast_self _ _) _).trans ?_
  rw [addf_apply, mulf_apply, broadcastTo_a1_ab_apply, exp_apply, subf_apply]
  refine congrArg₂ (fun a b : EReal => a + b) rfl ?_
  refine (matmulP_apply _ _ r e).trans ?_
  refine Finset.sum_congr rfl fun j _ => ?_
  rw [truncf_apply, exp_apply, subf_apply, broadcastTo_a1_ab_apply, shapeCast_1ab_ab_apply, pay15_apply]
theorem pay14_apply (r : Fin 1024) (e : Fin 64) :
    k1_pay14 (F := Ideal) (k1_pay4 xq) xk M M A xv (ix2 r e)
      = Ideal.exp (M (ix2 r (0 : Fin 1)) - k1_pay10 (F := Ideal) (k1_pay4 xq) xk M (ix2 r (0 : Fin 1))) * A (ix2 r e)
        + ∑ j : Fin 1024, Ideal.exp (tscD xq xk r j - k1_pay10 (F := Ideal) (k1_pay4 xq) xk M (ix2 r (0 : Fin 1))) * xv (ix3 (0 : Fin 1) j e) := by
  simp only [k1_pay14, k1_pay11, k1_pay12]
  rw [addf_apply, mulf_apply, broadcastTo_a1_ab_apply, exp_apply, subf_apply]
  refine congrArg₂ (fun a b : EReal => a + b) rfl ?_
  refine (matmulP_apply _ _ r e).trans ?_
  refine Finset.sum_congr rfl fun j _ => ?_
  rw [truncf_apply, exp_apply, subf_apply, broadcastTo_a1_ab_apply, shapeCast_1ab_ab_apply, pay9_apply]

end Cert.KernelIdeal.TileRead

end
-- ==== Proof.R1Value.lean ====
/-
  What the attention pipeline leaves in its output array, on the extended reals: causal softmax attention of the
  projected rows.

  The pipeline visits, per batch, the ten pairs (query tile, key tile) with key tile ≤ query tile, a query tile's key tiles
  in increasing order, the diagonal pair last. Over a query tile's run it carries, per query row, a shift, a
  denominator and a numerator; each step rescales them to the new shift and adds the step's keys; the diagonal step
  masks the keys past the query and stores numerator / denominator. By induction along a run the carried triple is, for
  some real shift, the shifted sums of `exp (score)` and of `exp (score) · value` over the keys seen so far; at the
  diagonal step those are all the keys `k ≤ q`, and the quotient is the attention of the specification. The stored
  blocks tile the array.
-/
import proofs.«402334_j1417339207762_3_alg».proof.Proof.R1
import proofs.«402334_j1417339207762_3_alg».proof.Proof.R1Pieces
import proofs.«402334_j1417339207762_3_alg».proof.Proof.R1Blocks
import proofs.«402334_j1417339207762_3_alg».proof.Proof.TileRead
import proofs.«402334_j1417339207762_3_alg».proof.Proof.Spec
import proofs.«402334_j1417339207762_3_alg».proof.Proof.LibSoftmax
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.R1V

open Cert.KernelIdeal Cert.KernelIdeal.Gen Cert.KernelIdeal.R1
open Idealize.ShloMosaic Idealize.ShloMosaic.TcCoe Idealize.ShloMosaic.ValueIdx
open Idealize.ShloMosaic.Pipeline (Dat Cfg Window)

/-! ## The keys a query row has seen, and the running triple across one step -/

/-- Key row `j` of key tile `ki`. -/
def keyOf (ki : Fin 4) (j : Fin 1024) : Fin 4096 := ⟨1024 * ki.val + j.val, by have := ki.isLt; have := j.isLt; omega⟩

/-- Query row `r` of query tile `qi`. -/
def qrow (qi : Fin 4) (r : Fin 1024) : Fin 4096 := ⟨1024 * qi.val + r.val, by have := qi.isLt; have := r.isLt; omega⟩

/-- The keys query row `(qi, r)` has seen once the key tiles below `n` are done: those of these tiles that are not past the query. -/
def seen (qi : Fin 4) (n : ℕ) (r : Fin 1024) : Finset (Fin 4096) :=
  Finset.univ.filter fun k => k.val < 1024 * n ∧ k.val ≤ 1024 * qi.val + r.val

theorem keyOf_injective (ki : Fin 4) : Function.Injective (keyOf ki) := fun j j' h => by
  have := congrArg Fin.val h
  simp only [keyOf] at this
  exact Fin.ext (by omega)

theorem seen_zero (qi : Fin 4) (r : Fin 1024) : seen qi 0 r = ∅ := by
  ext k; simp [seen]

/-- One more key tile: the keys seen grow by the tile's keys that are not past the query. -/
theorem seen_succ (qi ki : Fin 4) (r : Fin 1024) :
    seen qi (ki.val + 1) r
      = seen qi ki.val r ∪ (Finset.univ.filter fun j : Fin 1024 => 1024 * ki.val + j.val ≤ 1024 * qi.val + r.val).image (keyOf ki) := by
  ext k
  simp only [seen, Finset.mem_filter, Finset.mem_univ, true_and, Finset.mem_union, Finset.mem_image]
  constructor
  · rintro ⟨h1, h2⟩
    by_cases hk : k.val < 1024 * ki.val
    · exact Or.inl ⟨hk, h2⟩
    · refine Or.inr ⟨⟨k.val - 1024 * ki.val, by omega⟩, ?_, ?_⟩
      · show 1024 * ki.val + (k.val - 1024 * ki.val) ≤ _; omega
      · exact Fin.ext (by show 1024 * ki.val + (k.val - 1024 * ki.val) = k.val; omega)
  · rintro (⟨h1, h2⟩ | ⟨j, hj, rfl⟩)
    · exact ⟨by omega, h2⟩
    · have := j.isLt
      exact ⟨by show 1024 * ki.val + j.val < _; omega, hj⟩

/-- After the diagonal tile the keys seen are exactly the keys up to the query. -/
theorem seen_diag (qi : Fin 4) (r : Fin 1024) : seen qi (qi.val + 1) r = Finset.Iic (qrow qi r) := by
  ext k
  have := r.isLt
  simp only [seen, Finset.mem_filter, Finset.mem_univ, true_and, Finset.mem_Iic, Fin.le_def, qrow]
  constructor
  · rintro ⟨_, h⟩; exact h
  · intro h; exact ⟨by omega, h⟩

theorem keyOf_not_mem_seen (qi ki : Fin 4) (r : Fin 1024) (j : Fin 1024) : keyOf ki j ∉ seen qi ki.val r := by
  simp only [seen, Finset.mem_filter, Finset.mem_univ, true_and, keyOf, not_and]
  intro h; omega

/-- ONE STEP of a query row's run, at key tile `ki`: from the reset values (first tile) or from the invariant over the keys
    of the tiles below `ki`, the updated triple satisfies the invariant over the keys of the tiles up to `ki`. -/
theorem tile_inv (s v : Fin 4096 → ℝ) (qi ki : Fin 4) (hk : ki.val ≤ qi.val) (r : Fin 1024)
    (t w : Fin 1024 → EReal)
    (ht : ∀ j : Fin 1024, t j = if 1024 * ki.val + j.val ≤ 1024 * qi.val + r.val then ((s (keyOf ki j) : ℝ) : EReal) else ⊥)
    (hw : ∀ j : Fin 1024, w j = ((v (keyOf ki j) : ℝ) : EReal))
    (m l a m' : EReal)
    (hprev : (ki.val = 0 ∧ m = ⊥ ∧ l = 0 ∧ a = 0) ∨ (0 < ki.val ∧ Cert.Lib.Inv (seen qi ki.val r) s v m l a))
    (hm' : m' = max m ((Finset.univ : Finset (Fin 1024)).fold max (⊥ : EReal) t)) :
    Cert.Lib.Inv (seen qi (ki.val + 1) r) s v m'
      (Ideal.exp (m - m') * l + ∑ j, Ideal.exp (t j - m'))
      (Ideal.exp (m - m') * a + ∑ j, Ideal.exp (t j - m') * w j) := by
  rw [seen_succ]
  rcases hprev with ⟨h0, rfl, rfl, rfl⟩ | ⟨_, hI⟩
  · have hz : seen qi ki.val r = ∅ := by rw [h0]; exact seen_zero qi r
    rw [hz, Finset.empty_union]
    exact Cert.Lib.step_reset s v (keyOf ki) (keyOf_injective ki)
      (fun j : Fin 1024 => 1024 * ki.val + j.val ≤ 1024 * qi.val + r.val)
      ⟨⟨0, by norm_num⟩, by show 1024 * ki.val + 0 ≤ _; omega⟩ t w ht hw m' hm'
  · exact Cert.Lib.step s v (keyOf ki) (keyOf_injective ki)
      (fun j : Fin 1024 => 1024 * ki.val + j.val ≤ 1024 * qi.val + r.val) t w ht hw
      (seen qi ki.val r) (keyOf_not_mem_seen qi ki r) m l a hI m' hm'

/-! ## Batch and tiles of a point, as indices -/

/-- The batch, the query tile and the key tile of point `t`. -/
def bF (t : Fin cfgA.N) : Fin 4 := ⟨bN t, bN_lt t⟩
def qF (t : Fin cfgA.N) : Fin 4 := ⟨qiN t, qiN_lt t⟩
def kF (t : Fin cfgA.N) : Fin 4 := ⟨kiN t, lt_of_le_of_lt (kiN_le t) (qiN_lt t)⟩

section Value

variable (V : (c : Dev nD) → (b : Ref sig .tc) → Buf (Elt Ideal) ((c : Thread nD τ).loc b)) (c : Dev nD)
variable (Q K W : Fin 4 → Fin 4096 → Fin 64 → ℝ)

/-! ## The blocks a point reads, entry by entry -/

/-- An array of reals read at an index with known coordinates. -/
theorem arr_of_val (X : Fin 4 → Fin 4096 → Fin 64 → ℝ) (i : S4x4096x64.Idx) (b : Fin 4) (s : Fin 4096) (e : Fin 64)
    (h0 : (i 0).val = b.val) (h1 : (i 1).val = s.val) (h2 : (i 2).val = e.val) :
    (fun i : S4x4096x64.Idx => ((X (i 0) (i 1) (i 2) : ℝ) : EReal)) i = ((X b s e : ℝ) : EReal) := by
  have hi : i = ix3 b s e := funext fun a => Fin.ext (by
    match a with
    | ⟨0, _⟩ => exact h0
    | ⟨1, _⟩ => exact h1
    | ⟨2, _⟩ => exact h2)
  subst hi
  rfl

/-- The query block at a point: rows of the point's query tile. -/
theorem readQ (hQ : (V c main_v0_0 : S4x4096x64.Idx → EReal) = fun i => ((Q (i 0) (i 1) (i 2) : ℝ) : EReal))
    (t : Fin cfgA.N) (r : Fin 1024) (e : Fin 64) :
    (iblk V c (0 : Fin 4) t : S1x1024x64.Idx → EReal) (ix3 (0 : Fin 1) r e) = ((Q (bF t) (qrow (qF t) r) e : ℝ) : EReal) := by
  refine (iblk0_apply V c t r e (ix3 (bF t) (qrow (qF t) r) e) rfl rfl rfl).trans ?_
  rw [hQ]
  rfl

/-- The key block at a point: rows of the point's key tile. -/
theorem readK (hK : (V c main_v0_1 : S4x4096x64.Idx → EReal) = fun i => ((K (i 0) (i 1) (i 2) : ℝ) : EReal))
    (t : Fin cfgA.N) (j : Fin 1024) (e : Fin 64) :
    (iblk V c (1 : Fin 4) t : S1x1024x64.Idx → EReal) (ix3 (0 : Fin 1) j e) = ((K (bF t) (keyOf (kF t) j) e : ℝ) : EReal) := by
  refine (iblk1_apply V c t j e (ix3 (bF t) (keyOf (kF t) j) e) rfl rfl rfl).trans ?_
  rw [hK]
  rfl

/-- The value block at a point: rows of the point's key tile. -/
theorem readW (hW : (V c main_v0_2 : S4x4096x64.Idx → EReal) = fun i => ((W (i 0) (i 1) (i 2) : ℝ) : EReal))
    (t : Fin cfgA.N) (j : Fin 1024) (e : Fin 64) :
    (iblk V c (2 : Fin 4) t : S1x1024x64.Idx → EReal) (ix3 (0 : Fin 1) j e) = ((W (bF t) (keyOf (kF t) j) e : ℝ) : EReal) := by
  refine (iblk2_apply V c t j e (ix3 (bF t) (keyOf (kF t) j) e) rfl rfl rfl).trans ?_
  rw [hW]
  rfl

/-- A tile's score is the real scaled score of the query row against the key row. -/
theorem tsc_eq (hQ : (V c main_v0_0 : S4x4096x64.Idx → EReal) = fun i => ((Q (i 0) (i 1) (i 2) : ℝ) : EReal))
    (hK : (V c main_v0_1 : S4x4096x64.Idx → EReal) = fun i => ((K (i 0) (i 1) (i 2) : ℝ) : EReal))
    (t : Fin cfgA.N) (r j : Fin 1024) :
    TileRead.tsc (iblk V c (0 : Fin 4) t) (iblk V c (1 : Fin 4) t) r j
      = ((Cert.Spec.scoreR Q K (bF t) (qrow (qF t) r) (keyOf (kF t) j) : ℝ) : EReal) := by
  unfold TileRead.tsc Cert.Spec.scoreR
  refine (Finset.sum_congr rfl fun e _ => ?_).trans
    (Cert.Lib.scaled_dot (fun e => Q (bF t) (qrow (qF t) r) e) (fun e => K (bF t) (keyOf (kF t) j) e))
  rw [readQ V c Q hQ, readK V c K hK]

/-! ## What one step leaves in the carried buffers, as the body's arithmetic on the loaded blocks -/

/-- The contents the trajectory tracks: the output buffer and the three carried buffers. -/
abbrev St (c : Dev nD) : Type := ((S1x1024x64.Idx → Elt Ideal .f32) × Buf (Elt Ideal) ((c : Thread nD τ).loc cc1_scratch0) × Buf (Elt Ideal) ((c : Thread nD τ).loc cc1_scratch1) × Buf (Elt Ideal) ((c : Thread nD τ).loc cc1_scratch2))

theorem stepA_m (t : Fin cfgA.N) (p : St c) (q6 : P6 t) (q4 : P4 t) :
    rdM (step V c t p).2.1 = k1_pay6 (k1_pay10 (k1_pay4 (iblk V c (0 : Fin 4) t)) (iblk V c (1 : Fin 4) t) (k1_pay1 (F := Ideal))) := by
  rw [step_A V c t p q6 q4]
  dsimp only
  exact runA_m c (crd t) (ms0 t) (hs0 t) (ms1 t) (hs1 t) (ms2 t) (hs2 t) (ms3 t) (hs3 t) T0c T1c (iblk V c (0 : Fin 4) t) (iblk V c (1 : Fin 4) t) (iblk V c (2 : Fin 4) t) q6 q4 (h16_of t q4)
theorem stepA_l (t : Fin cfgA.N) (p : St c) (q6 : P6 t) (q4 : P4 t) :
    rdL (step V c t p).2.2.1 = k1_pay13 (k1_pay4 (iblk V c (0 : Fin 4) t)) (iblk V c (1 : Fin 4) t) (k1_pay1 (F := Ideal)) (k1_pay1 (F := Ideal)) (k1_pay2 (F := Ideal)) := by
  rw [step_A V c t p q6 q4]
  dsimp only
  exact runA_l c (crd t) (ms0 t) (hs0 t) (ms1 t) (hs1 t) (ms2 t) (hs2 t) (ms3 t) (hs3 t) T0c T1c (iblk V c (0 : Fin 4) t) (iblk V c (1 : Fin 4) t) (iblk V c (2 : Fin 4) t) q6 q4 (h16_of t q4)
theorem stepA_a (t : Fin cfgA.N) (p : St c) (q6 : P6 t) (q4 : P4 t) :
    rdA (step V c t p).2.2.2 = k1_pay5 (k1_pay14 (k1_pay4 (iblk V c (0 : Fin 4) t)) (iblk V c (1 : Fin 4) t) (k1_pay1 (F := Ideal)) (k1_pay1 (F := Ideal)) (k1_pay3 (F := Ideal)) (iblk V c (2 : Fin 4) t)) := by
  rw [step_A V c t p q6 q4]
  dsimp only
  exact runA_a c (crd t) (ms0 t) (hs0 t) (ms1 t) (hs1 t) (ms2 t) (hs2 t) (ms3 t) (hs3 t) T0c T1c (iblk V c (0 : Fin 4) t) (iblk V c (1 : Fin 4) t) (iblk V c (2 : Fin 4) t) q6 q4 (h16_of t q4)
theorem stepA_o (t : Fin cfgA.N) (p : St c) (q6 : P6 t) (q4 : P4 t) :
    (step V c t p).1 = k1_pay8 (rdA (step V c t p).2.2.2) (rdL (step V c t p).2.2.1) := by
  rw [step_A V c t p q6 q4]
  dsimp only
  refine Eq.trans (show outOf _ = outRd _ from rfl) ?_
  exact runA_o c (crd t) (ms0 t) (hs0 t) (ms1 t) (hs1 t) (ms2 t) (hs2 t) (ms3 t) (hs3 t) T0c T1c (iblk V c (0 : Fin 4) t) (iblk V c (1 : Fin 4) t) (iblk V c (2 : Fin 4) t) q6 q4 (h16_of t q4)

theorem stepB_m (t : Fin cfgA.N) (p : St c) (q6 : P6 t) (q4 : ¬ P4 t) :
    rdM (step V c t p).2.1 = k1_pay7 (k1_pay16 (k1_pay4 (iblk V c (0 : Fin 4) t)) (iblk V c (1 : Fin 4) t) (k1_pay1 (F := Ideal))) := by
  rw [step_B V c t p q6 q4]
  dsimp only
  exact runB_m c (crd t) (ms0 t) (hs0 t) (ms1 t) (hs1 t) (ms2 t) (hs2 t) (ms3 t) (hs3 t) T0c T1c (iblk V c (0 : Fin 4) t) (iblk V c (1 : Fin 4) t) (iblk V c (2 : Fin 4) t) q6 q4 (h16_of_not t q4)
theorem stepB_l (t : Fin cfgA.N) (p : St c) (q6 : P6 t) (q4 : ¬ P4 t) :
    rdL (step V c t p).2.2.1 = k1_pay19 (k1_pay4 (iblk V c (0 : Fin 4) t)) (iblk V c (1 : Fin 4) t) (k1_pay1 (F := Ideal)) (k1_pay1 (F := Ideal)) (k1_pay2 (F := Ideal)) := by
  rw [step_B V c t p q6 q4]
  dsimp only
  exact runB_l c (crd t) (ms0 t) (hs0 t) (ms1 t) (hs1 t) (ms2 t) (hs2 t) (ms3 t) (hs3 t) T0c T1c (iblk V c (0 : Fin 4) t) (iblk V c (1 : Fin 4) t) (iblk V c (2 : Fin 4) t) q6 q4 (h16_of_not t q4)
theorem stepB_a (t : Fin cfgA.N) (p : St c) (q6 : P6 t) (q4 : ¬ P4 t) :
    rdA (step V c t p).2.2.2 = k1_pay20 (k1_pay4 (iblk V c (0 : Fin 4) t)) (iblk V c (1 : Fin 4) t) (k1_pay1 (F := Ideal)) (k1_pay1 (F := Ideal)) (k1_pay3 (F := Ideal)) (iblk V c (2 : Fin 4) t) := by
  rw [step_B V c t p q6 q4]
  dsimp only
  exact runB_a c (crd t) (ms0 t) (hs0 t) (ms1 t) (hs1 t) (ms2 t) (hs2 t) (ms3 t) (hs3 t) T0c T1c (iblk V c (0 : Fin 4) t) (iblk V c (1 : Fin 4) t) (iblk V c (2 : Fin 4) t) q6 q4 (h16_of_not t q4)

theorem stepC_m (t : Fin cfgA.N) (p : St c) (q6 : ¬ P6 t) (q4 : ¬ P4 t) :
    rdM (step V c t p).2.1 = k1_pay7 (k1_pay16 (k1_pay4 (iblk V c (0 : Fin 4) t)) (iblk V c (1 : Fin 4) t) (rdM p.2.1)) := by
  rw [step_C V c t p q6 q4]
  dsimp only
  exact runC_m c (crd t) (ms0 t) (hs0 t) (ms1 t) (hs1 t) (ms2 t) (hs2 t) (ms3 t) (hs3 t) T0c T1c (iblk V c (0 : Fin 4) t) (iblk V c (1 : Fin 4) t) (iblk V c (2 : Fin 4) t) p.2.1 p.2.2.1 p.2.2.2 q6 q4 (h16_of_not t q4)
theorem stepC_l (t : Fin cfgA.N) (p : St c) (q6 : ¬ P6 t) (q4 : ¬ P4 t) :
    rdL (step V c t p).2.2.1 = k1_pay19 (k1_pay4 (iblk V c (0 : Fin 4) t)) (iblk V c (1 : Fin 4) t) (rdM p.2.1) (rdM p.2.1) (rdL p.2.2.1) := by
  rw [step_C V c t p q6 q4]
  dsimp only
  exact runC_l c (crd t) (ms0 t) (hs0 t) (ms1 t) (hs1 t) (ms2 t) (hs2 t) (ms3 t) (hs3 t) T0c T1c (iblk V c (0 : Fin 4) t) (iblk V c (1 : Fin 4) t) (iblk V c (2 : Fin 4) t) p.2.1 p.2.2.1 p.2.2.2 q6 q4 (h16_of_not t q4)
theorem stepC_a (t : Fin cfgA.N) (p : St c) (q6 : ¬ P6 t) (q4 : ¬ P4 t) :
    rdA (step V c t p).2.2.2 = k1_pay20 (k1_pay4 (iblk V c (0 : Fin 4) t)) (iblk V c (1 : Fin 4) t) (rdM p.2.1) (rdM p.2.1) (rdA p.2.2.2) (iblk V c (2 : Fin 4) t) := by
  rw [step_C V c t p q6 q4]
  dsimp only
  exact runC_a c (crd t) (ms0 t) (hs0 t) (ms1 t) (hs1 t) (ms2 t) (hs2 t) (ms3 t) (hs3 t) T0c T1c (iblk V c (0 : Fin 4) t) (iblk V c (1 : Fin 4) t) (iblk V c (2 : Fin 4) t) p.2.1 p.2.2.1 p.2.2.2 q6 q4 (h16_of_not t q4)

theorem stepD_m (t : Fin cfgA.N) (p : St c) (q6 : ¬ P6 t) (q4 : P4 t) :
    rdM (step V c t p).2.1 = k1_pay6 (k1_pay10 (k1_pay4 (iblk V c (0 : Fin 4) t)) (iblk V c (1 : Fin 4) t) (rdM p.2.1)) := by
  rw [step_D V c t p q6 q4]
  dsimp only
  exact runD_m c (crd t) (ms0 t) (hs0 t) (ms1 t) (hs1 t) (ms2 t) (hs2 t) (ms3 t) (hs3 t) T0c T1c (iblk V c (0 : Fin 4) t) (iblk V c (1 : Fin 4) t) (iblk V c (2 : Fin 4) t) p.2.1 p.2.2.1 p.2.2.2 q6 q4 (h16_of t q4)
theorem stepD_l (t : Fin cfgA.N) (p : St c) (q6 : ¬ P6 t) (q4 : P4 t) :
    rdL (step V c t p).2.2.1 = k1_pay13 (k1_pay4 (iblk V c (0 : Fin 4) t)) (iblk V c (1 : Fin 4) t) (rdM p.2.1) (rdM p.2.1) (rdL p.2.2.1) := by
  rw [step_D V c t p q6 q4]
  dsimp only
  exact runD_l c (crd t) (ms0 t) (hs0 t) (ms1 t) (hs1 t) (ms2 t) (hs2 t) (ms3 t) (hs3 t) T0c T1c (iblk V c (0 : Fin 4) t) (iblk V c (1 : Fin 4) t) (iblk V c (2 : Fin 4) t) p.2.1 p.2.2.1 p.2.2.2 q6 q4 (h16_of t q4)
theorem stepD_a (t : Fin cfgA.N) (p : St c) (q6 : ¬ P6 t) (q4 : P4 t) :
    rdA (step V c t p).2.2.2 = k1_pay5 (k1_pay14 (k1_pay4 (iblk V c (0 : Fin 4) t)) (iblk V c (1 : Fin 4) t) (rdM p.2.1) (rdM p.2.1) (rdA p.2.2.2) (iblk V c (2 : Fin 4) t)) := by
  rw [step_D V c t p q6 q4]
  dsimp only
  exact runD_a c (crd t) (ms0 t) (hs0 t) (ms1 t) (hs1 t) (ms2 t) (hs2 t) (ms3 t) (hs3 t) T0c T1c (iblk V c (0 : Fin 4) t) (iblk V c (1 : Fin 4) t) (iblk V c (2 : Fin 4) t) p.2.1 p.2.2.1 p.2.2.2 q6 q4 (h16_of t q4)
theorem stepD_o (t : Fin cfgA.N) (p : St c) (q6 : ¬ P6 t) (q4 : P4 t) :
    (step V c t p).1 = k1_pay8 (rdA (step V c t p).2.2.2) (rdL (step V c t p).2.2.1) := by
  rw [step_D V c t p q6 q4]
  dsimp only
  refine Eq.trans (show outOf _ = outRd _ from rfl) ?_
  exact runD_o c (crd t) (ms0 t) (hs0 t) (ms1 t) (hs1 t) (ms2 t) (hs2 t) (ms3 t) (hs3 t) T0c T1c (iblk V c (0 : Fin 4) t) (iblk V c (1 : Fin 4) t) (iblk V c (2 : Fin 4) t) p.2.1 p.2.2.1 p.2.2.2 q6 q4 (h16_of t q4)

/-! ## The invariant along the trajectory -/

/-- The running triples of every query row of query tile `qi` of batch `b`, after the key tiles below `n`. -/
def InvAt (b qi : Fin 4) (n : ℕ) (sm : Buf (Elt Ideal) ((c : Thread nD τ).loc cc1_scratch0))
    (sl : Buf (Elt Ideal) ((c : Thread nD τ).loc cc1_scratch1)) (sa : Buf (Elt Ideal) ((c : Thread nD τ).loc cc1_scratch2)) : Prop :=
  ∀ (r : Fin 1024) (e : Fin 64), Cert.Lib.Inv (seen qi n r)
    (fun k => Cert.Spec.scoreR Q K b (qrow qi r) k) (fun k => W b k e)
    (rdM sm (ix2 r (0 : Fin 1))) (rdL sl (ix2 r (0 : Fin 1))) (rdA sa (ix2 r e))

/-- Below the diagonal every key of the tile is visible: the tile's scores are the real scores. -/
theorem ht_below (hQ : (V c main_v0_0 : S4x4096x64.Idx → EReal) = fun i => ((Q (i 0) (i 1) (i 2) : ℝ) : EReal))
    (hK : (V c main_v0_1 : S4x4096x64.Idx → EReal) = fun i => ((K (i 0) (i 1) (i 2) : ℝ) : EReal))
    (t : Fin cfgA.N) (hlt : kiN t < qiN t) (r j : Fin 1024) :
    TileRead.tsc (iblk V c (0 : Fin 4) t) (iblk V c (1 : Fin 4) t) r j
      = if 1024 * (kF t).val + j.val ≤ 1024 * (qF t).val + r.val
          then ((Cert.Spec.scoreR Q K (bF t) (qrow (qF t) r) (keyOf (kF t) j) : ℝ) : EReal) else ⊥ := by
  rw [tsc_eq V c Q K hQ hK, if_pos]
  have := j.isLt
  show 1024 * kiN t + j.val ≤ 1024 * qiN t + r.val
  omega

/-- On the diagonal tile the keys up to the query are visible, the others masked. -/
theorem ht_diag (hQ : (V c main_v0_0 : S4x4096x64.Idx → EReal) = fun i => ((Q (i 0) (i 1) (i 2) : ℝ) : EReal))
    (hK : (V c main_v0_1 : S4x4096x64.Idx → EReal) = fun i => ((K (i 0) (i 1) (i 2) : ℝ) : EReal))
    (t : Fin cfgA.N) (heq : kiN t = qiN t) (r j : Fin 1024) :
    TileRead.tscD (iblk V c (0 : Fin 4) t) (iblk V c (1 : Fin 4) t) r j
      = if 1024 * (kF t).val + j.val ≤ 1024 * (qF t).val + r.val
          then ((Cert.Spec.scoreR Q K (bF t) (qrow (qF t) r) (keyOf (kF t) j) : ℝ) : EReal) else ⊥ := by
  unfold TileRead.tscD
  by_cases h : r < j
  · have h' : r.val < j.val := h
    rw [if_pos h, if_neg]
    show ¬ (1024 * kiN t + j.val ≤ 1024 * qiN t + r.val)
    omega
  · have h' : ¬ r.val < j.val := h
    rw [if_neg h, tsc_eq V c Q K hQ hK, if_pos]
    show 1024 * kiN t + j.val ≤ 1024 * qiN t + r.val
    omega

/-- ONE POINT: from the invariant before it (when it is not the first of its run), the invariant after it. -/
theorem inv_step (hQ : (V c main_v0_0 : S4x4096x64.Idx → EReal) = fun i => ((Q (i 0) (i 1) (i 2) : ℝ) : EReal))
    (hK : (V c main_v0_1 : S4x4096x64.Idx → EReal) = fun i => ((K (i 0) (i 1) (i 2) : ℝ) : EReal))
    (hW : (V c main_v0_2 : S4x4096x64.Idx → EReal) = fun i => ((W (i 0) (i 1) (i 2) : ℝ) : EReal))
    (t : Fin cfgA.N) (p : St c)
    (hp : ¬ P6 t → InvAt c Q K W (bF t) (qF t) (kiN t) p.2.1 p.2.2.1 p.2.2.2) :
    InvAt c Q K W (bF t) (qF t) (kiN t + 1) (step V c t p).2.1 (step V c t p).2.2.1 (step V c t p).2.2.2 := by
  intro r e
  have hk : (kF t).val ≤ (qF t).val := kiN_le t
  have hw : ∀ j : Fin 1024, (iblk V c (2 : Fin 4) t : S1x1024x64.Idx → EReal) (ix3 (0 : Fin 1) j e) = ((W (bF t) (keyOf (kF t) j) e : ℝ) : EReal) :=
    fun j => readW V c W hW t j e
  by_cases q6 : P6 t
  · have k0 : (kF t).val = 0 := (P6_iff t).1 q6
    by_cases q4 : P4 t
    · have keq : kiN t = qiN t := (P4_iff t).1 q4
      rw [stepA_m V c t p q6 q4, stepA_l V c t p q6 q4, stepA_a V c t p q6 q4, TileRead.pay6_eq, TileRead.pay5_eq,
        TileRead.pay13_apply, TileRead.pay14_apply]
      exact tile_inv _ _ (qF t) (kF t) hk r _ _ (ht_diag V c Q K hQ hK t keq r) hw _ _ _ _
        (Or.inl ⟨k0, TileRead.pay1_apply _, TileRead.pay2_apply _, TileRead.pay3_apply _⟩) (TileRead.pay10_apply _ _ _ r)
    · have hlt : kiN t < qiN t := lt_of_le_of_ne (kiN_le t) (fun h => q4 ((P4_iff t).2 h))
      rw [stepB_m V c t p q6 q4, stepB_l V c t p q6 q4, stepB_a V c t p q6 q4, TileRead.pay7_eq,
        TileRead.pay19_apply, TileRead.pay20_apply]
      exact tile_inv _ _ (qF t) (kF t) hk r _ _ (ht_below V c Q K hQ hK t hlt r) hw _ _ _ _
        (Or.inl ⟨k0, TileRead.pay1_apply _, TileRead.pay2_apply _, TileRead.pay3_apply _⟩) (TileRead.pay16_apply _ _ _ r)
  · have kpos : 0 < (kF t).val := Nat.pos_of_ne_zero (fun h => q6 ((P6_iff t).2 h))
    have hI := hp q6 r e
    by_cases q4 : P4 t
    · have keq : kiN t = qiN t := (P4_iff t).1 q4
      rw [stepD_m V c t p q6 q4, stepD_l V c t p q6 q4, stepD_a V c t p q6 q4, TileRead.pay6_eq, TileRead.pay5_eq,
        TileRead.pay13_apply, TileRead.pay14_apply]
      exact tile_inv _ _ (qF t) (kF t) hk r _ _ (ht_diag V c Q K hQ hK t keq r) hw _ _ _ _
        (Or.inr ⟨kpos, hI⟩) (TileRead.pay10_apply _ _ _ r)
    · have hlt : kiN t < qiN t := lt_of_le_of_ne (kiN_le t) (fun h => q4 ((P4_iff t).2 h))
      rw [stepC_m V c t p q6 q4, stepC_l V c t p q6 q4, stepC_a V c t p q6 q4, TileRead.pay7_eq,
        TileRead.pay19_apply, TileRead.pay20_apply]
      exact tile_inv _ _ (qF t) (kF t) hk r _ _ (ht_below V c Q K hQ hK t hlt r) hw _ _ _ _
        (Or.inr ⟨kpos, hI⟩) (TileRead.pay16_apply _ _ _ r)

/-- The invariant after every point. -/
theorem inv_traj (hQ : (V c main_v0_0 : S4x4096x64.Idx → EReal) = fun i => ((Q (i 0) (i 1) (i 2) : ℝ) : EReal))
    (hK : (V c main_v0_1 : S4x4096x64.Idx → EReal) = fun i => ((K (i 0) (i 1) (i 2) : ℝ) : EReal))
    (hW : (V c main_v0_2 : S4x4096x64.Idx → EReal) = fun i => ((W (i 0) (i 1) (i 2) : ℝ) : EReal)) :
    ∀ (n : ℕ) (hn : n < cfgA.N), InvAt c Q K W (bF ⟨n, hn⟩) (qF ⟨n, hn⟩) (kiN ⟨n, hn⟩ + 1)
      (traj V c n hn).2.1 (traj V c n hn).2.2.1 (traj V c n hn).2.2.2 := by
  intro n
  induction n using Nat.strong_induction_on with
  | _ n ih =>
    intro hn
    have ht : traj V c n hn = step V c ⟨n, hn⟩ (prev V c ⟨n, hn⟩) := traj_eq V c ⟨n, hn⟩
    rw [ht]
    refine inv_step V c Q K W hQ hK hW ⟨n, hn⟩ _ fun q6 => ?_
    obtain ⟨h0, hne, hb, hq, hki⟩ := pred_facts ⟨n, hn⟩ q6
    have hne' : n ≠ 0 := hne
    have h0' : n - 1 < cfgA.N := h0
    have hprev : prev V c ⟨n, hn⟩ = traj V c (n - 1) h0' := by
      unfold prev; rw [dif_neg hne]
    have hbF : bF ⟨n - 1, h0'⟩ = bF ⟨n, hn⟩ := Fin.ext hb
    have hqF : qF ⟨n - 1, h0'⟩ = qF ⟨n, hn⟩ := Fin.ext hq
    have hkN : kiN ⟨n - 1, h0'⟩ + 1 = kiN ⟨n, hn⟩ := hki
    have := ih (n - 1) (by omega) h0'
    rw [hbF, hqF, hkN] at this
    rw [hprev]
    exact this

/-! ## The stored output block -/

/-- At a diagonal point the stored block is, row by row, the attention of the specification. -/
theorem out_val (t : Fin cfgA.N) (q4 : P4 t) (p : St c)
    (hinv : InvAt c Q K W (bF t) (qF t) (kiN t + 1) (step V c t p).2.1 (step V c t p).2.2.1 (step V c t p).2.2.2)
    (r : Fin 1024) (e : Fin 64) :
    (step V c t p).1 (ix3 (0 : Fin 1) r e) = ((Cert.Spec.attnR Q K W (bF t) (qrow (qF t) r) e : ℝ) : EReal) := by
  have keq : kiN t = qiN t := (P4_iff t).1 q4
  have hI := hinv r e
  have hS : seen (qF t) (kiN t + 1) r = Finset.Iic (qrow (qF t) r) := by rw [keq]; exact seen_diag (qF t) r
  rw [hS] at hI
  have hdiv := Cert.Lib.Inv.div ⟨qrow (qF t) r, Finset.mem_Iic.2 le_rfl⟩ hI
  refine Eq.trans ?_ hdiv
  by_cases q6 : P6 t
  · rw [stepA_o V c t p q6 q4]
    exact TileRead.pay8_apply _ _ r e
  · rw [stepD_o V c t p q6 q4]
    exact TileRead.pay8_apply _ _ r e

end Value

variable (V : (c : Dev nD) → (b : Ref sig .tc) → Buf (Elt Ideal) ((c : Thread nD τ).loc b)) (c : Dev nD)

/-- If the three projected arrays the pipeline is entered with hold the reals `Q`, `K`, `W` (queries, keys, values), its
    output array ends holding their causal softmax attention. -/
theorem arrOut (Q K W : Fin 4 → Fin 4096 → Fin 64 → ℝ)
    (hQ : (V c main_v0_0 : S4x4096x64.Idx → EReal) = fun i => ((Q (i 0) (i 1) (i 2) : ℝ) : EReal))
    (hK : (V c main_v0_1 : S4x4096x64.Idx → EReal) = fun i => ((K (i 0) (i 1) (i 2) : ℝ) : EReal))
    (hW : (V c main_v0_2 : S4x4096x64.Idx → EReal) = fun i => ((W (i 0) (i 1) (i 2) : ℝ) : EReal)) :
    (dat1 V c).arrAt (3 : Fin 4) cfgA.N
      = fun i : S4x4096x64.Idx => ((Cert.Spec.attnR Q K W (i 0) (i 1) (i 2) : ℝ) : EReal) := by
  refine arrOut_of V c (fun i : S4x4096x64.Idx => ((Cert.Spec.attnR Q K W (i 0) (i 1) (i 2) : ℝ) : EReal)) fun t q4 r e i h0 h1 h2 => ?_
  refine Eq.trans ?_ (arr_of_val (Cert.Spec.attnR Q K W) i (bF t) (qrow (qF t) r) e h0 h1 h2).symm
  have ht : traj V c t.val t.isLt = step V c t (prev V c t) := traj_eq V c t
  rw [ht]
  refine out_val V c Q K W t q4 _ ?_ r e
  rw [← ht]
  exact inv_traj V c Q K W hQ hK hW t.val t.isLt

end Cert.KernelIdeal.R1V

end
-- ==== Proof.PreFinite.lean ====
/-
  The precondition read as a fact about every entry: when the printed predicate (each input's absolute values below
  +∞, all conjoined) is all ones, every entry of every input array is a finite extended real.
-/
import proofs.«402334_j1417339207762_3_alg».proof.Pre_finite_inputs
import proofs.«402334_j1417339207762_3_alg».proof.Proof.Gen.Pre_finite_inputs
import proofs.«402334_j1417339207762_3_alg».proof.Proof.Spec
import Idealize.ShloMosaic.PureOps.Ideal
import Idealize.ShloMosaic.Lib.ValueIdx
import Idealize.ShloMosaic.Lib.ReduceAll
import Idealize.ShloMosaic.Lib.StableHlo.Predicate

noncomputable section

namespace Cert.PreFinite

open Idealize.ShloMosaic Idealize.ShloMosaic.ValueIdx Cert.Pre_finite_inputs

/-- The pattern `0x7F800000` denotes +∞. -/
theorem ofBits_inf : Ideal.ofBits .f32 0x7F800000#32 = (⊤ : EReal) := by
  simp [Ideal.ofBits, Ideal.ieee]

/-- One value: `|x| < +∞`, as the comparison's bit being 1, says `x` is neither infinity. -/
theorem finite_of_abs_lt (x : EReal)
    (h : Ideal.cmp .olt (max x (-x)) (Ideal.ofBits .f32 0x7F800000#32) = 1#1) : x ≠ ⊥ ∧ x ≠ ⊤ := by
  rw [ofBits_inf] at h
  unfold Ideal.cmp at h
  have hlt : max x (-x) < ⊤ := by
    by_contra hn
    simp [hn] at h
  rw [max_lt_iff] at hlt
  refine ⟨?_, ne_of_lt hlt.1⟩
  intro hb
  rw [hb] at hlt
  simp at hlt

/-- The rank-0 index set has one element. -/
instance subsingleton_idx0 : Subsingleton S_.Idx := ⟨fun a b => funext fun d => d.elim0⟩

/-- One array, any shape: `all (|x| < +∞)`, printed as a reduction by `and` over every axis of the comparison of
    `|x|` with the broadcast +∞, being 1 says every entry of `x` is finite. -/
theorem finite_of_all {S : Shape} {axes : List (Fin S.rank)}
    (hb : S_.BroadcastsInDim S (![] : Fin 0 → Fin S.rank)) (hr : S.ReducesTo axes S_) (h0 : 0 < S_.numel)
    (x : FVec Ideal S .f32) (init : IVec S_ 1)
    (e : Host.reduce IntOp.andi
          (cmpf .olt (Host.absf x) (broadcastInDim S ![] hb (constant (F := Ideal) S_ .f32 0x7F800000#32))) init hr h0 ix0 = 1#1) :
    Cert.Spec.Finite (S := S) x := by
  intro i
  have hi := Host.reduce_andi_all _ init hr h0 ix0 e i
  exact finite_of_abs_lt (x i) hi

/-- Every entry of the six inputs is finite when the precondition holds of them. -/
theorem finite_of_pre [hP : Cert.Pre_finite_inputs.Facts]
    (x0 x1 x2 : FVec Ideal S4x4096x256 .f32) (x3 x4 x5 : FVec Ideal S256x64 .f32)
    (h : Cert.Pre_finite_inputs.fn (F := Ideal) x0 x1 x2 x3 x4 x5 = (fun _ => 1#1)) :
    Cert.Spec.Finite (S := Cert.Spec.SX) x0 ∧ Cert.Spec.Finite (S := Cert.Spec.SX) x1 ∧ Cert.Spec.Finite (S := Cert.Spec.SX) x2
      ∧ Cert.Spec.Finite (S := Cert.Spec.SW) x3 ∧ Cert.Spec.Finite (S := Cert.Spec.SW) x4 ∧ Cert.Spec.Finite (S := Cert.Spec.SW) x5 := by
  have h' := congrFun h ValueIdx.ix0
  dsimp only [fn, fn_part1, andi] at h'
  obtain ⟨h01234, h5⟩ := IntOp.andi_eq_one.1 h'
  obtain ⟨h0123, h4⟩ := IntOp.andi_eq_one.1 h01234
  obtain ⟨h012, h3⟩ := IntOp.andi_eq_one.1 h0123
  obtain ⟨h01, h2⟩ := IntOp.andi_eq_one.1 h012
  obtain ⟨h0, h1⟩ := IntOp.andi_eq_one.1 h01
  exact ⟨finite_of_all _ _ _ x0 _ h0, finite_of_all _ _ _ x1 _ h1, finite_of_all _ _ _ x2 _ h2,
    finite_of_all _ _ _ x3 _ h3, finite_of_all _ _ _ x4 _ h4, finite_of_all _ _ _ x5 _ h5⟩

end Cert.PreFinite

end
-- ==== Proof.KValue.lean ====
/-
  The idealized kernel program's result is the specification's: the attention pipeline's output array, entered with the
  three projected arrays the projection pipeline left, holds causal softmax attention of the projections of the (finite)
  argument arrays.
-/
import proofs.«402334_j1417339207762_3_alg».proof.Proof.Run
import proofs.«402334_j1417339207762_3_alg».proof.Proof.R0Value
import proofs.«402334_j1417339207762_3_alg».proof.Proof.R1Value
import proofs.«402334_j1417339207762_3_alg».proof.Proof.PreFinite
import proofs.«402334_j1417339207762_3_alg».proof.Proof.Spec
import proofs.«402334_j1417339207762_3_alg».proof.Proof.Gen.Pre_finite_inputs

set_option maxRecDepth 16384

noncomputable section

namespace Cert.KernelIdeal.Val

open Cert.KernelIdeal Cert.KernelIdeal.Gen Cert.KernelIdeal.Run
open Idealize.ShloMosaic Idealize.ShloMosaic.TcCoe Idealize.SL.Sem

variable (m : (ℓ : Loc nD τ sig) → Buf (Elt Ideal) ℓ) (ρ : Dev nD → PrngReg)

/-- The projection pipeline finds each argument array as launched: the table constants write none of them. -/
theorem V1_arg0 (c : Dev nD) : V1 m ρ c main_arg0 = (m ((c.tc : Thread nD τ).loc main_arg0)) := W1_of_not_written m ρ c main_arg0 (by decide)
theorem V1_arg1 (c : Dev nD) : V1 m ρ c main_arg1 = (m ((c.tc : Thread nD τ).loc main_arg1)) := W1_of_not_written m ρ c main_arg1 (by decide)
theorem V1_arg2 (c : Dev nD) : V1 m ρ c main_arg2 = (m ((c.tc : Thread nD τ).loc main_arg2)) := W1_of_not_written m ρ c main_arg2 (by decide)
theorem V1_arg3 (c : Dev nD) : V1 m ρ c main_arg3 = (m ((c.tc : Thread nD τ).loc main_arg3)) := W1_of_not_written m ρ c main_arg3 (by decide)
theorem V1_arg4 (c : Dev nD) : V1 m ρ c main_arg4 = (m ((c.tc : Thread nD τ).loc main_arg4)) := W1_of_not_written m ρ c main_arg4 (by decide)
theorem V1_arg5 (c : Dev nD) : V1 m ρ c main_arg5 = (m ((c.tc : Thread nD τ).loc main_arg5)) := W1_of_not_written m ρ c main_arg5 (by decide)

/-- Under the precondition, the output array the attention pipeline leaves is the specification of the arguments. -/
theorem result_eq [hP : Cert.Pre_finite_inputs.Facts] (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (fun _ => 1#1)) :
    (R1.dat1 (V2 m ρ) c).arrAt (3 : Fin 4) R1.cfgA.N
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  obtain ⟨f0, f1, f2, f3, f4, f5⟩ := Cert.PreFinite.finite_of_pre _ _ _ _ _ _ hpre
  have hQ := R0V.arrQ (V1 m ρ) c _ _ (V1_arg2 m ρ c) (V1_arg3 m ρ c) f2 f3
  have hK := R0V.arrK (V1 m ρ) c _ _ (V1_arg0 m ρ c) (V1_arg4 m ρ c) f0 f4
  have hV := R0V.arrV (V1 m ρ) c _ _ (V1_arg1 m ρ c) (V1_arg5 m ρ c) f1 f5
  exact R1V.arrOut (V2 m ρ) c _ _ _ ((W2_arr m ρ c (6 : Fin 9)).trans hQ) ((W2_arr m ρ c (7 : Fin 9)).trans hK) ((W2_arr m ρ c (8 : Fin 9)).trans hV)

end Cert.KernelIdeal.Val

end
-- ==== Proof.RefSpec.lean ====
/-
  The reference program computes the specification: its result array, read one operation at a time, is
  causal softmax attention of the projected rows. The reference shifts every score row by its maximum before
  exponentiating (two passes); the specification has no shift, and the two agree because the quotient of the
  weighted sums does not see a real shift.
-/
import proofs.«402334_j1417339207762_3_alg».proof.Proof.Gen.ReferenceIdeal.Read
import proofs.«402334_j1417339207762_3_alg».proof.Proof.Spec
import proofs.«402334_j1417339207762_3_alg».proof.Proof.LibSoftmax
import Idealize.ShloMosaic.Lib.ValueIdx
import Idealize.ShloMosaic.PureOps.Ideal.Laws
import Idealize.ShloMosaic.Lib.StableHlo.Predicate

noncomputable section

open scoped BigOperators

namespace Cert.RefSpec

open Idealize.ShloMosaic Idealize.ShloMosaic.ValueIdx Cert.ReferenceIdeal Cert.ReferenceIdeal.Read

open Cert.Spec in
/-- A dot product of two finite rows over the 256 features is the real dot product of their real parts. -/
theorem proj_coe (x : (⟨S4x4096x256, .f32⟩ : BufTy).Contents (Elt Ideal)) (w : (⟨S256x64, .f32⟩ : BufTy).Contents (Elt Ideal))
    (hx : Cert.Spec.Finite (S := Cert.Spec.SX) x) (hw : Cert.Spec.Finite (S := Cert.Spec.SW) w)
    (b : Fin 4) (s : Fin 4096) (e : Fin 64) :
    ∑ k : Fin 256, x (ix3 b s k) * w (ix2 k e) = ((Cert.Spec.projR (Cert.Spec.re x) (Cert.Spec.re w) b s e : ℝ) : EReal) := by
  unfold Cert.Spec.projR
  rw [← Cert.Lib.dot_coe]
  refine Finset.sum_congr rfl fun k _ => ?_
  rw [hx.coe_re, hw.coe_re]

theorem lidx0 (b : Fin 4) (s : Fin 4096) (e : Fin 64) (k : Fin 256) : lidx_main_v0 (ix3 b s e) k = ix3 b s k :=
  funext fun a => Fin.ext (by match a with | ⟨0, _⟩ => rfl | ⟨1, _⟩ => rfl | ⟨2, _⟩ => rfl)
theorem ridx0 (b : Fin 4) (s : Fin 4096) (e : Fin 64) (k : Fin 256) : ridx_main_v0 (ix3 b s e) k = ix2 k e :=
  funext fun a => Fin.ext (by match a with | ⟨0, _⟩ => rfl | ⟨1, _⟩ => rfl)

/-- The projected keys, at an index: the real projection of the real parts. -/
theorem v0_ix (x0 : (⟨S4x4096x256, .f32⟩ : BufTy).Contents (Elt Ideal)) (x4 : (⟨S256x64, .f32⟩ : BufTy).Contents (Elt Ideal))
    (h0 : Cert.Spec.Finite (S := Cert.Spec.SX) x0) (h4 : Cert.Spec.Finite (S := Cert.Spec.SW) x4)
    (b : Fin 4) (s : Fin 4096) (e : Fin 64) :
    val_main_v0 (F := Ideal) x0 x4 (ix3 b s e) = ((Cert.Spec.projR (Cert.Spec.re x0) (Cert.Spec.re x4) b s e : ℝ) : EReal) := by
  rw [val_main_v0_apply]
  refine (Finset.sum_congr rfl fun k _ => ?_).trans (proj_coe x0 x4 h0 h4 b s e)
  rw [lidx0, ridx0]

/-- The projected values, at an index. -/
theorem v1_ix (x1 : (⟨S4x4096x256, .f32⟩ : BufTy).Contents (Elt Ideal)) (x5 : (⟨S256x64, .f32⟩ : BufTy).Contents (Elt Ideal))
    (h1 : Cert.Spec.Finite (S := Cert.Spec.SX) x1) (h5 : Cert.Spec.Finite (S := Cert.Spec.SW) x5)
    (b : Fin 4) (s : Fin 4096) (e : Fin 64) :
    val_main_v1 (F := Ideal) x1 x5 (ix3 b s e) = ((Cert.Spec.projR (Cert.Spec.re x1) (Cert.Spec.re x5) b s e : ℝ) : EReal) :=
  v0_ix x1 x5 h1 h5 b s e

/-- The projected queries, at an index. -/
theorem v2_ix (x2 : (⟨S4x4096x256, .f32⟩ : BufTy).Contents (Elt Ideal)) (x3 : (⟨S256x64, .f32⟩ : BufTy).Contents (Elt Ideal))
    (h2 : Cert.Spec.Finite (S := Cert.Spec.SX) x2) (h3 : Cert.Spec.Finite (S := Cert.Spec.SW) x3)
    (b : Fin 4) (s : Fin 4096) (e : Fin 64) :
    val_main_v2 (F := Ideal) x2 x3 (ix3 b s e) = ((Cert.Spec.projR (Cert.Spec.re x2) (Cert.Spec.re x3) b s e : ℝ) : EReal) :=
  v0_ix x2 x3 h2 h3 b s e

/-- The word `0x42800000` is the real 64. -/
theorem ofBits_64 : Ideal.ofBits .f32 0x42800000#32 = ((64 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  rw [Ideal.sqrt_coe, if_neg (by norm_num)]
  refine congrArg _ ?_
  rw [show (64 : ℝ) = 8 ^ 2 by norm_num]
  exact Real.sqrt_sq (by norm_num)

theorem lidx3 (b : Fin 4) (q k : Fin 4096) (e : Fin 64) : lidx_main_v3 (ix3 b q k) e = ix3 b q e :=
  funext fun a => Fin.ext (by match a with | ⟨0, _⟩ => rfl | ⟨1, _⟩ => rfl | ⟨2, _⟩ => rfl)
theorem ridx3 (b : Fin 4) (q k : Fin 4096) (e : Fin 64) : ridx_main_v3 (ix3 b q k) e = ix3 b k e :=
  funext fun a => Fin.ext (by match a with | ⟨0, _⟩ => rfl | ⟨1, _⟩ => rfl | ⟨2, _⟩ => rfl)

/-- The scaled score of query row `q` against key row `k`, at an index: the real score of the real projections. -/
theorem v6_ix (x0 x2 : (⟨S4x4096x256, .f32⟩ : BufTy).Contents (Elt Ideal)) (x3 x4 : (⟨S256x64, .f32⟩ : BufTy).Contents (Elt Ideal))
    (h0 : Cert.Spec.Finite (S := Cert.Spec.SX) x0) (h2 : Cert.Spec.Finite (S := Cert.Spec.SX) x2)
    (h3 : Cert.Spec.Finite (S := Cert.Spec.SW) x3) (h4 : Cert.Spec.Finite (S := Cert.Spec.SW) x4)
    (b : Fin 4) (q k : Fin 4096) :
    val_main_v6 (F := Ideal) x0 x2 x3 x4 (ix3 b q k)
      = ((Cert.Spec.scoreR (Cert.Spec.projR (Cert.Spec.re x2) (Cert.Spec.re x3)) (Cert.Spec.projR (Cert.Spec.re x0) (Cert.Spec.re x4)) b q k : ℝ) : EReal) := by
  rw [val_main_v6_apply, val_main_v3_apply, val_main_v5_apply, val_main_v4_apply, val_main_cst_apply,
    Ideal.hostDivf_def, Ideal.hostUnary_sqrt_def, Ideal.ofBits_def, ofBits_64, sqrt_64, Ideal.div_coe (by norm_num)]
  have hs : ∑ e : Fin 64, val_main_v2 (F := Ideal) x2 x3 (lidx_main_v3 (ix3 b q k) e) * val_main_v0 (F := Ideal) x0 x4 (ridx_main_v3 (ix3 b q k) e)
      = ((∑ e : Fin 64, Cert.Spec.projR (Cert.Spec.re x2) (Cert.Spec.re x3) b q e * Cert.Spec.projR (Cert.Spec.re x0) (Cert.Spec.re x4) b k e : ℝ) : EReal) := by
    rw [← Cert.Lib.dot_coe]
    refine Finset.sum_congr rfl fun e _ => ?_
    rw [lidx3, ridx3, v2_ix x2 x3 h2 h3, v0_ix x0 x4 h0 h4]
  rw [hs, ← EReal.coe_mul]
  unfold Cert.Spec.scoreR
  refine congrArg _ ?_
  ring

/-- The causal mask at an index: minus infinity where the key index exceeds the query index, zero elsewhere. -/
theorem v17_ix (b : Fin 4) (q k : Fin 4096) :
    val_main_v17 (F := Ideal) (ix3 b q k) = if q < k then (⊥ : EReal) else 0 := by
  rw [val_main_v17_apply, val_main_v16_apply, val_main_v15_apply, val_main_v14_apply, val_main_v13_apply,
    val_main_v11_apply, val_main_v10_apply, val_main_v9_apply, val_main_v12_apply, val_main_v8_apply, val_main_v7_apply,
    val_main_call0_v0_apply, val_main_call0_v1_apply, val_main_cst_0_apply, val_main_cst_1_apply]
  show Scalar.select (IntOp.cmpi .sgt (BitVec.ofNat 32 k.val) (BitVec.ofNat 32 q.val))
    (Ideal.ofBits .f32 0xFF800000#32) (Ideal.ofBits .f32 0x00000000#32) = _
  have hb : Ideal.ofBits .f32 0xFF800000#32 = (⊥ : EReal) := by simp [Ideal.ofBits, Ideal.ieee]
  rw [hb, Ideal.ofBits_zero_f32]
  have hq : q.val < 2 ^ 31 := lt_of_lt_of_le q.isLt (by norm_num)
  have hk : k.val < 2 ^ 31 := lt_of_lt_of_le k.isLt (by norm_num)
  have hc := StableHlo.Predicate.slt_ofNat_iff q.val k.val hq hk
  by_cases hqk : q < k
  · rw [if_pos hqk, show IntOp.cmpi .sgt (BitVec.ofNat 32 k.val) (BitVec.ofNat 32 q.val) = 1#1 from hc.2 hqk, select_one]
  · rw [if_neg hqk, show IntOp.cmpi .sgt (BitVec.ofNat 32 k.val) (BitVec.ofNat 32 q.val) = 0#1 from
      eq_zero_of_ne_one (fun h => hqk (hc.1 h)), select_zero]

/-- The masked score at an index. -/
theorem v18_ix (x0 x2 : (⟨S4x4096x256, .f32⟩ : BufTy).Contents (Elt Ideal)) (x3 x4 : (⟨S256x64, .f32⟩ : BufTy).Contents (Elt Ideal))
    (h0 : Cert.Spec.Finite (S := Cert.Spec.SX) x0) (h2 : Cert.Spec.Finite (S := Cert.Spec.SX) x2)
    (h3 : Cert.Spec.Finite (S := Cert.Spec.SW) x3) (h4 : Cert.Spec.Finite (S := Cert.Spec.SW) x4)
    (b : Fin 4) (q k : Fin 4096) :
    val_main_v18 (F := Ideal) x0 x2 x3 x4 (ix3 b q k)
      = if q < k then (⊥ : EReal) else
          ((Cert.Spec.scoreR (Cert.Spec.projR (Cert.Spec.re x2) (Cert.Spec.re x3)) (Cert.Spec.projR (Cert.Spec.re x0) (Cert.Spec.re x4)) b q k : ℝ) : EReal) := by
  rw [val_main_v18_apply, Ideal.addf_def, v6_ix x0 x2 x3 x4 h0 h2 h3 h4, v17_ix]
  by_cases hqk : q < k
  · rw [if_pos hqk, if_pos hqk, EReal.add_bot]
  · rw [if_neg hqk, if_neg hqk, add_zero]

/-- The row maximum at `(b, q)`: the fold of `max` from minus infinity over the row's masked scores. -/
theorem v19_ix (x0 x2 : (⟨S4x4096x256, .f32⟩ : BufTy).Contents (Elt Ideal)) (x3 x4 : (⟨S256x64, .f32⟩ : BufTy).Contents (Elt Ideal))
    (b : Fin 4) (q : Fin 4096) :
    val_main_v19 (F := Ideal) x0 x2 x3 x4 (ix2 b q)
      = (Finset.univ : Finset (Fin 4096)).fold max (⊥ : EReal) (fun k => val_main_v18 (F := Ideal) x0 x2 x3 x4 (ix3 b q k)) := by
  unfold val_main_v19
  generalize val_main_v18 (F := Ideal) x0 x2 x3 x4 = y
  have h : S4x4096x4096.Reduces [2] S4x4096 := by decide
  refine (Host.reduce_eq_fold_single _ y _ Gen.reducesTo_S4x4096x4096_S4x4096_d2 h Gen.h_S_ (ix2 b q)).trans ?_
  have hb : val_main_cst_2 (F := Ideal) (Shape.Idx.first Gen.h_S_) = (⊥ : EReal) := by
    rw [val_main_cst_2_apply, Ideal.ofBits_def]; simp [Ideal.ofBits, Ideal.ieee]
  have hl : y ∘ h.lift (ix2 b q) = fun k : Fin 4096 => y (ix3 b q k) :=
    funext fun k => congrArg y (funext fun a => Fin.ext (by match a with | ⟨0, _⟩ => rfl | ⟨1, _⟩ => rfl | ⟨2, _⟩ => rfl))
  rw [hb, hl]
  rfl

/-- The row maximum bounds the diagonal score from above and is not plus infinity. -/
theorem v21_ix (x0 x2 : (⟨S4x4096x256, .f32⟩ : BufTy).Contents (Elt Ideal)) (x3 x4 : (⟨S256x64, .f32⟩ : BufTy).Contents (Elt Ideal))
    (h0 : Cert.Spec.Finite (S := Cert.Spec.SX) x0) (h2 : Cert.Spec.Finite (S := Cert.Spec.SX) x2)
    (h3 : Cert.Spec.Finite (S := Cert.Spec.SW) x3) (h4 : Cert.Spec.Finite (S := Cert.Spec.SW) x4)
    (b : Fin 4) (q : Fin 4096) :
    val_main_v18 (F := Ideal) x0 x2 x3 x4 (ix3 b q q) ≤ val_main_v21 (F := Ideal) x0 x2 x3 x4 (ix2 b q)
      ∧ val_main_v21 (F := Ideal) x0 x2 x3 x4 (ix2 b q) < ⊤ := by
  have hb : val_main_v20 (F := Ideal) (ix2 b q) = (⊥ : EReal) := by
    rw [val_main_v20_apply, val_main_cst_3_apply, Ideal.ofBits_def]; simp [Ideal.ofBits, Ideal.ieee]
  rw [val_main_v21_apply, Ideal.maximumf_def, hb, max_bot_left, v19_ix]
  refine ⟨(Finset.le_fold_max _).2 (Or.inr ⟨q, Finset.mem_univ _, le_rfl⟩), (Finset.fold_max_lt _).2 ⟨bot_lt_top, fun k _ => ?_⟩⟩
  rw [v18_ix x0 x2 x3 x4 h0 h2 h3 h4]
  by_cases hqk : q < k
  · rw [if_pos hqk]; exact bot_lt_top
  · rw [if_neg hqk]; exact EReal.coe_lt_top _

theorem idx2223 (b : Fin 4) (q k : Fin 4096) : idx_main_v22 (idx_main_v23 (ix3 b q k)) = ix2 b q :=
  funext fun a => Fin.ext (by match a with | ⟨0, _⟩ => rfl | ⟨1, _⟩ => rfl)
theorem idx2728 (b : Fin 4) (q k : Fin 4096) : idx_main_v27 (idx_main_v28 (ix3 b q k)) = ix2 b q :=
  funext fun a => Fin.ext (by match a with | ⟨0, _⟩ => rfl | ⟨1, _⟩ => rfl)
theorem idx26 (b : Fin 4) (q k : Fin 4096) : idx_main_v26 (ix2 b q) k = ix3 b q k :=
  funext fun a => Fin.ext (by match a with | ⟨0, _⟩ => rfl | ⟨1, _⟩ => rfl | ⟨2, _⟩ => rfl)
theorem lidx30 (b : Fin 4) (q : Fin 4096) (e : Fin 64) (k : Fin 4096) : lidx_main_v30 (ix3 b q e) k = ix3 b q k :=
  funext fun a => Fin.ext (by match a with | ⟨0, _⟩ => rfl | ⟨1, _⟩ => rfl | ⟨2, _⟩ => rfl)
theorem ridx30 (b : Fin 4) (q : Fin 4096) (e : Fin 64) (k : Fin 4096) : ridx_main_v30 (ix3 b q e) k = ix3 b k e :=
  funext fun a => Fin.ext (by match a with | ⟨0, _⟩ => rfl | ⟨1, _⟩ => rfl | ⟨2, _⟩ => rfl)

/-- The shifted exponential at an index. -/
theorem v25_ix (x0 x2 : (⟨S4x4096x256, .f32⟩ : BufTy).Contents (Elt Ideal)) (x3 x4 : (⟨S256x64, .f32⟩ : BufTy).Contents (Elt Ideal))
    (b : Fin 4) (q k : Fin 4096) :
    val_main_v25 (F := Ideal) x0 x2 x3 x4 (ix3 b q k)
      = Ideal.exp (val_main_v18 (F := Ideal) x0 x2 x3 x4 (ix3 b q k) - val_main_v21 (F := Ideal) x0 x2 x3 x4 (ix2 b q)) := by
  rw [val_main_v25_apply, val_main_v24_apply, val_main_v23_apply, val_main_v22_apply, idx2223,
    Ideal.hostUnary_exp_def, Ideal.subf_def]

/-- The normalised weight at an index: the shifted exponential over the row's sum of them. -/
theorem v29_ix (x0 x2 : (⟨S4x4096x256, .f32⟩ : BufTy).Contents (Elt Ideal)) (x3 x4 : (⟨S256x64, .f32⟩ : BufTy).Contents (Elt Ideal))
    (b : Fin 4) (q k : Fin 4096) :
    val_main_v29 (F := Ideal) x0 x2 x3 x4 (ix3 b q k)
      = Ideal.div (Ideal.exp (val_main_v18 (F := Ideal) x0 x2 x3 x4 (ix3 b q k) - val_main_v21 (F := Ideal) x0 x2 x3 x4 (ix2 b q)))
          (0 + ∑ k' : Fin 4096, Ideal.exp (val_main_v18 (F := Ideal) x0 x2 x3 x4 (ix3 b q k') - val_main_v21 (F := Ideal) x0 x2 x3 x4 (ix2 b q))) := by
  rw [val_main_v29_apply, Ideal.hostDivf_def, v25_ix, val_main_v28_apply, val_main_v27_apply, idx2728, val_main_v26_apply,
    val_main_cst_4_apply, Ideal.ofBits_def, Ideal.ofBits_zero_f32]
  refine congrArg (fun z => Ideal.div _ (0 + z)) (Finset.sum_congr rfl fun k' _ => ?_)
  rw [idx26, v25_ix]

/-- On finite arguments the reference's result is the specification's, index by index. -/
theorem ref_eq_G (x0 x1 x2 : (⟨S4x4096x256, .f32⟩ : BufTy).Contents (Elt Ideal)) (x3 x4 x5 : (⟨S256x64, .f32⟩ : BufTy).Contents (Elt Ideal))
    (h0 : Cert.Spec.Finite (S := Cert.Spec.SX) x0) (h1 : Cert.Spec.Finite (S := Cert.Spec.SX) x1) (h2 : Cert.Spec.Finite (S := Cert.Spec.SX) x2)
    (h3 : Cert.Spec.Finite (S := Cert.Spec.SW) x3) (h4 : Cert.Spec.Finite (S := Cert.Spec.SW) x4) (h5 : Cert.Spec.Finite (S := Cert.Spec.SW) x5) :
    val_main_v30 (F := Ideal) x0 x1 x2 x3 x4 x5 = Cert.Spec.G x0 x1 x2 x3 x4 x5 := by
  funext i
  obtain ⟨b, q, e, rfl⟩ : ∃ (b : Fin 4) (q : Fin 4096) (e : Fin 64), i = ix3 b q e := ⟨i 0, i 1, i 2, eq_ix3 i⟩
  rw [val_main_v30_apply]
  have hM := v21_ix x0 x2 x3 x4 h0 h2 h3 h4 b q
  have key := Cert.Lib.twopass q
    (fun k => Cert.Spec.scoreR (Cert.Spec.projR (Cert.Spec.re x2) (Cert.Spec.re x3)) (Cert.Spec.projR (Cert.Spec.re x0) (Cert.Spec.re x4)) b q k)
    (fun k => Cert.Spec.projR (Cert.Spec.re x1) (Cert.Spec.re x5) b k e)
    (fun k => val_main_v18 (F := Ideal) x0 x2 x3 x4 (ix3 b q k))
    (fun k => val_main_v1 (F := Ideal) x1 x5 (ix3 b k e))
    (fun k => v18_ix x0 x2 x3 x4 h0 h2 h3 h4 b q k)
    (fun k => v1_ix x1 x5 h1 h5 b k e)
    (val_main_v21 (F := Ideal) x0 x2 x3 x4 (ix2 b q)) hM.1 hM.2
  refine Eq.trans (Finset.sum_congr rfl fun k _ => ?_) key
  rw [lidx30, ridx30, v29_ix]

end Cert.RefSpec

end
-- ==== Proof.lean ====
/-
  Causal flash attention against its two-pass jnp reference, over the extended reals.

  The kernel program projects the three inputs (one pipeline of three matrix products) and then runs causal attention
  tile by tile (a second pipeline steered by two prefetched tables that list, per batch, the ten (query tile, key tile)
  pairs with key tile ≤ query tile): per query row it carries a shift, a denominator and a numerator, rescales them when
  the shift grows, masks the diagonal tile with a constant that stands for −∞ (named so in the idealized program), and
  stores numerator / denominator at the diagonal tile. The reference forms the whole masked score matrix, subtracts each
  row's maximum, exponentiates, normalises and multiplies with the values. On finite inputs both are
  `(∑_{k ≤ q} exp (s k) · v k) / (∑_{k ≤ q} exp (s k))` with `s k = (Q q · K k) / 8`: the quotient does not see a real shift,
  a masked key contributes `exp ⊥ = 0`, scaling the queries by 1/8 scales the dot product, and a format change is the
  identity on the extended reals.

  The three frames: the reference's is its run with the result dropped; the two kernel programs' come from the run of
  @main as a list of segments (two table constants, the projection pipeline, the attention pipeline), each pipeline with
  its body obligation at every grid point. The sanctioned idealization has one entry, the named constant.
-/
import proofs.«402334_j1417339207762_3_alg».proof.Defs
import proofs.«402334_j1417339207762_3_alg».proof.Proof.Gen.Kernel
import proofs.«402334_j1417339207762_3_alg».proof.Proof.Gen.KernelIdeal
import proofs.«402334_j1417339207762_3_alg».proof.Proof.Gen.ReferenceIdeal
import proofs.«402334_j1417339207762_3_alg».proof.Proof.Gen.Pre_finite_inputs
import proofs.«402334_j1417339207762_3_alg».proof.Proof.Gen.ReferenceIdeal.Run
import proofs.«402334_j1417339207762_3_alg».proof.Proof.Gen.ReferenceIdeal.Read
import proofs.«402334_j1417339207762_3_alg».proof.Proof.KRun
import proofs.«402334_j1417339207762_3_alg».proof.Proof.Run
import proofs.«402334_j1417339207762_3_alg».proof.Proof.KValue
import proofs.«402334_j1417339207762_3_alg».proof.Proof.RefSpec
import proofs.«402334_j1417339207762_3_alg».proof.Proof.PreFinite
import Idealize.ShloMosaic.Adequacy
import Idealize.ShloMosaic.Init

noncomputable section

namespace Cert.Proof

open Idealize.ShloMosaic Idealize.SL.Sem

/-- The word-level program runs and leaves its arguments alone. -/
theorem frame_k : Cert.frame_Kernel (hKernel := Cert.Kernel.Gen.facts) (hPre_finite_inputs := Cert.Pre_finite_inputs.Gen.facts) :=
  fun m ρ _ => Cert.Kernel.Run.frame m ρ

/-- So does the idealized program. -/
theorem frame_ki : Cert.frame_KernelIdeal (hKernelIdeal := Cert.KernelIdeal.Gen.facts) (hPre_finite_inputs := Cert.Pre_finite_inputs.Gen.facts) :=
  fun m ρ _ => Cert.KernelIdeal.Run.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- The one entry of the idealization's ledger: the mask constant is named `⊥`. -/
theorem preserves : Cert.preserves_Kernel_KernelIdeal :=
  IdealRules.named_const.statement Cert.KernelIdeal.κ "neg_big" .f32 0xFF333332#32 ⊥ rfl

/-- Both idealized programs end with the specification of the (finite, agreeing) arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Val.result_eq (hP := Cert.Pre_finite_inputs.Gen.facts) m ρ c (hpre c)), (h c).2⟩)
      (Cert.KernelIdeal.Run.run_result m ρ)
  · refine (θ_run Cert.ReferenceIdeal.defs _ _).mono (fun _ h c => ⟨?_, (h c).2⟩)
      (Cert.ReferenceIdeal.Value.run (F := Ideal) m' ρ')
    obtain ⟨f0, f1, f2, f3, f4, f5⟩ := Cert.PreFinite.finite_of_pre (hP := Cert.Pre_finite_inputs.Gen.facts) _ _ _ _ _ _ (hpre c)
    rw [(h c).1, Cert.ReferenceIdeal.Read.val_main_v30_eq, (hagree c).1, (hagree c).2.1, (hagree c).2.2.1, (hagree c).2.2.2.1,
      (hagree c).2.2.2.2.1, (hagree c).2.2.2.2.2]
    exact Cert.RefSpec.ref_eq_G _ _ _ _ _ _ f0 f1 f2 f3 f4 f5

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
